-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S8x131072 .f32 .bf16
  ∧ IdealRules.truncf_extf.Statement Cert.KernelIdeal.S8x16 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8x131072 : Shape := ⟨3, ![32, 8, 131072]⟩
abbrev S32x131072 : Shape := ⟨2, ![32, 131072]⟩
abbrev S_ : Shape := ⟨0, ![]⟩

class Facts : Prop where
  bcast_S_S32x8x131072 : S_.BroadcastsInDim S32x8x131072 (![] : Fin 0 → Fin S32x8x131072.rank)
  reducesTo_S32x8x131072_S_d0_1_2 : S32x8x131072.ReducesTo [0, 1, 2] S_
  h_S_ : 0 < S_.numel
  bcast_S_S32x131072 : S_.BroadcastsInDim S32x131072 (![] : Fin 0 → Fin S32x131072.rank)
  reducesTo_S32x131072_S_d0_1 : S32x131072.ReducesTo [0, 1] S_

variable [Facts]

def fn {F : FTy → Type} [FloatOps F] (main_arg0 : FVec F S32x8x131072 .f32) (main_arg1 : IVec S32x131072 32) : IVec S_ 1 :=
  let main_v0 : FVec F S32x8x131072 .f32 := Host.absf main_arg0
  let main_cst : FVec F S_ .f32 := constant S_ .f32 0x7F800000#32
  let main_v1 : FVec F S32x8x131072 .f32 := broadcastInDim S32x8x131072 ![] bcast_S_S32x8x131072 main_cst
  let main_v2 : IVec S32x8x131072 1 := cmpf .olt main_v0 main_v1
  let main_c : IVec S_ 1 := constantI S_ 1 1#1
  let main_v3 : IVec S_ 1 := (fun x v => Host.reduce IntOp.andi x v reducesTo_S32x8x131072_S_d0_1_2 h_S_) main_v2 main_c
  let main_c_0 : IVec S_ 32 := constantI S_ 32 0#32
  let main_v4 : IVec S32x131072 32 := broadcastInDim S32x131072 ![] bcast_S_S32x131072 main_c_0
  let main_v5 : IVec S32x131072 1 := cmpi .sge main_arg1 main_v4
  let main_c_1 : IVec S_ 1 := constantI S_ 1 1#1
  let main_v6 : IVec S_ 1 := (fun x v => Host.reduce IntOp.andi x v reducesTo_S32x131072_S_d0_1 h_S_) main_v5 main_c_1
  let main_v7 : IVec S_ 1 := andi main_v3 main_v6
  let main_c_2 : IVec S_ 32 := constantI S_ 32 16#32
  let main_v8 : IVec S32x131072 32 := broadcastInDim S32x131072 ![] bcast_S_S32x131072 main_c_2
  let main_v9 : IVec S32x131072 1 := cmpi .slt main_arg1 main_v8
  let main_c_3 : IVec S_ 1 := constantI S_ 1 1#1
  let main_v10 : IVec S_ 1 := (fun x v => Host.reduce IntOp.andi x v reducesTo_S32x131072_S_d0_1 h_S_) main_v9 main_c_3
  let main_v11 : IVec S_ 1 := andi main_v7 main_v10
  main_v11
-- ==== Kernel.lean ====
abbrev S32x8x131072 : Shape := ⟨3, ![32, 8, 131072]⟩
abbrev S32x131072 : Shape := ⟨2, ![32, 131072]⟩
abbrev S32x1x131072 : Shape := ⟨3, ![32, 1, 131072]⟩
abbrev S32x8x16 : Shape := ⟨3, ![32, 8, 16]⟩
abbrev S32x1x16 : Shape := ⟨3, ![32, 1, 16]⟩
abbrev S1x8x131072 : Shape := ⟨3, ![1, 8, 131072]⟩
abbrev S1x1x131072 : Shape := ⟨3, ![1, 1, 131072]⟩
abbrev S1x8x16 : Shape := ⟨3, ![1, 8, 16]⟩
abbrev S1x1x16 : Shape := ⟨3, ![1, 1, 16]⟩
abbrev S8x131072 : Shape := ⟨2, ![8, 131072]⟩
abbrev S1x131072 : Shape := ⟨2, ![1, 131072]⟩
abbrev S16x131072 : Shape := ⟨2, ![16, 131072]⟩
abbrev S16 : Shape := ⟨1, ![16]⟩
abbrev S1x16 : Shape := ⟨2, ![1, 16]⟩
abbrev S8x16 : Shape := ⟨2, ![8, 16]⟩
abbrev S131072 : Shape := ⟨1, ![131072]⟩
abbrev S32x16 : Shape := ⟨2, ![32, 16]⟩
abbrev S_ : Shape := ⟨0, ![]⟩
abbrev S32x16x8 : Shape := ⟨3, ![32, 16, 8]⟩
abbrev S32 : Shape := ⟨1, ![32]⟩
abbrev S32x1 : Shape := ⟨2, ![32, 1]⟩
abbrev S32x16x1 : Shape := ⟨3, ![32, 16, 1]⟩
abbrev S32x16x2 : Shape := ⟨3, ![32, 16, 2]⟩
abbrev S32x16x1x8 : Shape := ⟨4, ![32, 16, 1, 8]⟩
abbrev S32x1x16x8 : Shape := ⟨4, ![32, 1, 16, 8]⟩
abbrev S32x16x16x8 : Shape := ⟨4, ![32, 16, 16, 8]⟩
abbrev S32x16x16 : Shape := ⟨3, ![32, 16, 16]⟩
abbrev S16x16 : Shape := ⟨2, ![16, 16]⟩
abbrev S1x16x16 : Shape := ⟨3, ![1, 16, 16]⟩

abbrev nBuf : Space → Nat
  | .hbm => 107
  | .vmem => 10
  | .smem => 0
  | _ => 0

abbrev bufTy : (tb : Table) → Fin (tcTables nBuf tb) → BufTy
  | .hbm, ⟨0, _⟩ => ⟨S32x8x131072, .f32⟩
  | .hbm, ⟨1, _⟩ => ⟨S32x131072, .i32⟩
  | .hbm, ⟨2, _⟩ => ⟨S32x1x131072, .i32⟩
  | .hbm, ⟨3, _⟩ => ⟨S32x8x16, .f32⟩
  | .hbm, ⟨4, _⟩ => ⟨S32x1x16, .f32⟩
  | .hbm, ⟨5, _⟩ => ⟨S32x1x16, .f32⟩
  | .hbm, ⟨6, _⟩ => ⟨S32x16, .f32⟩
  | .hbm, ⟨7, _⟩ => ⟨S32x16, .f32⟩
  | .hbm, ⟨8, _⟩ => ⟨S_, .f32⟩
  | .hbm, ⟨9, _⟩ => ⟨S32x16, .f32⟩
  | .hbm, ⟨10, _⟩ => ⟨S32x16, .i1⟩
  | .hbm, ⟨11, _⟩ => ⟨S_, .f32⟩
  | .hbm, ⟨12, _⟩ => ⟨S_, .f32⟩
  | .hbm, ⟨13, _⟩ => ⟨S32x16, .f32⟩
  | .hbm, ⟨14, _⟩ => ⟨S32x16, .f32⟩
  | .hbm, ⟨15, _⟩ => ⟨S32x1x16, .f32⟩
  | .hbm, ⟨16, _⟩ => ⟨S32x8x16, .f32⟩
  | .hbm, ⟨17, _⟩ => ⟨S32x8x16, .f32⟩
  | .hbm, ⟨18, _⟩ => ⟨S32x16, .f32⟩
  | .hbm, ⟨19, _⟩ => ⟨S_, .f32⟩
  | .hbm, ⟨20, _⟩ => ⟨S_, .f32⟩
  | .hbm, ⟨21, _⟩ => ⟨S32x16, .f32⟩
  | .hbm, ⟨22, _⟩ => ⟨S32x16, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S32x16x8, .f32⟩
  | .hbm, ⟨28, _⟩ => ⟨S32x16, .i32⟩
  | .hbm, ⟨29, _⟩ => ⟨S32, .i32⟩
  | .hbm, ⟨30, _⟩ => ⟨S32x1, .i32⟩
  | .hbm, ⟨31, _⟩ => ⟨S_, .i32⟩
  | .hbm, ⟨32, _⟩ => ⟨S32x1, .i32⟩
  | .hbm, ⟨33, _⟩ => ⟨S32x1, .i1⟩
  | .hbm, ⟨34, _⟩ => ⟨S_, .i32⟩
  | .hbm, ⟨35, _⟩ => ⟨S32x1, .i32⟩
  | .hbm, ⟨36, _⟩ => ⟨S32x1, .i32⟩
  | .hbm, ⟨37, _⟩ => ⟨S32x1, .i32⟩
  | .hbm, ⟨38, _⟩ => ⟨S_, .i32⟩
  | .hbm, ⟨39, _⟩ => ⟨S32x16, .i32⟩
  | .hbm, ⟨40, _⟩ => ⟨S32x16, .i1⟩
  | .hbm, ⟨41, _⟩ => ⟨S_, .i32⟩
  | .hbm, ⟨42, _⟩ => ⟨S32x16, .i32⟩
  | .hbm, ⟨43, _⟩ => ⟨S32x16, .i32⟩
  | .hbm, ⟨44, _⟩ => ⟨S32x16, .i32⟩
  | .hbm, ⟨45, _⟩ => ⟨S32x16, .i32⟩
  | .hbm, ⟨46, _⟩ => ⟨S32x16x1, .i32⟩
  | .hbm, ⟨47, _⟩ => ⟨S32x16x1, .i32⟩
  | .hbm, ⟨48, _⟩ => ⟨S32x16x2, .i32⟩
  | .hbm, ⟨49, _⟩ => ⟨S32x16x8, .f32⟩
  | .hbm, ⟨50, _⟩ => ⟨S32x16x1x8, .f32⟩
  | .hbm, ⟨51, _⟩ => ⟨S32x1x16x8, .f32⟩
  | .hbm, ⟨52, _⟩ => ⟨S32x16x16x8, .f32⟩
  | .hbm, ⟨53, _⟩ => ⟨S32x16x16x8, .f32⟩
  | .hbm, ⟨54, _⟩ => ⟨S32x16x16x8, .f32⟩
  | .hbm, ⟨55, _⟩ => ⟨S32x16x16x8, .f32⟩
  | .hbm, ⟨56, _⟩ => ⟨S_, .f32⟩
  | .hbm, ⟨57, _⟩ => ⟨S32x16x16, .f32⟩
  | .hbm, ⟨58, _⟩ => ⟨S16x16, .i32⟩
  | .hbm, ⟨59, _⟩ => ⟨S16x16, .i32⟩
  | .hbm, ⟨60, _⟩ => ⟨S_, .i32⟩
  | .hbm, ⟨61, _⟩ => ⟨S16x16, .i32⟩
  | .hbm, ⟨62, _⟩ => ⟨S16x16, .i32⟩
  | .hbm, ⟨63, _⟩ => ⟨S16x16, .i1⟩
  | .hbm, ⟨64, _⟩ => ⟨S16x16, .f32⟩
  | .hbm, ⟨65, _⟩ => ⟨S_, .f32⟩
  | .hbm, ⟨66, _⟩ => ⟨S16x16, .f32⟩
  | .hbm, ⟨67, _⟩ => ⟨S16x16, .f32⟩
  | .hbm, ⟨68, _⟩ => ⟨S_, .f32⟩
  | .hbm, ⟨69, _⟩ => ⟨S16x16, .f32⟩
  | .hbm, ⟨70, _⟩ => ⟨S16x16, .f32⟩
  | .hbm, ⟨71, _⟩ => ⟨S1x16x16, .f32⟩
  | .hbm, ⟨72, _⟩ => ⟨S32x16x16, .f32⟩
  | .hbm, ⟨73, _⟩ => ⟨S32x16x16, .f32⟩
  | .hbm, ⟨74, _⟩ => ⟨S_, .f32⟩
  | .hbm, ⟨75, _⟩ => ⟨S32x16x16, .f32⟩
  | .hbm, ⟨76, _⟩ => ⟨S32x16x16, .f32⟩
  | .hbm, ⟨77, _⟩ => ⟨S32x16x16, .f32⟩
  | .hbm, ⟨78, _⟩ => ⟨S_, .f32⟩
  | .hbm, ⟨79, _⟩ => ⟨S32, .f32⟩
  | .hbm, ⟨80, _⟩ => ⟨S_, .f32⟩
  | .hbm, ⟨81, _⟩ => ⟨S32, .f32⟩
  | .hbm, ⟨82, _⟩ => ⟨S32, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S32x16x8, .f32⟩
  | .hbm, ⟨88, _⟩ => ⟨S_, .f32⟩
  | .hbm, ⟨89, _⟩ => ⟨S32x16, .f32⟩
  | .hbm, ⟨90, _⟩ => ⟨S_, .f32⟩
  | .hbm, ⟨91, _⟩ => ⟨S32, .f32⟩
  | .hbm, ⟨92, _⟩ => ⟨S_, .f32⟩
  | .hbm, ⟨93, _⟩ => ⟨S32, .f32⟩
  | .hbm, ⟨94, _⟩ => ⟨S32, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .local _ .vmem, ⟨0, _⟩ => ⟨S1x8x131072, .f32⟩
  | .local _ .vmem, ⟨1, _⟩ => ⟨S1x8x131072, .f32⟩
  | .local _ .vmem, ⟨2, _⟩ => ⟨S1x1x131072, .i32⟩
  | .local _ .vmem, ⟨3, _⟩ => ⟨S1x1x131072, .i32⟩
  | .local _ .vmem, ⟨4, _⟩ => ⟨S1x8x16, .f32⟩
  | .local _ .vmem, ⟨5, _⟩ => ⟨S1x8x16, .f32⟩
  | .local _ .vmem, ⟨6, _⟩ => ⟨S1x1x16, .f32⟩
  | .local _ .vmem, ⟨7, _⟩ => ⟨S1x1x16, .f32⟩
  | .local _ .vmem, ⟨8, _⟩ => ⟨S1x1x16, .f32⟩
  | .local _ .vmem, ⟨9, _⟩ => ⟨S1x1x16, .f32⟩
  | _, _ => ⟨S32x8x131072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_call0_v0 : Ref sig .tc := ⟨.hbm, 12, rfl⟩
abbrev main_call0_v1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_call1_v0 : Ref sig .tc := ⟨.hbm, 20, rfl⟩
abbrev main_call1_v1 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_c_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_9 : Ref sig .tc := ⟨.hbm, 65, rfl⟩
abbrev main_v46 : Ref sig .tc := ⟨.hbm, 66, rfl⟩
abbrev main_v47 : Ref sig .tc := ⟨.hbm, 67, rfl⟩
abbrev main_cst_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_11 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_12 : Ref sig .tc := ⟨.hbm, 78, rfl⟩
abbrev main_v56 : Ref sig .tc := ⟨.hbm, 79, rfl⟩
abbrev main_cst_13 : Ref sig .tc := ⟨.hbm, 80, rfl⟩
abbrev main_v57 : Ref sig .tc := ⟨.hbm, 81, rfl⟩
abbrev main_v58 : Ref sig .tc := ⟨.hbm, 82, rfl⟩
abbrev main_cst_14 : Ref sig .tc := ⟨.hbm, 83, rfl⟩
abbrev main_v59 : Ref sig .tc := ⟨.hbm, 84, rfl⟩
abbrev main_cst_15 : Ref sig .tc := ⟨.hbm, 85, rfl⟩
abbrev main_v60 : Ref sig .tc := ⟨.hbm, 86, rfl⟩
abbrev main_v61 : Ref sig .tc := ⟨.hbm, 87, rfl⟩
abbrev main_cst_16 : Ref sig .tc := ⟨.hbm, 88, rfl⟩
abbrev main_v62 : Ref sig .tc := ⟨.hbm, 89, rfl⟩
abbrev main_cst_17 : Ref sig .tc := ⟨.hbm, 90, rfl⟩
abbrev main_v63 : Ref sig .tc := ⟨.hbm, 91, rfl⟩
abbrev main_cst_18 : Ref sig .tc := ⟨.hbm, 92, rfl⟩
abbrev main_v64 : Ref sig .tc := ⟨.hbm, 93, rfl⟩
abbrev main_v65 : Ref sig .tc := ⟨.hbm, 94, rfl⟩
abbrev main_cst_19 : Ref sig .tc := ⟨.hbm, 95, rfl⟩
abbrev main_v66 : Ref sig .tc := ⟨.hbm, 96, rfl⟩
abbrev main_cst_20 : Ref sig .tc := ⟨.hbm, 97, rfl⟩
abbrev main_v67 : Ref sig .tc := ⟨.hbm, 98, rfl⟩
abbrev main_cst_21 : Ref sig .tc := ⟨.hbm, 99, rfl⟩
abbrev main_v68 : Ref sig .tc := ⟨.hbm, 100, rfl⟩
abbrev main_cst_22 : Ref sig .tc := ⟨.hbm, 101, rfl⟩
abbrev main_v69 : Ref sig .tc := ⟨.hbm, 102, rfl⟩
abbrev main_v70 : Ref sig .tc := ⟨.hbm, 103, rfl⟩
abbrev main_cst_23 : Ref sig .tc := ⟨.hbm, 104, rfl⟩
abbrev main_v71 : Ref sig .tc := ⟨.hbm, 105, rfl⟩
abbrev main_v72 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x131072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x131072 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S32x131072_S32x1x131072_0_2 : S32x131072.BroadcastsInDim S32x1x131072 (![0, 2] : Fin 2 → Fin S32x1x131072.rank)
  inb_S1x8x131072_S1x8x131072_0_0_0 : ∀ a, (![0, 0, 0] : Fin 3 → Nat) a + S1x8x131072.size a ≤ S1x8x131072.size a
  h_S1x8x131072 : 0 < S1x8x131072.numel
  shapeCasts_S1x8x131072_S8x131072 : S1x8x131072.ShapeCasts S8x131072
  inb_S1x1x131072_S1x1x131072_0_0_0 : ∀ a, (![0, 0, 0] : Fin 3 → Nat) a + S1x1x131072.size a ≤ S1x1x131072.size a
  h_S1x1x131072 : 0 < S1x1x131072.numel
  shapeCasts_S1x1x131072_S1x131072 : S1x1x131072.ShapeCasts S1x131072
  iota_S16x131072_d0_w32 : S16x131072.Iotas .tc 32 [0]
  broadcasts_S1x131072_S16x131072 : S1x131072.Broadcasts S16x131072
  natLt_1_32 : 1 < 32
  bitsLt_bf16_f32 : FTy.bits .bf16 < FTy.bits .f32
  reduces_S16x131072_S16 : S16x131072.Reduces [1] S16
  shapeCasts_S16_S1x16 : S16.ShapeCasts S1x16
  broadcasts_S1x16_S8x16 : S1x16.Broadcasts S8x16
  reduces_S8x131072_S131072 : S8x131072.Reduces [0] S131072
  shapeCasts_S131072_S1x131072 : S131072.ShapeCasts S1x131072
  shapeCasts_S1x131072_S1x131072 : S1x131072.ShapeCasts S1x131072
  inb_S1x8x16_S1x8x16_0_0_0 : ∀ a, (![0, 0, 0] : Fin 3 → Nat) a + S1x8x16.size a ≤ S1x8x16.size a
  h_S1x8x16 : 0 < S1x8x16.numel
  shapeCasts_S1x8x16_S8x16 : S1x8x16.ShapeCasts S8x16
  shapeCasts_S8x16_S1x8x16 : S8x16.ShapeCasts S1x8x16
  inb_S1x1x16_S1x1x16_0_0_0 : ∀ a, (![0, 0, 0] : Fin 3 → Nat) a + S1x1x16.size a ≤ S1x1x16.size a
  h_S1x1x16 : 0 < S1x1x16.numel
  shapeCasts_S1x1x16_S1x16 : S1x1x16.ShapeCasts S1x16
  shapeCasts_S1x16_S1x1x16 : S1x16.ShapeCasts S1x1x16
  shapeCasts_S32x1x16_S32x16 : S32x1x16.ShapeCasts S32x16
  bcast_S_S32x16 : S_.BroadcastsInDim S32x16 (![] : Fin 0 → Fin S32x16.rank)
  bcast_S32x16_S32x1x16_0_2 : S32x16.BroadcastsInDim S32x1x16 (![0, 2] : Fin 2 → Fin S32x1x16.rank)
  bcast_S32x1x16_S32x8x16_0_1_2 : S32x1x16.BroadcastsInDim S32x8x16 (![0, 1, 2] : Fin 3 → Fin S32x8x16.rank)
  reducesTo_S32x16_S_d0_1 : S32x16.ReducesTo [0, 1] S_
  h_S_ : 0 < S_.numel
  transposes_S32x8x16_S32x16x8_0_2_1 : S32x8x16.Transposes [0, 2, 1] S32x16x8
  slices_S32x131072_S32x16_0_0 : S32x131072.Slices ![0, 0] S32x16
  bcast_S32_S32x1_0 : S32.BroadcastsInDim S32x1 (![0] : Fin 1 → Fin S32x1.rank)
  bcast_S_S32x1 : S_.BroadcastsInDim S32x1 (![] : Fin 0 → Fin S32x1.rank)
  bcast_S32x1_S32x16_0_1 : S32x1.BroadcastsInDim S32x16 (![0, 1] : Fin 2 → Fin S32x16.rank)
  bcast_S32x16_S32x16x1_0_1 : S32x16.BroadcastsInDim S32x16x1 (![0, 1] : Fin 2 → Fin S32x16x1.rank)
  concatenates_S32x16x1_S32x16x1_S32x16x2_d2 : Shape.Concatenates [S32x16x1, S32x16x1] S32x16x2 2
  bcast_S32x16x8_S32x16x1x8_0_1_3 : S32x16x8.BroadcastsInDim S32x16x1x8 (![0, 1, 3] : Fin 3 → Fin S32x16x1x8.rank)
  bcast_S32x16x8_S32x1x16x8_0_2_3 : S32x16x8.BroadcastsInDim S32x1x16x8 (![0, 2, 3] : Fin 3 → Fin S32x1x16x8.rank)
  bcast_S32x16x1x8_S32x16x16x8_0_1_2_3 : S32x16x1x8.BroadcastsInDim S32x16x16x8 (![0, 1, 2, 3] : Fin 4 → Fin S32x16x16x8.rank)
  bcast_S32x1x16x8_S32x16x16x8_0_1_2_3 : S32x1x16x8.BroadcastsInDim S32x16x16x8 (![0, 1, 2, 3] : Fin 4 → Fin S32x16x16x8.rank)
  reducesTo_S32x16x16x8_S32x16x16_d3 : S32x16x16x8.ReducesTo [3] S32x16x16
  bcast_S_S16x16 : S_.BroadcastsInDim S16x16 (![] : Fin 0 → Fin S16x16.rank)
  bcast_S16x16_S1x16x16_1_2 : S16x16.BroadcastsInDim S1x16x16 (![1, 2] : Fin 2 → Fin S1x16x16.rank)
  bcast_S1x16x16_S32x16x16_0_1_2 : S1x16x16.BroadcastsInDim S32x16x16 (![0, 1, 2] : Fin 3 → Fin S32x16x16.rank)
  bcast_S_S32x16x16 : S_.BroadcastsInDim S32x16x16 (![] : Fin 0 → Fin S32x16x16.rank)
  reducesTo_S32x16x16_S32_d1_2 : S32x16x16.ReducesTo [1, 2] S32
  bcast_S_S32 : S_.BroadcastsInDim S32 (![] : Fin 0 → Fin S32.rank)
  reducesTo_S32_S_d0 : S32.ReducesTo [0] S_
  reducesTo_S32x16x8_S32x16_d2 : S32x16x8.ReducesTo [2] S32x16
  reducesTo_S32x16_S32_d1 : S32x16.ReducesTo [1] S32
  dot_S8x131072_S16x131072_S8x16_1_1_0_0_n_n_wf : DotDims.WF S8x131072 S16x131072 S8x16 [1] [1] [0] [0] [] []
  dot_S8x16_S16x131072_S8x131072_1_0_0_1_n_n_wf : DotDims.WF S8x16 S16x131072 S8x131072 [1] [0] [0] [1] [] []
  gather_S32x16x8_S32x16x2_S32x16x8_2_01_n_n_01_2_118_wf : GatherDims.WF S32x16x8 S32x16x2 S32x16x8 [2] [0, 1] [] [0, 1] [] 2 ![1, 1, 8]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x131072.size a ≤ S32x8x131072.size a
  hwx0_0 : ∀ i : grid0.Coords, EltTy.bits .f32 = 32 ∨ (Rect.block (s := S32x8x131072) S1x8x131072.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x131072.size a ≤ S32x1x131072.size a
  hwx0_1 : ∀ i : grid0.Coords, EltTy.bits .i32 = 32 ∨ (Rect.block (s := S32x1x131072) S1x1x131072.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x16.size a ≤ S32x8x16.size a
  hwx0_2 : ∀ i : grid0.Coords, EltTy.bits .f32 = 32 ∨ (Rect.block (s := S32x8x16) S1x8x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x16.size a ≤ S32x1x16.size a
  hwx0_3 : ∀ i : grid0.Coords, EltTy.bits .f32 = 32 ∨ (Rect.block (s := S32x1x16) S1x1x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x16.size a ≤ S32x1x16.size a
  hwx0_4 : ∀ i : grid0.Coords, EltTy.bits .f32 = 32 ∨ (Rect.block (s := S32x1x16) S1x1x16.size (cc0_transform_4 i) (hinb0_4 i)).WholeWords (EltTy.packing .f32)

variable [Facts₀]

def dot_S8x131072_S16x131072_S8x16_1_1_0_0_n_n : DotDims S8x131072 S16x131072 S8x16 where
  lhsContracting := [1]
  rhsContracting := [1]
  lhsNonContracting := [0]
  rhsNonContracting := [0]
  lhsBatch := []
  rhsBatch := []
  wf := dot_S8x131072_S16x131072_S8x16_1_1_0_0_n_n_wf
def dot_S8x16_S16x131072_S8x131072_1_0_0_1_n_n : DotDims S8x16 S16x131072 S8x131072 where
  lhsContracting := [1]
  rhsContracting := [0]
  lhsNonContracting := [0]
  rhsNonContracting := [1]
  lhsBatch := []
  rhsBatch := []
  wf := dot_S8x16_S16x131072_S8x131072_1_0_0_1_n_n_wf
def gather_S32x16x8_S32x16x2_S32x16x8_2_01_n_n_01_2_118 : GatherDims S32x16x8 S32x16x2 S32x16x8 where
  offsetDims := [2]
  collapsedSliceDims := [0, 1]
  operandBatchingDims := []
  startIndicesBatchingDims := []
  startIndexMap := [0, 1]
  indexVectorDim := 2
  sliceSizes := ![1, 1, 8]
  wf := gather_S32x16x8_S32x16x2_S32x16x8_2_01_n_n_01_2_118_wf

abbrev win0_0 : Pipeline.Window sig grid0 :=
  Pipeline.Window.ofSpec (Memref.whole main_arg0) S1x8x131072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x131072.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x8x16.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x16.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_2) S1x1x16.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x8x131072 : Shape := ⟨3, ![32, 8, 131072]⟩
abbrev S32x131072 : Shape := ⟨2, ![32, 131072]⟩
abbrev S32 : Shape := ⟨1, ![32]⟩
abbrev S32x1 : Shape := ⟨2, ![32, 1]⟩
abbrev S_ : Shape := ⟨0, ![]⟩
abbrev S4194304 : Shape := ⟨1, ![4194304]⟩
abbrev S32x131072x8 : Shape := ⟨3, ![32, 131072, 8]⟩
abbrev S4194304x8 : Shape := ⟨2, ![4194304, 8]⟩
abbrev S512x8 : Shape := ⟨2, ![512, 8]⟩
abbrev S4194304x1 : Shape := ⟨2, ![4194304, 1]⟩
abbrev S512 : Shape := ⟨1, ![512]⟩
abbrev S512x1 : Shape := ⟨2, ![512, 1]⟩
abbrev S32x16x8 : Shape := ⟨3, ![32, 16, 8]⟩
abbrev S32x16x1x8 : Shape := ⟨4, ![32, 16, 1, 8]⟩
abbrev S32x1x16x8 : Shape := ⟨4, ![32, 1, 16, 8]⟩
abbrev S32x16x16x8 : Shape := ⟨4, ![32, 16, 16, 8]⟩
abbrev S32x16x16 : Shape := ⟨3, ![32, 16, 16]⟩
abbrev S16x16 : Shape := ⟨2, ![16, 16]⟩
abbrev S1x16x16 : Shape := ⟨3, ![1, 16, 16]⟩
abbrev S32x16 : Shape := ⟨2, ![32, 16]⟩

abbrev nBuf : Space → Nat
  | .hbm => 125
  | .vmem => 0
  | .smem => 0
  | _ => 0

abbrev bufTy : (tb : Table) → Fin (tcTables nBuf tb) → BufTy
  | .hbm, ⟨0, _⟩ => ⟨S32x8x131072, .f32⟩
  | .hbm, ⟨1, _⟩ => ⟨S32x131072, .i32⟩
  | .hbm, ⟨2, _⟩ => ⟨S32, .i32⟩
  | .hbm, ⟨3, _⟩ => ⟨S32x1, .i32⟩
  | .hbm, ⟨4, _⟩ => ⟨S_, .i32⟩
  | .hbm, ⟨5, _⟩ => ⟨S32x1, .i32⟩
  | .hbm, ⟨6, _⟩ => ⟨S32x1, .i32⟩
  | .hbm, ⟨7, _⟩ => ⟨S32x131072, .i32⟩
  | .hbm, ⟨8, _⟩ => ⟨S32x131072, .i32⟩
  | .hbm, ⟨9, _⟩ => ⟨S4194304, .i32⟩
  | .hbm, ⟨10, _⟩ => ⟨S32x131072x8, .f32⟩
  | .hbm, ⟨11, _⟩ => ⟨S4194304x8, .f32⟩
  | .hbm, ⟨12, _⟩ => ⟨S_, .f32⟩
  | .hbm, ⟨13, _⟩ => ⟨S512x8, .f32⟩
  | .hbm, ⟨14, _⟩ => ⟨S4194304x1, .i32⟩
  | .hbm, ⟨15, _⟩ => ⟨S512x8, .f32⟩
  | .hbm, ⟨16, _⟩ => ⟨S_, .f32⟩
  | .hbm, ⟨17, _⟩ => ⟨S4194304, .f32⟩
  | .hbm, ⟨18, _⟩ => ⟨S_, .f32⟩
  | .hbm, ⟨19, _⟩ => ⟨S512, .f32⟩
  | .hbm, ⟨20, _⟩ => ⟨S4194304x1, .i32⟩
  | .hbm, ⟨21, _⟩ => ⟨S512, .f32⟩
  | .hbm, ⟨22, _⟩ => ⟨S_, .f32⟩
  | .hbm, ⟨23, _⟩ => ⟨S512, .f32⟩
  | .hbm, ⟨24, _⟩ => ⟨S512, .i1⟩
  | .hbm, ⟨25, _⟩ => ⟨S_, .f32⟩
  | .hbm, ⟨26, _⟩ => ⟨S_, .f32⟩
  | .hbm, ⟨27, _⟩ => ⟨S512, .f32⟩
  | .hbm, ⟨28, _⟩ => ⟨S512, .f32⟩
  | .hbm, ⟨29, _⟩ => ⟨S512x1, .f32⟩
  | .hbm, ⟨30, _⟩ => ⟨S512x8, .f32⟩
  | .hbm, ⟨31, _⟩ => ⟨S512x8, .f32⟩
  | .hbm, ⟨32, _⟩ => ⟨S_, .i32⟩
  | .hbm, ⟨33, _⟩ => ⟨S4194304, .i32⟩
  | .hbm, ⟨34, _⟩ => ⟨S4194304, .i1⟩
  | .hbm, ⟨35, _⟩ => ⟨S_, .i32⟩
  | .hbm, ⟨36, _⟩ => ⟨S4194304, .i32⟩
  | .hbm, ⟨37, _⟩ => ⟨S4194304, .i32⟩
  | .hbm, ⟨38, _⟩ => ⟨S4194304, .i32⟩
  | .hbm, ⟨39, _⟩ => ⟨S4194304x1, .i32⟩
  | .hbm, ⟨40, _⟩ => ⟨S4194304x8, .f32⟩
  | .hbm, ⟨41, _⟩ => ⟨S4194304x8, .f32⟩
  | .hbm, ⟨42, _⟩ => ⟨S4194304x8, .f32⟩
  | .hbm, ⟨43, _⟩ => ⟨S_, .f32⟩
  | .hbm, ⟨44, _⟩ => ⟨S4194304, .f32⟩
  | .hbm, ⟨45, _⟩ => ⟨S_, .f32⟩
  | .hbm, ⟨46, _⟩ => ⟨S4194304, .f32⟩
  | .hbm, ⟨47, _⟩ => ⟨S4194304, .f32⟩
  | .hbm, ⟨48, _⟩ => ⟨S_, .f32⟩
  | .hbm, ⟨49, _⟩ => ⟨S4194304, .f32⟩
  | .hbm, ⟨50, _⟩ => ⟨S4194304, .f32⟩
  | .hbm, ⟨51, _⟩ => ⟨S4194304, .f32⟩
  | .hbm, ⟨52, _⟩ => ⟨S_, .f32⟩
  | .hbm, ⟨53, _⟩ => ⟨S512, .f32⟩
  | .hbm, ⟨54, _⟩ => ⟨S4194304x1, .i32⟩
  | .hbm, ⟨55, _⟩ => ⟨S512, .f32⟩
  | .hbm, ⟨56, _⟩ => ⟨S512, .f32⟩
  | .hbm, ⟨57, _⟩ => ⟨S_, .f32⟩
  | .hbm, ⟨58, _⟩ => ⟨S_, .f32⟩
  | .hbm, ⟨59, _⟩ => ⟨S512, .f32⟩
  | .hbm, ⟨60, _⟩ => ⟨S512, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S32x131072x8, .f32⟩
  | .hbm, ⟨66, _⟩ => ⟨S32x16x8, .f32⟩
  | .hbm, ⟨67, _⟩ => ⟨S32x16x1x8, .f32⟩
  | .hbm, ⟨68, _⟩ => ⟨S32x1x16x8, .f32⟩
  | .hbm, ⟨69, _⟩ => ⟨S32x16x16x8, .f32⟩
  | .hbm, ⟨70, _⟩ => ⟨S32x16x16x8, .f32⟩
  | .hbm, ⟨71, _⟩ => ⟨S32x16x16x8, .f32⟩
  | .hbm, ⟨72, _⟩ => ⟨S32x16x16x8, .f32⟩
  | .hbm, ⟨73, _⟩ => ⟨S_, .f32⟩
  | .hbm, ⟨74, _⟩ => ⟨S32x16x16, .f32⟩
  | .hbm, ⟨75, _⟩ => ⟨S16x16, .i32⟩
  | .hbm, ⟨76, _⟩ => ⟨S16x16, .i32⟩
  | .hbm, ⟨77, _⟩ => ⟨S_, .i32⟩
  | .hbm, ⟨78, _⟩ => ⟨S16x16, .i32⟩
  | .hbm, ⟨79, _⟩ => ⟨S16x16, .i32⟩
  | .hbm, ⟨80, _⟩ => ⟨S16x16, .i1⟩
  | .hbm, ⟨81, _⟩ => ⟨S16x16, .f32⟩
  | .hbm, ⟨82, _⟩ => ⟨S_, .f32⟩
  | .hbm, ⟨83, _⟩ => ⟨S16x16, .f32⟩
  | .hbm, ⟨84, _⟩ => ⟨S16x16, .f32⟩
  | .hbm, ⟨85, _⟩ => ⟨S_, .f32⟩
  | .hbm, ⟨86, _⟩ => ⟨S16x16, .f32⟩
  | .hbm, ⟨87, _⟩ => ⟨S16x16, .f32⟩
  | .hbm, ⟨88, _⟩ => ⟨S1x16x16, .f32⟩
  | .hbm, ⟨89, _⟩ => ⟨S32x16x16, .f32⟩
  | .hbm, ⟨90, _⟩ => ⟨S32x16x16, .f32⟩
  | .hbm, ⟨91, _⟩ => ⟨S_, .f32⟩
  | .hbm, ⟨92, _⟩ => ⟨S32x16x16, .f32⟩
  | .hbm, ⟨93, _⟩ => ⟨S32x16x16, .f32⟩
  | .hbm, ⟨94, _⟩ => ⟨S32x16x16, .f32⟩
  | .hbm, ⟨95, _⟩ => ⟨S_, .f32⟩
  | .hbm, ⟨96, _⟩ => ⟨S32, .f32⟩
  | .hbm, ⟨97, _⟩ => ⟨S_, .f32⟩
  | .hbm, ⟨98, _⟩ => ⟨S32, .f32⟩
  | .hbm, ⟨99, _⟩ => ⟨S32, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S32x16x8, .f32⟩
  | .hbm, ⟨105, _⟩ => ⟨S32x16x8, .f32⟩
  | .hbm, ⟨106, _⟩ => ⟨S_, .f32⟩
  | .hbm, ⟨107, _⟩ => ⟨S32x16, .f32⟩
  | .hbm, ⟨108, _⟩ => ⟨S_, .f32⟩
  | .hbm, ⟨109, _⟩ => ⟨S32, .f32⟩
  | .hbm, ⟨110, _⟩ => ⟨S_, .f32⟩
  | .hbm, ⟨111, _⟩ => ⟨S32, .f32⟩
  | .hbm, ⟨112, _⟩ => ⟨S32, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S_, .f32⟩
  | .hbm, ⟨122, _⟩ => ⟨S_, .f32⟩
  | .hbm, ⟨123, _⟩ => ⟨S_, .f32⟩
  | .hbm, ⟨124, _⟩ => ⟨S_, .f32⟩
  | _, _ => ⟨S32x8x131072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_4 : Ref sig .tc := ⟨.hbm, 32, rfl⟩
abbrev main_v22 : Ref sig .tc := ⟨.hbm, 33, rfl⟩
abbrev main_v23 : Ref sig .tc := ⟨.hbm, 34, rfl⟩
abbrev main_c_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_10 : Ref sig .tc := ⟨.hbm, 57, rfl⟩
abbrev main_call1_v0 : Ref sig .tc := ⟨.hbm, 58, rfl⟩
abbrev main_call1_v1 : Ref sig .tc := ⟨.hbm, 59, rfl⟩
abbrev main_v41 : Ref sig .tc := ⟨.hbm, 60, rfl⟩
abbrev main_cst_11 : Ref sig .tc := ⟨.hbm, 61, rfl⟩
abbrev main_v42 : Ref sig .tc := ⟨.hbm, 62, rfl⟩
abbrev main_cst_12 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_13 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_c_14 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_15 : Ref sig .tc := ⟨.hbm, 82, rfl⟩
abbrev main_v59 : Ref sig .tc := ⟨.hbm, 83, rfl⟩
abbrev main_v60 : Ref sig .tc := ⟨.hbm, 84, rfl⟩
abbrev main_cst_16 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_17 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_18 : Ref sig .tc := ⟨.hbm, 95, rfl⟩
abbrev main_v69 : Ref sig .tc := ⟨.hbm, 96, rfl⟩
abbrev main_cst_19 : Ref sig .tc := ⟨.hbm, 97, rfl⟩
abbrev main_v70 : Ref sig .tc := ⟨.hbm, 98, rfl⟩
abbrev main_v71 : Ref sig .tc := ⟨.hbm, 99, rfl⟩
abbrev main_cst_20 : Ref sig .tc := ⟨.hbm, 100, rfl⟩
abbrev main_v72 : Ref sig .tc := ⟨.hbm, 101, rfl⟩
abbrev main_cst_21 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_22 : Ref sig .tc := ⟨.hbm, 106, rfl⟩
abbrev main_v76 : Ref sig .tc := ⟨.hbm, 107, rfl⟩
abbrev main_cst_23 : Ref sig .tc := ⟨.hbm, 108, rfl⟩
abbrev main_v77 : Ref sig .tc := ⟨.hbm, 109, rfl⟩
abbrev main_cst_24 : Ref sig .tc := ⟨.hbm, 110, rfl⟩
abbrev main_v78 : Ref sig .tc := ⟨.hbm, 111, rfl⟩
abbrev main_v79 : Ref sig .tc := ⟨.hbm, 112, rfl⟩
abbrev main_cst_25 : Ref sig .tc := ⟨.hbm, 113, rfl⟩
abbrev main_v80 : Ref sig .tc := ⟨.hbm, 114, rfl⟩
abbrev main_cst_26 : Ref sig .tc := ⟨.hbm, 115, rfl⟩
abbrev main_v81 : Ref sig .tc := ⟨.hbm, 116, rfl⟩
abbrev main_cst_27 : Ref sig .tc := ⟨.hbm, 117, rfl⟩
abbrev main_v82 : Ref sig .tc := ⟨.hbm, 118, rfl⟩
abbrev main_cst_28 : Ref sig .tc := ⟨.hbm, 119, rfl⟩
abbrev main_v83 : Ref sig .tc := ⟨.hbm, 120, rfl⟩
abbrev main_v84 : Ref sig .tc := ⟨.hbm, 121, rfl⟩
abbrev main_cst_29 : Ref sig .tc := ⟨.hbm, 122, rfl⟩
abbrev main_v85 : Ref sig .tc := ⟨.hbm, 123, rfl⟩
abbrev main_v86 : Ref sig .tc := ⟨.hbm, 124, rfl⟩

abbrev nD : Nat := 1
abbrev τ : Topo := Topo.v7x

variable {F : FTy → Type} [FloatOps F]

class Facts₀ : Prop where
  bcast_S32_S32x1_0 : S32.BroadcastsInDim S32x1 (![0] : Fin 1 → Fin S32x1.rank)
  bcast_S_S32x1 : S_.BroadcastsInDim S32x1 (![] : Fin 0 → Fin S32x1.rank)
  bcast_S32x1_S32x131072_0_1 : S32x1.BroadcastsInDim S32x131072 (![0, 1] : Fin 2 → Fin S32x131072.rank)
  shapeCasts_S32x131072_S4194304 : S32x131072.ShapeCasts S4194304
  transposes_S32x8x131072_S32x131072x8_0_2_1 : S32x8x131072.Transposes [0, 2, 1] S32x131072x8
  shapeCasts_S32x131072x8_S4194304x8 : S32x131072x8.ShapeCasts S4194304x8
  bcast_S_S512x8 : S_.BroadcastsInDim S512x8 (![] : Fin 0 → Fin S512x8.rank)
  bcast_S4194304_S4194304x1_0 : S4194304.BroadcastsInDim S4194304x1 (![0] : Fin 1 → Fin S4194304x1.rank)
  bcast_S_S4194304 : S_.BroadcastsInDim S4194304 (![] : Fin 0 → Fin S4194304.rank)
  bcast_S_S512 : S_.BroadcastsInDim S512 (![] : Fin 0 → Fin S512.rank)
  bcast_S512_S512x1_0 : S512.BroadcastsInDim S512x1 (![0] : Fin 1 → Fin S512x1.rank)
  bcast_S512x1_S512x8_0_1 : S512x1.BroadcastsInDim S512x8 (![0, 1] : Fin 2 → Fin S512x8.rank)
  reducesTo_S4194304x8_S4194304_d1 : S4194304x8.ReducesTo [1] S4194304
  h_S_ : 0 < S_.numel
  reducesTo_S512_S_d0 : S512.ReducesTo [0] S_
  shapeCasts_S4194304x8_S32x131072x8 : S4194304x8.ShapeCasts S32x131072x8
  slices_S32x131072x8_S32x16x8_0_0_0 : S32x131072x8.Slices ![0, 0, 0] S32x16x8
  bcast_S32x16x8_S32x16x1x8_0_1_3 : S32x16x8.BroadcastsInDim S32x16x1x8 (![0, 1, 3] : Fin 3 → Fin S32x16x1x8.rank)
  bcast_S32x16x8_S32x1x16x8_0_2_3 : S32x16x8.BroadcastsInDim S32x1x16x8 (![0, 2, 3] : Fin 3 → Fin S32x1x16x8.rank)
  bcast_S32x16x1x8_S32x16x16x8_0_1_2_3 : S32x16x1x8.BroadcastsInDim S32x16x16x8 (![0, 1, 2, 3] : Fin 4 → Fin S32x16x16x8.rank)
  bcast_S32x1x16x8_S32x16x16x8_0_1_2_3 : S32x1x16x8.BroadcastsInDim S32x16x16x8 (![0, 1, 2, 3] : Fin 4 → Fin S32x16x16x8.rank)
  reducesTo_S32x16x16x8_S32x16x16_d3 : S32x16x16x8.ReducesTo [3] S32x16x16
  bcast_S_S16x16 : S_.BroadcastsInDim S16x16 (![] : Fin 0 → Fin S16x16.rank)
  bcast_S16x16_S1x16x16_1_2 : S16x16.BroadcastsInDim S1x16x16 (![1, 2] : Fin 2 → Fin S1x16x16.rank)
  bcast_S1x16x16_S32x16x16_0_1_2 : S1x16x16.BroadcastsInDim S32x16x16 (![0, 1, 2] : Fin 3 → Fin S32x16x16.rank)
  bcast_S_S32x16x16 : S_.BroadcastsInDim S32x16x16 (![] : Fin 0 → Fin S32x16x16.rank)
  reducesTo_S32x16x16_S32_d1_2 : S32x16x16.ReducesTo [1, 2] S32
  bcast_S_S32 : S_.BroadcastsInDim S32 (![] : Fin 0 → Fin S32.rank)
  reducesTo_S32_S_d0 : S32.ReducesTo [0] S_
  shapeCasts_S512x8_S32x16x8 : S512x8.ShapeCasts S32x16x8
  reducesTo_S32x16x8_S32x16_d2 : S32x16x8.ReducesTo [2] S32x16
  reducesTo_S32x16_S32_d1 : S32x16.ReducesTo [1] S32
  scatter_S512x8_S4194304x1_S4194304x8_1_0_0_1_wf : ScatterDims.WF S512x8 S4194304x1 S4194304x8 [1] [0] [0] 1
  scatter_S512_S4194304x1_S4194304_n_0_0_1_wf : ScatterDims.WF S512 S4194304x1 S4194304 [] [0] [0] 1
  gather_S512x8_S4194304x1_S4194304x8_1_0_n_n_0_1_18_wf : GatherDims.WF S512x8 S4194304x1 S4194304x8 [1] [0] [] [0] [] 1 ![1, 8]

variable [Facts₀]

def scatter_S512x8_S4194304x1_S4194304x8_1_0_0_1 : ScatterDims S512x8 S4194304x1 S4194304x8 where
  updateWindowDims := [1]
  insertedWindowDims := [0]
  scatterDimsToOperandDims := [0]
  indexVectorDim := 1
  wf := scatter_S512x8_S4194304x1_S4194304x8_1_0_0_1_wf
def scatter_S512_S4194304x1_S4194304_n_0_0_1 : ScatterDims S512 S4194304x1 S4194304 where
  updateWindowDims := []
  insertedWindowDims := [0]
  scatterDimsToOperandDims := [0]
  indexVectorDim := 1
  wf := scatter_S512_S4194304x1_S4194304_n_0_0_1_wf
def gather_S512x8_S4194304x1_S4194304x8_1_0_n_n_0_1_18 : GatherDims S512x8 S4194304x1 S4194304x8 where
  offsetDims := [1]
  collapsedSliceDims := [0]
  operandBatchingDims := []
  startIndicesBatchingDims := []
  startIndexMap := [0]
  indexVectorDim := 1
  sliceSizes := ![1, 8]
  wf := gather_S512x8_S4194304x1_S4194304x8_1_0_n_n_0_1_18_wf

class Facts : Prop extends Facts₀ where

variable [Facts]
-- ==== Proof.FrameK.lean ====
/-
  The run of the program around its one kernel launch, and what it leaves.

  The program is: one host operation (the labels laid out as a [32, 1, 131072] array), the launch over a grid of 32
  points — point `b` stages sample `b`'s block of features and of labels, runs the body, and writes back the
  sample's block of cluster sums [8, 16], counts [1, 16] and hinge sums [1, 16] —, then 101 host operations that
  read those three arrays and write only buffers of their own.

  Stated here for any float instance: what each output block holds after the body as a function of the two input
  blocks (`out2`, `out3`, `out4`: the body's single covering store of each), the body's triple, the run
  (`run_main`: every weakly fair execution terminates, each output array holding block by block what the body
  stored, every other buffer what the later host operations compute from them), and the frame (`frame`: the two
  argument arrays end as they were launched, since no host operation and no write-back touches them).
-/
import proofs.«405512_j9380208575089_3_alg».proof.Proof.Gen.Kernel.Launch
import proofs.«405512_j9380208575089_3_alg».proof.Proof.Gen.Kernel.Skeleton
import proofs.«405512_j9380208575089_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the launch -/

/-- The buffers' contents when the launch begins: the memory after the one host operation before it. -/
abbrev V0 (c : Dev nD) : Valuation τ sig (Elt F) := StableHlo.after (List.flatten [hostOps0]) (fun b => m (c, b))
/-- The same, read at a reference. -/
abbrev V (c : Dev nD) (b : Ref sig .tc) : Buf (Elt F) ((c : Thread nD τ).loc b) := V0 m c (Proc.devRef .tc b)

/-- No operation of this stretch allocates. -/
theorem hostOps0_fresh : (hostOps0 : List (HloOp τ sig (Elt F))).Forall fun op => op.fresh = ∅ := by
  simp only [List.Forall]; repeat' constructor
/-- No operation of this stretch allocates. -/
theorem hostOps1_fresh : (hostOps1 : List (HloOp τ sig (Elt F))).Forall fun op => op.fresh = ∅ := by
  simp only [List.Forall]; repeat' constructor
/-- No operation of this stretch allocates. -/
theorem hostOps1_1_fresh : (hostOps1_1 : List (HloOp τ sig (Elt F))).Forall fun op => op.fresh = ∅ := by
  simp only [List.Forall]; repeat' constructor
/-- No operation of this stretch allocates. -/
theorem hostOps1_2_fresh : (hostOps1_2 : List (HloOp τ sig (Elt F))).Forall fun op => op.fresh = ∅ := by
  simp only [List.Forall]; repeat' constructor
/-- No operation of this stretch allocates. -/
theorem hostOps1_3_fresh : (hostOps1_3 : List (HloOp τ sig (Elt F))).Forall fun op => op.fresh = ∅ := by
  simp only [List.Forall]; repeat' constructor
set_option maxHeartbeats 4000000 in
/-- No operation of this stretch allocates. -/
theorem hostOps1_4_fresh : (hostOps1_4 : List (HloOp τ sig (Elt F))).Forall fun op => op.fresh = ∅ := by
  simp only [List.Forall]; repeat' constructor

set_option maxHeartbeats 8000000 in
/-- The program is the host operation, the launch, and the later host operations in their five stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4]) :=
  Pipeline.hmain_around cfgs 0 defs₀ 𝒱₀ m main [hostOps0] [hostOps1, hostOps1_1, hostOps1_2, hostOps1_3, hostOps1_4] (by simp only [List.Forall]; exact hostOps0_sub)
    (by simp only [List.Forall]; exact hostOps0_fresh) main_chain

/-- The later operations touch only device buffers that are launch arrays or bypass the launch. -/
theorem sfx_sub : ∀ ops ∈ ([hostOps1, hostOps1_1, hostOps1_2, hostOps1_3, hostOps1_4] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- They allocate nothing. -/
theorem sfx_fresh : ∀ ops ∈ ([hostOps1, hostOps1_1, hostOps1_2, hostOps1_3, hostOps1_4] : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

/-- Each operation of this stretch writes its own result buffer, which is none of the five launch arrays. -/
theorem hostOps1_keeps : (hostOps1 : List (HloOp τ sig (Elt F))).Forall fun op => ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
/-- Each operation of this stretch writes its own result buffer, which is none of the five launch arrays. -/
theorem hostOps1_1_keeps : (hostOps1_1 : List (HloOp τ sig (Elt F))).Forall fun op => ∀ w, Proc.devRef .tc (Pipeline.arrRef spec0 w) ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
/-- Each operation of this stretch writes its own result buffer, which is none of the five launch arrays. -/
theorem hostOps1_2_keeps : (hostOps1_2 : List (HloOp τ sig (Elt F))).Forall fun op => ∀ w, Proc.devRef .tc (Pipeline.arrRef spec0 w) ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
/-- Each operation of this stretch writes its own result buffer, which is none of the five launch arrays. -/
theorem hostOps1_3_keeps : (hostOps1_3 : List (HloOp τ sig (Elt F))).Forall fun op => ∀ w, Proc.devRef .tc (Pipeline.arrRef spec0 w) ∉ op.writes := by
  simp only [hostOps1_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
set_option maxHeartbeats 8000000 in
/-- Each operation of this stretch writes its own result buffer, which is none of the five launch arrays. -/
theorem hostOps1_4_keeps : (hostOps1_4 : List (HloOp τ sig (Elt F))).Forall fun op => ∀ w, Proc.devRef .tc (Pipeline.arrRef spec0 w) ∉ op.writes := by
  simp only [hostOps1_4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))

/-- So the later operations write no launch array. -/
theorem sfx_keeps : ∀ ops ∈ ([hostOps1, hostOps1_1, hostOps1_2, hostOps1_3, hostOps1_4] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop

/-- The host operation before the launch does not write `main_arg0`: the launch finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The host operation before the launch does not write `main_arg1`: the launch finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 8000000 in
/-- No later host operation writes `main_arg1`, and it is no output array: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, hostOps1_1, hostOps1_2, hostOps1_3, hostOps1_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, for any proof data over these arrays whose body
    leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, for any proof data over these arrays whose body
    leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame from a run -/

/-- From a run that ends with every launch array at what the proof data computes and every other buffer at what the
    later host operations leave: the features are a staged input (its array never written back), the labels are
    read only by host operations, so both end as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1, hostOps1_1, hostOps1_2, hostOps1_3, hostOps1_4]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
    ((h c).2 main_arg1 (Pipeline.mem_restRefs_of main_arg1 (by decide) (by decide))).trans (W_main_arg1 m dats c)⟩) h

/-! ## What the body leaves in each output block -/

/-- The whole block of features, of labels, of sums, and of counts / hinge sums: each access of the body is to a
    whole staging buffer. -/
abbrev rX : Rect S1x8x131072 := Rect.unit (s := S1x8x131072) ![0, 0, 0] S1x8x131072.size inb_S1x8x131072_S1x8x131072_0_0_0
abbrev rT : Rect S1x1x131072 := Rect.unit (s := S1x1x131072) ![0, 0, 0] S1x1x131072.size inb_S1x1x131072_S1x1x131072_0_0_0
abbrev rS : Rect S1x8x16 := Rect.unit (s := S1x8x16) ![0, 0, 0] S1x8x16.size inb_S1x8x16_S1x8x16_0_0_0
abbrev rC : Rect S1x1x16 := Rect.unit (s := S1x1x16) ![0, 0, 0] S1x1x16.size inb_S1x1x16_S1x1x16_0_0_0

/-- The block of cluster sums the body stores, from the sample's features `x0` and labels `x1`. -/
def out2 (x0 : Vec F S1x8x131072 .f32) (x1 : Vec F S1x1x131072 .i32) : Vec F S1x8x16 .f32 :=
  View.canon [⟨rS, k0_pay1 (k0_pay8 (View.ld x0 rX) (View.ld x1 rT))⟩]
/-- The block of cluster counts, from the labels. -/
def out3 (x1 : Vec F S1x1x131072 .i32) : Vec F S1x1x16 .f32 :=
  View.canon [⟨rC, k0_pay2 (k0_pay7 (View.ld x1 rT))⟩]
/-- The block of hinge sums. -/
def out4 (x0 : Vec F S1x8x131072 .f32) (x1 : Vec F S1x1x131072 .i32) : Vec F S1x1x16 .f32 :=
  View.canon [⟨rC, k0_pay3 (k0_pay5 (View.ld x1 rT)) (k0_pay9 (View.ld x0 rX) (View.ld x1 rT))⟩]

/-- One store of the whole block covers it. -/
theorem coverS (p0 : Vec F S1x8x16 .f32) (y : S1x8x16.Idx) :
    ∃ pc ∈ ([⟨rS, p0⟩] : List (View.Piece (Elt F) S1x8x16 .f32)), y ∈ pc.1.set :=
  View.cover_of_tiled [⟨rS, p0⟩] S1x8x16.size (by rfl) y
theorem coverC (p0 : Vec F S1x1x16 .f32) (y : S1x1x16.Idx) :
    ∃ pc ∈ ([⟨rC, p0⟩] : List (View.Piece (Elt F) S1x1x16 .f32)), y ∈ pc.1.set :=
  View.cover_of_tiled [⟨rC, p0⟩] S1x1x16.size (by rfl) y

/-! ## The body's triple -/

set_option maxHeartbeats 4000000 in
/-- The body, on whole staging buffers holding the features `x0` and the labels `x1` and three output buffers at
    anything, ends with the inputs as they were and the outputs at `out2`, `out3`, `out4`. -/
theorem sound_kernel (c : Dev nD) (E : Set ℕ) (i : grid0.Coords)
    (arg1 : Memref sig .tc .vmem S1x8x131072 .f32) (harg1 : arg1.IsWhole) (arg2 : Memref sig .tc .vmem S1x1x131072 .i32) (harg2 : arg2.IsWhole)
    (arg3 : Memref sig .tc .vmem S1x8x16 .f32) (harg3 : arg3.IsWhole) (arg4 : Memref sig .tc .vmem S1x1x16 .f32) (harg4 : arg4.IsWhole)
    (arg5 : Memref sig .tc .vmem S1x1x16 .f32) (harg5 : arg5.IsWhole)
    (x0 : Vec F S1x8x131072 .f32) (x1 : Vec F S1x1x131072 .i32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare (out2 x0 x1) ∗ owns (c : Thread nD τ) arg4 fullShare (out3 x1)
            ∗ owns (c : Thread nD τ) arg5 fullShare (out4 x0 x1)) -∗ K ⟨⟩))
      ⊢ wp frame (wpE (defs₀ (F := F)) Variants.none c none) E (cc0__fused_kernel i arg1 harg1 arg2 harg2 arg3 harg3 arg4 harg4 arg5 harg5) K := by
  simp only [cc0__fused_kernel_eq_skeleton]; unfold cc0__fused_kernel_skel
  simp only [k0_part1_eq_skeleton]; unfold k0_part1_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    try dsimp only
    exact View.read_writes_eq_canon _ _ _ (coverS _)
  isplitl [H3]
  · iexists _; isplitr
    swap; · iexact H3
    ipureintro
    try dsimp only
    exact View.read_writes_eq_canon _ _ _ (coverC _)
  iexists _; isplitr
  swap; · iexact H4
  ipureintro
  try dsimp only
  exact View.read_writes_eq_canon _ _ _ (coverC _)

/-! ## The proof data of the launch -/

/-- On core `c`: the arrays as the launch finds them; after the body at point `t` each input buffer at its block and
    each output buffer at what the body stores from the two input blocks; nothing of the body's own to keep. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out2 (iblk m c 0 t) (iblk m c 1 t)
    | ⟨3, _⟩ => out3 (iblk m c 1 t)
    | ⟨4, _⟩ => out4 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out2 (iblk m c 0 t) (iblk m c 1 t) := by dsimp only [dats]
theorem after0_3 (c : Dev nD) (t : Fin cfg0.N) : (dats m 0 c).after 3 t = out3 (iblk m c 1 t) := by dsimp only [dats]
theorem after0_4 (c : Dev nD) (t : Fin cfg0.N) : (dats m 0 c).after 4 t = out4 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the triple applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the launch, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option maxHeartbeats 8000000 in
set_option backward.isDefEq.respectTransparency.types false in
/-- Every weakly fair execution of the program terminates; each launch array then holds what the proof data computes
    (an input its launch contents, an output block by block what the body stored) and every other buffer what the
    later host operations compute over those arrays. -/
theorem run_main : θ_run defs (onTc (τ := τ) (main (F := F))) (s₀ m ρ) (Pipeline.FramePost cfgs (dats m) 0 (Pipeline.afterTail₀ cfgs (dats m) 0 (V0 m) [hostOps1, hostOps1_1, hostOps1_2, hostOps1_3, hostOps1_4])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4]) (hsub := sfx_sub) (hfresh := sfx_fresh) (hkeep := sfx_keeps)
    (hmain := hmain m Variants.none) (hA := A_eq m) (hΦ := fun _ _ => rfl)

/-- The frame: the program runs to the end and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Frame

end
-- ==== Proof.FrameKI.lean ====
/-
  The run of the program around its one kernel launch, and what it leaves.

  The program is: one host operation (the labels laid out as a [32, 1, 131072] array), the launch over a grid of 32
  points — point `b` stages sample `b`'s block of features and of labels, runs the body, and writes back the
  sample's block of cluster sums [8, 16], counts [1, 16] and hinge sums [1, 16] —, then 101 host operations that
  read those three arrays and write only buffers of their own.

  Stated here for any float instance: what each output block holds after the body as a function of the two input
  blocks (`out2`, `out3`, `out4`: the body's single covering store of each), the body's triple, the run
  (`run_main`: every weakly fair execution terminates, each output array holding block by block what the body
  stored, every other buffer what the later host operations compute from them), and the frame (`frame`: the two
  argument arrays end as they were launched, since no host operation and no write-back touches them).
-/
import proofs.«405512_j9380208575089_3_alg».proof.Proof.Gen.KernelIdeal.Launch
import proofs.«405512_j9380208575089_3_alg».proof.Proof.Gen.KernelIdeal.Skeleton
import proofs.«405512_j9380208575089_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the launch -/

/-- The buffers' contents when the launch begins: the memory after the one host operation before it. -/
abbrev V0 (c : Dev nD) : Valuation τ sig (Elt F) := StableHlo.after (List.flatten [hostOps0]) (fun b => m (c, b))
/-- The same, read at a reference. -/
abbrev V (c : Dev nD) (b : Ref sig .tc) : Buf (Elt F) ((c : Thread nD τ).loc b) := V0 m c (Proc.devRef .tc b)

/-- No operation of this stretch allocates. -/
theorem hostOps0_fresh : (hostOps0 : List (HloOp τ sig (Elt F))).Forall fun op => op.fresh = ∅ := by
  simp only [List.Forall]; repeat' constructor
/-- No operation of this stretch allocates. -/
theorem hostOps1_fresh : (hostOps1 : List (HloOp τ sig (Elt F))).Forall fun op => op.fresh = ∅ := by
  simp only [List.Forall]; repeat' constructor
/-- No operation of this stretch allocates. -/
theorem hostOps1_1_fresh : (hostOps1_1 : List (HloOp τ sig (Elt F))).Forall fun op => op.fresh = ∅ := by
  simp only [List.Forall]; repeat' constructor
/-- No operation of this stretch allocates. -/
theorem hostOps1_2_fresh : (hostOps1_2 : List (HloOp τ sig (Elt F))).Forall fun op => op.fresh = ∅ := by
  simp only [List.Forall]; repeat' constructor
/-- No operation of this stretch allocates. -/
theorem hostOps1_3_fresh : (hostOps1_3 : List (HloOp τ sig (Elt F))).Forall fun op => op.fresh = ∅ := by
  simp only [List.Forall]; repeat' constructor
set_option maxHeartbeats 4000000 in
/-- No operation of this stretch allocates. -/
theorem hostOps1_4_fresh : (hostOps1_4 : List (HloOp τ sig (Elt F))).Forall fun op => op.fresh = ∅ := by
  simp only [List.Forall]; repeat' constructor

set_option maxHeartbeats 8000000 in
/-- The program is the host operation, the launch, and the later host operations in their five stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4]) :=
  Pipeline.hmain_around cfgs 0 defs₀ 𝒱₀ m main [hostOps0] [hostOps1, hostOps1_1, hostOps1_2, hostOps1_3, hostOps1_4] (by simp only [List.Forall]; exact hostOps0_sub)
    (by simp only [List.Forall]; exact hostOps0_fresh) main_chain

/-- The later operations touch only device buffers that are launch arrays or bypass the launch. -/
theorem sfx_sub : ∀ ops ∈ ([hostOps1, hostOps1_1, hostOps1_2, hostOps1_3, hostOps1_4] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- They allocate nothing. -/
theorem sfx_fresh : ∀ ops ∈ ([hostOps1, hostOps1_1, hostOps1_2, hostOps1_3, hostOps1_4] : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

/-- Each operation of this stretch writes its own result buffer, which is none of the five launch arrays. -/
theorem hostOps1_keeps : (hostOps1 : List (HloOp τ sig (Elt F))).Forall fun op => ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
/-- Each operation of this stretch writes its own result buffer, which is none of the five launch arrays. -/
theorem hostOps1_1_keeps : (hostOps1_1 : List (HloOp τ sig (Elt F))).Forall fun op => ∀ w, Proc.devRef .tc (Pipeline.arrRef spec0 w) ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
/-- Each operation of this stretch writes its own result buffer, which is none of the five launch arrays. -/
theorem hostOps1_2_keeps : (hostOps1_2 : List (HloOp τ sig (Elt F))).Forall fun op => ∀ w, Proc.devRef .tc (Pipeline.arrRef spec0 w) ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
/-- Each operation of this stretch writes its own result buffer, which is none of the five launch arrays. -/
theorem hostOps1_3_keeps : (hostOps1_3 : List (HloOp τ sig (Elt F))).Forall fun op => ∀ w, Proc.devRef .tc (Pipeline.arrRef spec0 w) ∉ op.writes := by
  simp only [hostOps1_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
set_option maxHeartbeats 8000000 in
/-- Each operation of this stretch writes its own result buffer, which is none of the five launch arrays. -/
theorem hostOps1_4_keeps : (hostOps1_4 : List (HloOp τ sig (Elt F))).Forall fun op => ∀ w, Proc.devRef .tc (Pipeline.arrRef spec0 w) ∉ op.writes := by
  simp only [hostOps1_4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))

/-- So the later operations write no launch array. -/
theorem sfx_keeps : ∀ ops ∈ ([hostOps1, hostOps1_1, hostOps1_2, hostOps1_3, hostOps1_4] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop

/-- The host operation before the launch does not write `main_arg0`: the launch finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The host operation before the launch does not write `main_arg1`: the launch finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 8000000 in
/-- No later host operation writes `main_arg1`, and it is no output array: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, hostOps1_1, hostOps1_2, hostOps1_3, hostOps1_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, for any proof data over these arrays whose body
    leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, for any proof data over these arrays whose body
    leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame from a run -/

/-- From a run that ends with every launch array at what the proof data computes and every other buffer at what the
    later host operations leave: the features are a staged input (its array never written back), the labels are
    read only by host operations, so both end as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1, hostOps1_1, hostOps1_2, hostOps1_3, hostOps1_4]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
    ((h c).2 main_arg1 (Pipeline.mem_restRefs_of main_arg1 (by decide) (by decide))).trans (W_main_arg1 m dats c)⟩) h

/-! ## What the body leaves in each output block -/

/-- The whole block of features, of labels, of sums, and of counts / hinge sums: each access of the body is to a
    whole staging buffer. -/
abbrev rX : Rect S1x8x131072 := Rect.unit (s := S1x8x131072) ![0, 0, 0] S1x8x131072.size inb_S1x8x131072_S1x8x131072_0_0_0
abbrev rT : Rect S1x1x131072 := Rect.unit (s := S1x1x131072) ![0, 0, 0] S1x1x131072.size inb_S1x1x131072_S1x1x131072_0_0_0
abbrev rS : Rect S1x8x16 := Rect.unit (s := S1x8x16) ![0, 0, 0] S1x8x16.size inb_S1x8x16_S1x8x16_0_0_0
abbrev rC : Rect S1x1x16 := Rect.unit (s := S1x1x16) ![0, 0, 0] S1x1x16.size inb_S1x1x16_S1x1x16_0_0_0

/-- The block of cluster sums the body stores, from the sample's features `x0` and labels `x1`. -/
def out2 (x0 : Vec F S1x8x131072 .f32) (x1 : Vec F S1x1x131072 .i32) : Vec F S1x8x16 .f32 :=
  View.canon [⟨rS, k0_pay1 (k0_pay8 (View.ld x0 rX) (View.ld x1 rT))⟩]
/-- The block of cluster counts, from the labels. -/
def out3 (x1 : Vec F S1x1x131072 .i32) : Vec F S1x1x16 .f32 :=
  View.canon [⟨rC, k0_pay2 (k0_pay7 (View.ld x1 rT))⟩]
/-- The block of hinge sums. -/
def out4 (x0 : Vec F S1x8x131072 .f32) (x1 : Vec F S1x1x131072 .i32) : Vec F S1x1x16 .f32 :=
  View.canon [⟨rC, k0_pay3 (k0_pay5 (View.ld x1 rT)) (k0_pay9 (View.ld x0 rX) (View.ld x1 rT))⟩]

/-- One store of the whole block covers it. -/
theorem coverS (p0 : Vec F S1x8x16 .f32) (y : S1x8x16.Idx) :
    ∃ pc ∈ ([⟨rS, p0⟩] : List (View.Piece (Elt F) S1x8x16 .f32)), y ∈ pc.1.set :=
  View.cover_of_tiled [⟨rS, p0⟩] S1x8x16.size (by rfl) y
theorem coverC (p0 : Vec F S1x1x16 .f32) (y : S1x1x16.Idx) :
    ∃ pc ∈ ([⟨rC, p0⟩] : List (View.Piece (Elt F) S1x1x16 .f32)), y ∈ pc.1.set :=
  View.cover_of_tiled [⟨rC, p0⟩] S1x1x16.size (by rfl) y

/-! ## The body's triple -/

set_option maxHeartbeats 4000000 in
/-- The body, on whole staging buffers holding the features `x0` and the labels `x1` and three output buffers at
    anything, ends with the inputs as they were and the outputs at `out2`, `out3`, `out4`. -/
theorem sound_kernel (c : Dev nD) (E : Set ℕ) (i : grid0.Coords)
    (arg1 : Memref sig .tc .vmem S1x8x131072 .f32) (harg1 : arg1.IsWhole) (arg2 : Memref sig .tc .vmem S1x1x131072 .i32) (harg2 : arg2.IsWhole)
    (arg3 : Memref sig .tc .vmem S1x8x16 .f32) (harg3 : arg3.IsWhole) (arg4 : Memref sig .tc .vmem S1x1x16 .f32) (harg4 : arg4.IsWhole)
    (arg5 : Memref sig .tc .vmem S1x1x16 .f32) (harg5 : arg5.IsWhole)
    (x0 : Vec F S1x8x131072 .f32) (x1 : Vec F S1x1x131072 .i32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare (out2 x0 x1) ∗ owns (c : Thread nD τ) arg4 fullShare (out3 x1)
            ∗ owns (c : Thread nD τ) arg5 fullShare (out4 x0 x1)) -∗ K ⟨⟩))
      ⊢ wp frame (wpE (defs₀ (F := F)) Variants.none c none) E (cc0__fused_kernel i arg1 harg1 arg2 harg2 arg3 harg3 arg4 harg4 arg5 harg5) K := by
  simp only [cc0__fused_kernel_eq_skeleton]; unfold cc0__fused_kernel_skel
  simp only [k0_part1_eq_skeleton]; unfold k0_part1_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    try dsimp only
    exact View.read_writes_eq_canon _ _ _ (coverS _)
  isplitl [H3]
  · iexists _; isplitr
    swap; · iexact H3
    ipureintro
    try dsimp only
    exact View.read_writes_eq_canon _ _ _ (coverC _)
  iexists _; isplitr
  swap; · iexact H4
  ipureintro
  try dsimp only
  exact View.read_writes_eq_canon _ _ _ (coverC _)

/-! ## The proof data of the launch -/

/-- On core `c`: the arrays as the launch finds them; after the body at point `t` each input buffer at its block and
    each output buffer at what the body stores from the two input blocks; nothing of the body's own to keep. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out2 (iblk m c 0 t) (iblk m c 1 t)
    | ⟨3, _⟩ => out3 (iblk m c 1 t)
    | ⟨4, _⟩ => out4 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out2 (iblk m c 0 t) (iblk m c 1 t) := by dsimp only [dats]
theorem after0_3 (c : Dev nD) (t : Fin cfg0.N) : (dats m 0 c).after 3 t = out3 (iblk m c 1 t) := by dsimp only [dats]
theorem after0_4 (c : Dev nD) (t : Fin cfg0.N) : (dats m 0 c).after 4 t = out4 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the triple applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the launch, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option maxHeartbeats 8000000 in
set_option backward.isDefEq.respectTransparency.types false in
/-- Every weakly fair execution of the program terminates; each launch array then holds what the proof data computes
    (an input its launch contents, an output block by block what the body stored) and every other buffer what the
    later host operations compute over those arrays. -/
theorem run_main : θ_run defs (onTc (τ := τ) (main (F := F))) (s₀ m ρ) (Pipeline.FramePost cfgs (dats m) 0 (Pipeline.afterTail₀ cfgs (dats m) 0 (V0 m) [hostOps1, hostOps1_1, hostOps1_2, hostOps1_3, hostOps1_4])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4]) (hsub := sfx_sub) (hfresh := sfx_fresh) (hkeep := sfx_keeps)
    (hmain := hmain m Variants.none) (hA := A_eq m) (hΦ := fun _ _ => rfl)

/-- The frame: the program runs to the end and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Frame

end
-- ==== Proof.Spec.lean ====
/-
  The loss, sample by sample, as plain sums over the extended reals.

  One sample is a row `x : Fin 8 → Fin 131072 → EReal` of eight features at 131072 points and a label
  `t n` (a 32-bit word) at each point; a cluster is a label `c < 16`, read as the word `c`.
  For one sample: `cnt c` counts the points labelled `c`; `ssum f c` adds feature `f` over them;
  `safe c` is the count, or one for an empty cluster; `mean f c = ssum f c / safe c`;
  `hinge n = (max (∑ f, |x f n - mean f (label of n)| - 1/2) 0)²`; `vsum c` adds the hinges of the
  points labelled `c`. Both programs compute these three families (counts, sums, hinge sums) per
  (sample, cluster) and then the same scalar from them.
-/
import Idealize.ShloMosaic.PureOps.Ideal
import Idealize.ShloMosaic.Lib.ValueIdx

noncomputable section

namespace Cert.Spec

open Idealize.ShloMosaic

/-- The word of cluster `c`. -/
abbrev cw (c : Fin 16) : BitVec 32 := BitVec.ofNat 32 c.val

/-- The float literals both programs carry, kept as their words: one half, one, zero. -/
abbrev half : EReal := Ideal.ofBits .f32 0x3F000000#32
abbrev one : EReal := Ideal.ofBits .f32 0x3F800000#32
abbrev zero : EReal := Ideal.ofBits .f32 0x00000000#32

section Row
variable (x : Fin 8 → Fin 131072 → EReal) (t : Fin 131072 → BitVec 32)

/-- How many points of the sample carry label `c`. -/
def cnt (c : Fin 16) : EReal := ∑ n : Fin 131072, if t n = cw c then (1 : EReal) else 0

/-- Feature `f` summed over the points labelled `c`. -/
def ssum (f : Fin 8) (c : Fin 16) : EReal := ∑ n : Fin 131072, if t n = cw c then x f n else 0

/-- The divisor of a cluster's mean: its count, or one when the cluster is empty. -/
def safe (c : Fin 16) : EReal := if zero < cnt t c then cnt t c else one

/-- The cluster's mean of feature `f`. -/
def mean (f : Fin 8) (c : Fin 16) : EReal := Ideal.div (ssum x t f c) (safe t c)

/-- The cluster a point belongs to, as an index (meaningful when the label is below 16). -/
def labOf (n : Fin 131072) : Fin 16 := ⟨(t n).toNat % 16, Nat.mod_lt _ (by decide)⟩

/-- The L1 distance of point `n` to a vector `μ` of feature means. -/
def l1 (μ : Fin 8 → EReal) (n : Fin 131072) : EReal := ∑ f : Fin 8, max (x f n - μ f) (-(x f n - μ f))

/-- The squared hinge of a distance `d`: `(max (d - 1/2) 0)²`. -/
def sqHinge (d : EReal) : EReal := max (d - half) zero * max (d - half) zero

/-- The squared hinge of point `n` against its own cluster's mean. -/
def hinge (n : Fin 131072) : EReal := sqHinge (l1 x (fun f => mean x t f (labOf t n)) n)

/-- The hinges summed over the points labelled `c`. -/
def vsum (c : Fin 16) : EReal := ∑ n : Fin 131072, if t n = cw c then hinge x t n else 0

end Row

/-! ## The whole batch: 32 samples -/

abbrev SX : Shape := ⟨3, ![32, 8, 131072]⟩
abbrev ST : Shape := ⟨2, ![32, 131072]⟩

/-- Sample `b`'s features. -/
def xrow (X : SX.Idx → EReal) (b : Fin 32) : Fin 8 → Fin 131072 → EReal := fun f n => X (ValueIdx.ix3 b f n)
/-- Sample `b`'s labels. -/
def trow (T : ST.Idx → BitVec 32) (b : Fin 32) : Fin 131072 → BitVec 32 := fun n => T (ValueIdx.ix2 b n)

/-- Every feature value is a real number. -/
def Finite (X : SX.Idx → EReal) : Prop := ∀ i, ∃ r : ℝ, X i = (r : EReal)
/-- Every label is a cluster: below 16. -/
def Labelled (T : ST.Idx → BitVec 32) : Prop := ∀ j, (T j).toNat < 16

end Cert.Spec

end
-- ==== Proof.PreFacts.lean ====
/-
  What the precondition says, element by element: every feature value is a real number, and every label is a
  cluster (a word below 16).
-/
import proofs.«405512_j9380208575089_3_alg».proof.Pre_finite_inputs
import proofs.«405512_j9380208575089_3_alg».proof.Proof.Gen.Pre_finite_inputs
import proofs.«405512_j9380208575089_3_alg».proof.Proof.Spec
import Idealize.ShloMosaic.Lib.ReduceAll
import Idealize.ShloMosaic.Lib.StableHlo.Predicate

noncomputable section

namespace Cert.PreFacts

open Idealize.ShloMosaic Cert.Pre_finite_inputs

/-- The scalar shape has exactly one index. -/
instance subsingleton_scalarIdx : Subsingleton S_.Idx := ⟨fun a b => funext fun d => d.elim0⟩

/-- The precondition is a conjunction of three "for all elements" claims; each, when the conjunction is true,
    holds at every element: the absolute value of a feature is below the pattern of +∞, a label is at least the
    word 0 and below the word 16 as signed words. -/
theorem elementwise_of_pre {F : FTy → Type} [FloatOps F] (X : FVec F S32x8x131072 .f32) (T : IVec S32x131072 32)
    (h : Cert.Pre_finite_inputs.fn (F := F) X T = fun _ => 1#1) :
    (∀ i, FloatOps.cmpf .olt (FloatOps.hostAbsf (X i)) (FloatOps.ofBits .f32 0x7F800000#32) = 1#1) ∧
    (∀ j, IntOp.cmpi .sge (T j) 0#32 = 1#1) ∧ (∀ j, IntOp.cmpi .slt (T j) 16#32 = 1#1) := by
  have h0 := congrFun h ValueIdx.ix0
  dsimp only [Cert.Pre_finite_inputs.fn] at h0
  obtain ⟨h12, h3⟩ := IntOp.andi_eq_one.1 h0
  obtain ⟨h1, h2⟩ := IntOp.andi_eq_one.1 h12
  refine ⟨fun i => ?_, fun j => ?_, fun j => ?_⟩
  · exact Host.reduce_andi_all _ _ _ _ _ h1 i
  · exact Host.reduce_andi_all _ _ _ _ _ h2 j
  · exact Host.reduce_andi_all _ _ _ _ _ h3 j

/-- The pattern 0x7F800000 (sign 0, exponent all ones, fraction 0) denotes +∞. -/
theorem ofBits_inf : Ideal.ofBits .f32 0x7F800000#32 = (⊤ : EReal) := by
  simp [Ideal.ofBits, Ideal.ieee]

/-- An extended real whose absolute value max x (-x) is below +∞ is a real number: at ⊥ and at ⊤ the
    absolute value is ⊤. -/
theorem real_of_abs_lt_top (x : EReal) (hx : max x (-x) < ⊤) : ∃ r : ℝ, x = (r : EReal) := by
  induction x using EReal.rec with
  | bot => simp at hx
  | coe r => exact ⟨r, rfl⟩
  | top => simp at hx

/-- A 32-bit word that is at least 0 and below 16 as a signed word has a value below 16. -/
theorem toNat_lt_of_signed (t : BitVec 32) (h0 : IntOp.cmpi .sge t 0#32 = 1#1) (h16 : IntOp.cmpi .slt t 16#32 = 1#1) :
    t.toNat < 16 := by
  simp only [IntOp.cmpi, StableHlo.Predicate.ofBool_eq_one_iff, BitVec.sle, BitVec.slt, decide_eq_true_eq] at h0 h16
  have e0 : (0#32 : BitVec 32).toInt = 0 := by decide
  have e16 : (16#32 : BitVec 32).toInt = 16 := by decide
  rw [e0] at h0; rw [e16] at h16
  rw [BitVec.toInt_eq_toNat_cond] at h0 h16
  split at h0 <;> omega

/-- Under the precondition every feature value is finite. -/
theorem finite_of_pre (X : FVec Ideal S32x8x131072 .f32) (T : IVec S32x131072 32)
    (h : Cert.Pre_finite_inputs.fn (F := Ideal) X T = fun _ => 1#1) : Cert.Spec.Finite X := by
  intro i
  have hi := (elementwise_of_pre X T h).1 i
  refine real_of_abs_lt_top (X i) ?_
  have hi' : BitVec.ofBool (decide (max (X i) (-(X i)) < Ideal.ofBits .f32 0x7F800000#32)) = 1#1 := hi
  rw [ofBits_inf] at hi'
  exact of_decide_eq_true ((StableHlo.Predicate.ofBool_eq_one_iff _).1 hi')

/-- Under the precondition every label is a cluster. -/
theorem labelled_of_pre {F : FTy → Type} [FloatOps F] (X : FVec F S32x8x131072 .f32) (T : IVec S32x131072 32)
    (h : Cert.Pre_finite_inputs.fn (F := F) X T = fun _ => 1#1) : Cert.Spec.Labelled T := by
  intro j
  obtain ⟨_, h2, h3⟩ := elementwise_of_pre X T h
  exact toNat_lt_of_signed (T j) (h2 j) (h3 j)

end Cert.PreFacts

end
-- ==== Proof.KPayload.lean ====
/-
  The kernel body's stored counts and sums, read at an index, at the ideal instance: for one sample's block of
  features `x0` and of labels `t0` they are the sample's cluster counts and cluster sums.
-/
import proofs.«405512_j9380208575089_3_alg».proof.Proof.Gen.KernelIdeal.Skeleton
import proofs.«405512_j9380208575089_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Idealize.ShloMosaic Idealize.ShloMosaic.ValueIdx Cert.KernelIdeal Cert.KernelIdeal.Gen Cert.Spec

/-- The block's features as a row: feature `f` at point `n`. -/
def bx (x0 : Vec Ideal S1x8x131072 .f32) : Fin 8 → Fin 131072 → EReal := fun f n => x0 (ix3 0 f n)
/-- The block's labels as a row. -/
def bt (t0 : Vec Ideal S1x1x131072 .i32) : Fin 131072 → BitVec 32 := fun n => t0 (ix3 0 0 n)

/-- The one-hot mask of the labels: row `c`, point `n` is set exactly when point `n` carries label `c`. -/
theorem pay5_apply (t0 : Vec Ideal S1x1x131072 .i32) (c : Fin 16) (n : Fin 131072) :
    k0_pay5 (F := Ideal) t0 (ix2 c n) = if bt t0 n = cw c then 1#1 else 0#1 := by
  unfold k0_pay5
  show IntOp.cmpi .eq (iota .tc S16x131072 32 [0] iota_S16x131072_d0_w32 (ix2 c n))
      (broadcastTo S16x131072 (shapeCast S1x131072 t0 shapeCasts_S1x1x131072_S1x131072)
        broadcasts_S1x131072_S16x131072 (ix2 c n)) = _
  rw [iota_single_apply, broadcastTo_1b_ab_apply, shapeCast_1ab_ab_apply]
  show IntOp.cmpi .eq (cw c) (bt t0 n) = _
  unfold IntOp.cmpi
  by_cases h : bt t0 n = cw c
  · rw [if_pos h, h]; simp
  · rw [if_neg h]
    have hb : (cw c == bt t0 n) = false := beq_eq_false_iff_ne.mpr fun e => h e.symm
    rw [hb]; rfl

/-- The same mask as numbers: one where the label is `c`, zero elsewhere. -/
theorem pay6_apply (t0 : Vec Ideal S1x1x131072 .i32) (c : Fin 16) (n : Fin 131072) :
    k0_pay6 (F := Ideal) t0 (ix2 c n) = if bt t0 n = cw c then (1 : EReal) else 0 := by
  unfold k0_pay6
  show ((((k0_pay5 (F := Ideal) t0 (ix2 c n)).setWidth 32).toInt : ℝ) : EReal) = _
  rw [pay5_apply]
  by_cases h : bt t0 n = cw c
  · rw [if_pos h, if_pos h]
    have e : ((1#1 : BitVec 1).setWidth 32).toInt = 1 := by decide
    rw [e]; simp
  · rw [if_neg h, if_neg h]
    have e : ((0#1 : BitVec 1).setWidth 32).toInt = 0 := by decide
    rw [e]; simp

/-- A sum along the points of a 16-row array, read at row `c`, is the sum of that row's entries. -/
theorem laneSum (src : FVec Ideal S16x131072 .f32) (c : Fin 16) :
    multiReduction (F := Ideal) .add [1] S16 src 0x00000000#32 reduces_S16x131072_S16 (.inl rfl) rfl (ix1 c)
      = ∑ n : Fin 131072, src (ix2 c n) := by
  refine (Ideal.multiReduction_add_single src 0x00000000#32 reduces_S16x131072_S16 (.inl rfl) rfl (ix1 c)).trans ?_
  show ∑ k : Fin 131072, src (reduces_S16x131072_S16.lift (ix1 c) k) = _
  refine Finset.sum_congr rfl fun k _ => congrArg src ?_
  funext a
  match a with
  | ⟨0, _⟩ => exact Fin.ext rfl
  | ⟨1, _⟩ => exact Fin.ext rfl

/-- The counts before they are stored: cluster `c`'s count. -/
theorem pay7_apply (t0 : Vec Ideal S1x1x131072 .i32) (c : Fin 16) :
    k0_pay7 (F := Ideal) t0 (ix2 0 c) = cnt (bt t0) c := by
  unfold k0_pay7
  rw [shapeCast_a_1a_apply, laneSum]
  unfold cnt
  refine Finset.sum_congr rfl fun n _ => ?_
  exact pay6_apply t0 c n

/-! The product of an `8 × 131072` array with a `16 × 131072` array contracted over the points: the operand
    indices at output `(f, c)` and contraction position `k` are `(f, k)` and `(c, k)`. -/

theorem lhs_dot_0 (j : S8x16.Idx) (k : dot_S8x131072_S16x131072_S8x16_1_1_0_0_n_n.contr.Idx) :
    (dot_S8x131072_S16x131072_S8x16_1_1_0_0_n_n.lhsIdx j k 0).val = (j 0).val := rfl

theorem lhs_dot_1 (j : S8x16.Idx) (k : dot_S8x131072_S16x131072_S8x16_1_1_0_0_n_n.contr.Idx) :
    (dot_S8x131072_S16x131072_S8x16_1_1_0_0_n_n.lhsIdx j k 1).val = (k ⟨0, by decide⟩).val :=
  dot_S8x131072_S16x131072_S8x16_1_1_0_0_n_n.lhsIdx_val_of_single rfl j k

theorem rhs_dot_0 (j : S8x16.Idx) (k : dot_S8x131072_S16x131072_S8x16_1_1_0_0_n_n.contr.Idx) :
    (dot_S8x131072_S16x131072_S8x16_1_1_0_0_n_n.rhsIdx j k 0).val = (j 1).val := rfl

theorem rhs_dot_1 (j : S8x16.Idx) (k : dot_S8x131072_S16x131072_S8x16_1_1_0_0_n_n.contr.Idx) :
    (dot_S8x131072_S16x131072_S8x16_1_1_0_0_n_n.rhsIdx j k 1).val = (k ⟨0, by decide⟩).val :=
  dot_S8x131072_S16x131072_S8x16_1_1_0_0_n_n.rhsIdx_val_of_single rfl j k

/-- That product into a zero accumulator, read at `(f, c)`: the sum over the points of the two rows' products. -/
theorem dot_apply (A : FVec Ideal S8x131072 .bf16) (B : FVec Ideal S16x131072 .bf16) (f : Fin 8) (c : Fin 16) :
    matmul dot_S8x131072_S16x131072_S8x16_1_1_0_0_n_n none A B (constant (F := Ideal) S8x16 .f32 0x00000000#32) (ix2 f c)
      = ∑ n : Fin 131072, A (ix2 f n) * B (ix2 c n) := by
  show FloatOps.matmul dot_S8x131072_S16x131072_S8x16_1_1_0_0_n_n none A B
      (constant (F := Ideal) S8x16 .f32 0x00000000#32) (ix2 f c) = _
  rw [Ideal.matmul_constant_zero_apply,
    ← Equiv.sum_comp (contrEquiv1 dot_S8x131072_S16x131072_S8x16_1_1_0_0_n_n 131072 rfl rfl).symm]
  refine Finset.sum_congr rfl fun n _ => ?_
  congr 1
  · refine congrArg A (funext fun a => Fin.ext ?_)
    match a with
    | ⟨0, _⟩ => exact lhs_dot_0 _ _
    | ⟨1, _⟩ =>
      exact (lhs_dot_1 _ _).trans (contrEquiv1_symm_val dot_S8x131072_S16x131072_S8x16_1_1_0_0_n_n 131072 rfl rfl n)
  · refine congrArg B (funext fun a => Fin.ext ?_)
    match a with
    | ⟨0, _⟩ => exact rhs_dot_0 _ _
    | ⟨1, _⟩ =>
      exact (rhs_dot_1 _ _).trans (contrEquiv1_symm_val dot_S8x131072_S16x131072_S8x16_1_1_0_0_n_n 131072 rfl rfl n)

/-- The block's features with the leading unit axis dropped. -/
theorem pay4_apply (x0 : Vec Ideal S1x8x131072 .f32) (f : Fin 8) (n : Fin 131072) :
    k0_pay4 (F := Ideal) x0 (ix2 f n) = bx x0 f n := by
  unfold k0_pay4
  rw [shapeCast_1ab_ab_apply]
  rfl

/-- The sums before they are stored: feature `f` over the points labelled `c`. -/
theorem pay8_apply (x0 : Vec Ideal S1x8x131072 .f32) (t0 : Vec Ideal S1x1x131072 .i32)
    (hx : ∀ i, ∃ r : ℝ, x0 i = (r : EReal)) (f : Fin 8) (c : Fin 16) :
    k0_pay8 (F := Ideal) x0 t0 (ix2 f c) = ssum (bx x0) (bt t0) f c := by
  unfold k0_pay8
  rw [addf_apply, dot_apply, dot_apply]
  -- the second product's left operand is `x - x`, zero at every finite value
  have hz : ∑ n : Fin 131072,
      (truncf .bf16 (subf (k0_pay4 (F := Ideal) x0) (k0_pay4 (F := Ideal) x0)) bitsLt_bf16_f32 :
          FVec Ideal S8x131072 .bf16) (ix2 f n) * k0_pay6 (F := Ideal) t0 (ix2 c n) = 0 :=
    Finset.sum_eq_zero fun n _ => by
      rw [truncf_apply, subf_apply, pay4_apply]
      obtain ⟨r, hr⟩ := hx (ix3 0 f n)
      have hb : bx x0 f n = (r : EReal) := hr
      rw [hb, ← EReal.coe_sub, sub_self, EReal.coe_zero, zero_mul]
  rw [hz, add_zero]
  unfold ssum
  refine Finset.sum_congr rfl fun n _ => ?_
  rw [truncf_apply, pay4_apply, pay6_apply]
  by_cases h : bt t0 n = cw c
  · rw [if_pos h, if_pos h, mul_one]
  · rw [if_neg h, if_neg h, mul_zero]

/-- The stored counts: entry `c` counts the points labelled `c`. -/
theorem counts_apply (t0 : Vec Ideal S1x1x131072 .i32) (c : Fin 16) :
    k0_pay2 (F := Ideal) (k0_pay7 (F := Ideal) t0) (ix3 0 0 c) = cnt (bt t0) c := by
  unfold k0_pay2
  rw [shapeCast_ab_1ab_apply]
  exact pay7_apply t0 c

/-- The stored sums: entry `(f, c)` adds feature `f` over the points labelled `c` (the low-order part `x - x`
    vanishes on finite values). -/
theorem sums_apply (x0 : Vec Ideal S1x8x131072 .f32) (t0 : Vec Ideal S1x1x131072 .i32)
    (hx : ∀ i, ∃ r : ℝ, x0 i = (r : EReal)) (f : Fin 8) (c : Fin 16) :
    k0_pay1 (F := Ideal) (k0_pay8 (F := Ideal) x0 t0) (ix3 0 f c) = ssum (bx x0) (bt t0) f c := by
  unfold k0_pay1
  rw [shapeCast_ab_1ab_apply]
  exact pay8_apply x0 t0 hx f c

end Cert.KernelIdeal.Payload

end
-- ==== Proof.KHinge.lean ====
/-
  The kernel body's stored hinge sums, read at an index, at the ideal instance: for one sample's block of features
  `x0` and of labels `t0`, entry `c` is the sum over the points labelled `c` of the squared hinge of the
  point's L1 distance to its own cluster's mean.
-/
import proofs.«405512_j9380208575089_3_alg».proof.Proof.KPayload

noncomputable section

namespace Cert.KernelIdeal.Payload

open Idealize.ShloMosaic Idealize.ShloMosaic.ValueIdx Cert.KernelIdeal Cert.KernelIdeal.Gen Cert.Spec

/-! The auxiliary facts of this module live in their own namespace. -/
namespace Hinge

/-! ## Finite sums and quotients of real numbers are real numbers -/

/-- A finite sum, in the extended reals, of real numbers is a real number. -/
theorem sum_isReal {ι : Type} (s : Finset ι) (g : ι → EReal) (h : ∀ i ∈ s, ∃ r : ℝ, g i = (r : EReal)) :
    ∃ r : ℝ, ∑ i ∈ s, g i = (r : EReal) := by
  classical
  induction s using Finset.induction_on with
  | empty => exact ⟨0, by simp⟩
  | insert a s ha ih =>
    obtain ⟨r, hr⟩ := h a (Finset.mem_insert_self a s)
    obtain ⟨q, hq⟩ := ih (fun i hi => h i (Finset.mem_insert_of_mem hi))
    exact ⟨r + q, by rw [Finset.sum_insert ha, hr, hq, EReal.coe_add]⟩

/-- The two literals: the word `0x00000000` is zero and `0x3F800000` is one. -/
theorem zero_eq : (zero : EReal) = 0 := Ideal.ofBits_zero_f32
theorem one_eq : (one : EReal) = 1 := IdealRules.sign_bit.ideal_onePat .f32

section Row
variable (x : Fin 8 → Fin 131072 → EReal) (t : Fin 131072 → BitVec 32)

/-- A cluster's sum of a feature is a real number when every feature value is. -/
theorem ssum_isReal (hx : ∀ f n, ∃ r : ℝ, x f n = (r : EReal)) (f : Fin 8) (c : Fin 16) :
    ∃ r : ℝ, ssum x t f c = (r : EReal) := by
  unfold ssum
  refine sum_isReal _ _ fun n _ => ?_
  split
  · exact hx f n
  · exact ⟨0, EReal.coe_zero.symm⟩

/-- A cluster's count is a real number. -/
theorem cnt_isReal (c : Fin 16) : ∃ r : ℝ, cnt t c = (r : EReal) := by
  unfold cnt
  refine sum_isReal _ _ fun n _ => ?_
  split
  · exact ⟨1, EReal.coe_one.symm⟩
  · exact ⟨0, EReal.coe_zero.symm⟩

/-- The divisor of a mean is a nonzero real number: a positive count, or one. -/
theorem safe_isReal (c : Fin 16) : ∃ r : ℝ, r ≠ 0 ∧ safe t c = (r : EReal) := by
  obtain ⟨q, hq⟩ := cnt_isReal t c
  unfold safe
  split
  · rename_i h
    refine ⟨q, ?_, hq⟩
    rw [zero_eq, hq] at h
    have h' : (0 : ℝ) < q := by exact_mod_cast h
    exact h'.ne'
  · exact ⟨1, one_ne_zero, by rw [one_eq]; rfl⟩

/-- A cluster's mean is a real number when every feature value is. -/
theorem mean_isReal (hx : ∀ f n, ∃ r : ℝ, x f n = (r : EReal)) (f : Fin 8) (c : Fin 16) :
    ∃ r : ℝ, mean x t f c = (r : EReal) := by
  obtain ⟨s, hs⟩ := ssum_isReal x t hx f c
  obtain ⟨d, hd0, hd⟩ := safe_isReal t c
  refine ⟨s * (1 / d), ?_⟩
  unfold mean
  rw [hs, hd, Ideal.div_coe hd0, EReal.coe_mul]

end Row

/-! ## The non-pointwise operations read at an index -/

/-- The product of an `8 × 16` by a `16 × 131072` matrix into the zero accumulator, at `(f, n)`, is the sum over
    the sixteen middle coordinates of the products of the entries. -/
theorem matmul_8_16_apply {φ₁ φ₂ : FTy} (A : FVec Ideal S8x16 φ₁) (B : FVec Ideal S16x131072 φ₂) (f : Fin 8) (n : Fin 131072) :
    matmul dot_S8x16_S16x131072_S8x131072_1_0_0_1_n_n none A B (constant (F := Ideal) S8x131072 .f32 0x00000000#32) (ix2 f n)
      = ∑ c : Fin 16, A (ix2 f c) * B (ix2 c n) := by
  show FloatOps.matmul _ none A B _ (ix2 f n) = _
  rw [Ideal.matmul_constant_zero_apply,
    ← Equiv.sum_comp (contrEquiv1 dot_S8x16_S16x131072_S8x131072_1_0_0_1_n_n 16 rfl rfl).symm]
  refine Finset.sum_congr rfl fun c _ => ?_
  have c2 := contrEquiv1_symm_val dot_S8x16_S16x131072_S8x131072_1_0_0_1_n_n 16 rfl rfl c
  have l2 : (dot_S8x16_S16x131072_S8x131072_1_0_0_1_n_n).lhsIdx (ix2 f n) ((contrEquiv1 _ 16 rfl rfl).symm c) = ix2 f c := by
    funext ax; apply Fin.ext
    match ax with
    | ⟨0, _⟩ => simp [DotDims.lhsIdx, dot_S8x16_S16x131072_S8x131072_1_0_0_1_n_n]; rfl
    | ⟨1, _⟩ => simp [DotDims.lhsIdx, dot_S8x16_S16x131072_S8x131072_1_0_0_1_n_n]; exact c2
  have r2 : (dot_S8x16_S16x131072_S8x131072_1_0_0_1_n_n).rhsIdx (ix2 f n) ((contrEquiv1 _ 16 rfl rfl).symm c) = ix2 c n := by
    funext ax; apply Fin.ext
    match ax with
    | ⟨0, _⟩ => simp [DotDims.rhsIdx, dot_S8x16_S16x131072_S8x131072_1_0_0_1_n_n]; exact c2
    | ⟨1, _⟩ => simp [DotDims.rhsIdx, dot_S8x16_S16x131072_S8x131072_1_0_0_1_n_n]; rfl
  rw [l2, r2]

/-- The sum along the eight features of an `8 × 131072` array, at point `n`. -/
theorem colsum_apply (src : FVec Ideal S8x131072 .f32) (hφ : FKind.Formats .f32)
    (hacc : (0x00000000#32 : BitVec 32) = 0x00000000#32) (n : Fin 131072) :
    multiReduction .add [0] S131072 src 0x00000000#32 reduces_S8x131072_S131072 hφ hacc (ix1 n)
      = ∑ f : Fin 8, src (ix2 f n) := by
  refine (Ideal.multiReduction_add_single src 0x00000000#32 reduces_S8x131072_S131072 hφ hacc (ix1 n)).trans ?_
  refine Finset.sum_congr rfl fun f _ => congrArg src ?_
  funext a
  match a with
  | ⟨0, _⟩ => rfl
  | ⟨1, _⟩ => rfl

/-- The sum along the points of a `16 × 131072` array, at cluster `c`. -/
theorem rowsum_apply (src : FVec Ideal S16x131072 .f32) (hφ : FKind.Formats .f32)
    (hacc : (0x00000000#32 : BitVec 32) = 0x00000000#32) (c : Fin 16) :
    multiReduction .add [1] S16 src 0x00000000#32 reduces_S16x131072_S16 hφ hacc (ix1 c)
      = ∑ n : Fin 131072, src (ix2 c n) := by
  refine (Ideal.multiReduction_add_single src 0x00000000#32 reduces_S16x131072_S16 hφ hacc (ix1 c)).trans ?_
  refine Finset.sum_congr rfl fun n _ => congrArg src ?_
  funext a
  match a with
  | ⟨0, _⟩ => rfl
  | ⟨1, _⟩ => rfl

/-! ## Labels and cluster words -/

/-- Distinct clusters have distinct words. -/
theorem cw_inj {c c' : Fin 16} (h : cw c = cw c') : c = c' := by
  have h' := congrArg BitVec.toNat h
  simp only [BitVec.toNat_ofNat] at h'
  apply Fin.ext
  omega

/-- A label below 16 is the word of its own cluster. -/
theorem cw_labOf (t : Fin 131072 → BitVec 32) (n : Fin 131072) (h : (t n).toNat < 16) : t n = cw (labOf t n) := by
  apply BitVec.eq_of_toNat_eq
  show (t n).toNat = (BitVec.ofNat 32 ((t n).toNat % 16)).toNat
  rw [BitVec.toNat_ofNat]
  omega

/-! ## The kernel's intermediate vectors -/

/-- The divisor row: the count where it is positive, one elsewhere. -/
def kSafe (t0 : Vec Ideal S1x1x131072 .i32) : FVec Ideal S1x16 .f32 :=
  select (cmpf .ogt (k0_pay7 (F := Ideal) t0) (broadcast S1x16 (Scalar.ofBits .f32 0x00000000#32)))
    (k0_pay7 (F := Ideal) t0) (broadcast S1x16 (Scalar.ofBits .f32 0x3F800000#32))

/-- The means: each cluster sum over its divisor. -/
def kMean (x0 : Vec Ideal S1x8x131072 .f32) (t0 : Vec Ideal S1x1x131072 .i32) : FVec Ideal S8x16 .f32 :=
  divf (k0_pay8 (F := Ideal) x0 t0) (broadcastTo S8x16 (kSafe t0) broadcasts_S1x16_S8x16)

/-- Each point's own mean: the means times the one-hot mask, in a high and a low part. -/
def kMeanPt (x0 : Vec Ideal S1x8x131072 .f32) (t0 : Vec Ideal S1x1x131072 .i32) : FVec Ideal S8x131072 .f32 :=
  addf
    (matmul dot_S8x16_S16x131072_S8x131072_1_0_0_1_n_n none (truncf .bf16 (kMean x0 t0) bitsLt_bf16_f32) (k0_pay6 (F := Ideal) t0)
      (constant (F := Ideal) S8x131072 .f32 0x00000000#32))
    (matmul dot_S8x16_S16x131072_S8x131072_1_0_0_1_n_n none (truncf .bf16 (subf (kMean x0 t0) (kMean x0 t0)) bitsLt_bf16_f32) (k0_pay6 (F := Ideal) t0)
      (constant (F := Ideal) S8x131072 .f32 0x00000000#32))

/-- Each point's L1 distance to its own mean. -/
def kL1 (x0 : Vec Ideal S1x8x131072 .f32) (t0 : Vec Ideal S1x1x131072 .i32) : FVec Ideal S1x131072 .f32 :=
  shapeCast S1x131072
    (multiReduction .add [0] S131072 (absf (subf (k0_pay4 (F := Ideal) x0) (kMeanPt x0 t0))) 0x00000000#32
      reduces_S8x131072_S131072 (.inl rfl) rfl)
    shapeCasts_S131072_S1x131072

/-- The hinge payload is the squared positive part of the distance less one half. -/
theorem pay9_eq (x0 : Vec Ideal S1x8x131072 .f32) (t0 : Vec Ideal S1x1x131072 .i32) :
    k0_pay9 (F := Ideal) x0 t0
      = mulf
          (maximumf (subf (kL1 x0 t0) (broadcast S1x131072 (Scalar.ofBits .f32 0x3F000000#32)))
            (broadcast S1x131072 (Scalar.ofBits .f32 0x00000000#32)))
          (maximumf (subf (kL1 x0 t0) (broadcast S1x131072 (Scalar.ofBits .f32 0x3F000000#32)))
            (broadcast S1x131072 (Scalar.ofBits .f32 0x00000000#32))) := rfl

/-- A select on "`a` is greater than `z`" is the `if` on the order. -/
theorem select_ogt (a b z : EReal) : Scalar.select (Ideal.cmp .ogt a z) a b = if z < a then a else b := by
  unfold Ideal.cmp Scalar.select
  by_cases h : z < a <;> simp [h]

/-- The divisor row at cluster `c` is the specification's divisor. -/
theorem kSafe_apply (t0 : Vec Ideal S1x1x131072 .i32) (c : Fin 16) : kSafe t0 (ix2 0 c) = safe (bt t0) c := by
  unfold kSafe
  rw [select_apply, cmpf_apply, broadcast_apply, broadcast_apply, pay7_apply]
  exact select_ogt _ _ _

/-- The means at `(f, c)` are the specification's. -/
theorem kMean_apply (x0 : Vec Ideal S1x8x131072 .f32) (t0 : Vec Ideal S1x1x131072 .i32)
    (hx : ∀ i, ∃ r : ℝ, x0 i = (r : EReal)) (f : Fin 8) (c : Fin 16) :
    kMean x0 t0 (ix2 f c) = mean (bx x0) (bt t0) f c := by
  unfold kMean mean
  rw [divf_apply, broadcastTo_1b_ab_apply, kSafe_apply, pay8_apply x0 t0 hx]

/-- The block of features without its unit axis. -/
theorem pay4_apply (x0 : Vec Ideal S1x8x131072 .f32) (f : Fin 8) (n : Fin 131072) :
    k0_pay4 (F := Ideal) x0 (ix2 f n) = bx x0 f n :=
  shapeCast_1ab_ab_apply x0 shapeCasts_S1x8x131072_S8x131072 f n

/-- The one-hot product picks each point's own cluster mean: of the sixteen terms only the label's is not zero, and
    the low part `mean - mean` vanishes because a mean is a real number. -/
theorem kMeanPt_apply (x0 : Vec Ideal S1x8x131072 .f32) (t0 : Vec Ideal S1x1x131072 .i32)
    (hx : ∀ i, ∃ r : ℝ, x0 i = (r : EReal)) (ht : ∀ i, (t0 i).toNat < 16) (f : Fin 8) (n : Fin 131072) :
    kMeanPt x0 t0 (ix2 f n) = mean (bx x0) (bt t0) f (labOf (bt t0) n) := by
  have hlab : bt t0 n = cw (labOf (bt t0) n) := cw_labOf (bt t0) n (ht _)
  unfold kMeanPt
  rw [addf_apply, matmul_8_16_apply, matmul_8_16_apply]
  have h1 : ∑ c : Fin 16, (truncf .bf16 (kMean x0 t0) bitsLt_bf16_f32 : FVec Ideal S8x16 .bf16) (ix2 f c)
        * k0_pay6 (F := Ideal) t0 (ix2 c n) = mean (bx x0) (bt t0) f (labOf (bt t0) n) := by
    rw [Finset.sum_eq_single (labOf (bt t0) n)]
    · rw [truncf_apply, kMean_apply x0 t0 hx, pay6_apply, if_pos hlab, mul_one]
    · intro c _ hc
      rw [pay6_apply, if_neg (fun h => hc (cw_inj (h.symm.trans hlab))), mul_zero]
    · intro h; exact absurd (Finset.mem_univ _) h
  have h2 : ∑ c : Fin 16, (truncf .bf16 (subf (kMean x0 t0) (kMean x0 t0)) bitsLt_bf16_f32 : FVec Ideal S8x16 .bf16) (ix2 f c)
        * k0_pay6 (F := Ideal) t0 (ix2 c n) = 0 := by
    refine Finset.sum_eq_zero fun c _ => ?_
    obtain ⟨r, hr⟩ := mean_isReal (bx x0) (bt t0) (fun f n => hx _) f c
    rw [truncf_apply, subf_apply, kMean_apply x0 t0 hx, hr, ← EReal.coe_sub, sub_self, EReal.coe_zero, zero_mul]
  rw [h1, h2, add_zero]

/-- The distance row at point `n` is the L1 distance to the mean of the point's own cluster. -/
theorem kL1_apply (x0 : Vec Ideal S1x8x131072 .f32) (t0 : Vec Ideal S1x1x131072 .i32)
    (hx : ∀ i, ∃ r : ℝ, x0 i = (r : EReal)) (ht : ∀ i, (t0 i).toNat < 16) (n : Fin 131072) :
    kL1 x0 t0 (ix2 0 n) = l1 (bx x0) (fun f => mean (bx x0) (bt t0) f (labOf (bt t0) n)) n := by
  unfold kL1 l1
  rw [shapeCast_a_1a_apply]
  refine (colsum_apply _ _ _ n).trans ?_
  refine Finset.sum_congr rfl fun f _ => ?_
  show max ((subf (k0_pay4 (F := Ideal) x0) (kMeanPt x0 t0)) (ix2 f n)) (-((subf (k0_pay4 (F := Ideal) x0) (kMeanPt x0 t0)) (ix2 f n))) = _
  rw [subf_apply, kMeanPt_apply x0 t0 hx ht, pay4_apply]

/-- The hinge payload at point `n` is the point's squared hinge. -/
theorem pay9_apply (x0 : Vec Ideal S1x8x131072 .f32) (t0 : Vec Ideal S1x1x131072 .i32)
    (hx : ∀ i, ∃ r : ℝ, x0 i = (r : EReal)) (ht : ∀ i, (t0 i).toNat < 16) (n : Fin 131072) :
    k0_pay9 (F := Ideal) x0 t0 (ix2 0 n) = hinge (bx x0) (bt t0) n := by
  rw [pay9_eq, mulf_apply, maximumf_apply, subf_apply, broadcast_apply, broadcast_apply, kL1_apply x0 t0 hx ht]
  rfl

end Hinge

/-- The stored hinge sums: entry `c` adds the squared hinge of every point labelled `c` (the one-hot product
    picks each point's own cluster mean when every label is a cluster). -/
theorem varsums_apply (x0 : Vec Ideal S1x8x131072 .f32) (t0 : Vec Ideal S1x1x131072 .i32)
    (hx : ∀ i, ∃ r : ℝ, x0 i = (r : EReal)) (ht : ∀ i, (t0 i).toNat < 16) (c : Fin 16) :
    k0_pay3 (F := Ideal) (k0_pay5 (F := Ideal) t0) (k0_pay9 (F := Ideal) x0 t0) (ix3 0 0 c) = vsum (bx x0) (bt t0) c := by
  show shapeCast S1x1x16
      (shapeCast S1x16
        (multiReduction .add [1] S16
          (select (k0_pay5 (F := Ideal) t0)
            (broadcastTo S16x131072
              (shapeCast S1x131072 (k0_pay9 (F := Ideal) x0 t0) shapeCasts_S1x131072_S1x131072)
              broadcasts_S1x131072_S16x131072)
            (broadcast S16x131072 (Scalar.ofBits (F := Ideal) .f32 0x00000000#32)))
          0x00000000#32 reduces_S16x131072_S16 (.inl rfl) rfl)
        shapeCasts_S16_S1x16)
      shapeCasts_S1x16_S1x1x16 (ix3 0 0 c) = _
  rw [shapeCast_ab_1ab_apply, shapeCast_a_1a_apply]
  refine (Hinge.rowsum_apply _ _ _ c).trans ?_
  unfold vsum
  refine Finset.sum_congr rfl fun n _ => ?_
  rw [select_apply, pay5_apply, broadcastTo_1b_ab_apply, shapeCast_self, broadcast_apply, Hinge.pay9_apply x0 t0 hx ht]
  by_cases h : bt t0 n = cw c
  · rw [if_pos h, if_pos h]; exact select_one _ _
  · rw [if_neg h, if_neg h]; exact (select_zero _ _).trans Ideal.ofBits_zero_f32

end Cert.KernelIdeal.Payload

end
-- ==== Proof.KRegion.lean ====
/-
  The three arrays the launch leaves, at the ideal instance, as functions of the argument arrays: point `b` of the
  grid writes back sample `b`'s block, so entry `(b, f, c)` of the sums is sample `b`'s cluster sum, and likewise
  the counts and the hinge sums.
-/
import proofs.«405512_j9380208575089_3_alg».proof.Proof.FrameKI
import proofs.«405512_j9380208575089_3_alg».proof.Proof.KHinge

noncomputable section

namespace Cert.KernelIdeal.Region

open Idealize.ShloMosaic Idealize.ShloMosaic.TcCoe Idealize.ShloMosaic.ValueIdx Idealize.SL.Sem Cert.KernelIdeal Cert.KernelIdeal.Gen Cert.KernelIdeal.Frame Cert.Spec
open Idealize.ShloMosaic.Pipeline (Dat)

variable (m : (ℓ : Loc nD τ sig) → Buf (Elt Ideal) ℓ) (c : Dev nD)

/-- The features and the labels as launched on core `c`. -/
abbrev X : FVec Ideal S32x8x131072 .f32 := m ((c : Thread nD τ).loc main_arg0)
abbrev T : IVec S32x131072 32 := m ((c : Thread nD τ).loc main_arg1)

/-- The three zero offsets, however spelt. -/
theorem hz3 : (![0, 0, 0] : Fin 3 → Nat) = fun _ => 0 := funext fun a => by fin_cases a <;> rfl

/-- Point `t` of the grid stages and writes back block `(t, 0, 0)` of every one of the five arrays. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0) :=
  (by decide +kernel : ∀ t : Fin grid0.N, _)

/-- The labels' array as the launch finds it: the host laid the labels out with a unit middle axis. -/
theorem V_labels : (V m c main_v0 : S32x1x131072.Idx → BitVec 32)
    = broadcastInDim S32x1x131072 ![0, 2] bcast_S32x131072_S32x1x131072_0_2 (T m c) := by
  dsimp only [V, V0]
  simp only [hostOps0, List.flatten_cons, List.flatten_nil, List.append_nil, List.cons_append, List.nil_append]
  after_results

/-- Entry `(b, 0, n)` of that array is label `(b, n)`. -/
theorem V_labels_apply (j : S32x1x131072.Idx) (k : S32x131072.Idx)
    (hk0 : (k 0).val = (j 0).val) (hk1 : (k 1).val = (j 2).val) :
    (V m c main_v0 : S32x1x131072.Idx → BitVec 32) j = T m c k := by
  rw [V_labels]
  refine broadcastInDim_apply _ _ _ j k fun a => ?_
  match a with
  | ⟨0, _⟩ => exact hk0
  | ⟨1, _⟩ => exact hk1

/-- The features' block at point `t` is sample `t`: entry `(0, f, n)` of the block is entry `(t, f, n)` of the array. -/
theorem xblk_apply (t : Fin cfg0.N) (y : S1x8x131072.Idx) (k : S32x8x131072.Idx)
    (hk0 : (k 0).val = t.val) (hk1 : (k 1).val = (y 1).val) (hk2 : (k 2).val = (y 2).val) :
    (iblk m c 0 t : Vec Ideal S1x8x131072 .f32) y = X m c k := by
  obtain ⟨⟨e0, e1, e2⟩, -⟩ := idx_facts t
  unfold iblk
  rw [View.read_apply]
  show V m c main_arg0 _ = _
  rw [V_main_arg0]
  refine congrArg (X m c) (funext fun a => Fin.ext ?_)
  have h0 : (y 0).val < 1 := (y 0).isLt
  match a with
  | ⟨0, _⟩ => show win0_0.index t (0 : Fin 3) * 1 + 1 * (y 0).val = (k 0).val; omega
  | ⟨1, _⟩ => show win0_0.index t (1 : Fin 3) * 8 + 1 * (y 1).val = (k 1).val; omega
  | ⟨2, _⟩ => show win0_0.index t (2 : Fin 3) * 131072 + 1 * (y 2).val = (k 2).val; omega

/-- The labels' block at point `t` is sample `t`'s labels. -/
theorem tblk_apply (t : Fin cfg0.N) (y : S1x1x131072.Idx) (k : S32x131072.Idx)
    (hk0 : (k 0).val = t.val) (hk1 : (k 1).val = (y 2).val) :
    (iblk m c 1 t : Vec Ideal S1x1x131072 .i32) y = T m c k := by
  obtain ⟨-, ⟨e0, e1, e2⟩, -⟩ := idx_facts t
  unfold iblk
  rw [View.read_apply]
  show (V m c main_v0 : S32x1x131072.Idx → BitVec 32) _ = _
  refine V_labels_apply m c _ k ?_ ?_
  · show (k 0).val = win0_1.index t (0 : Fin 3) * 1 + 1 * (y 0).val
    have h0 : (y 0).val < 1 := (y 0).isLt
    omega
  · show (k 1).val = win0_1.index t (2 : Fin 3) * 131072 + 1 * (y 2).val
    omega

/-! ## One sample's block, read at an index -/

section Block
variable (Xa : FVec Ideal S32x8x131072 .f32) (Ta : IVec S32x131072 32) (b : Fin 32)
  (x0 : Vec Ideal S1x8x131072 .f32) (t0 : Vec Ideal S1x1x131072 .i32)

/-- A block of features that is sample `b`'s, as a row. -/
theorem bx_eq (hx0 : ∀ f n, x0 (ix3 0 f n) = Xa (ix3 b f n)) : Payload.bx x0 = xrow Xa b :=
  funext fun f => funext fun n => hx0 f n

/-- A block of labels that is sample `b`'s, as a row. -/
theorem bt_eq (ht0 : ∀ n, t0 (ix3 0 0 n) = Ta (ix2 b n)) : Payload.bt t0 = trow Ta b :=
  funext fun n => ht0 n

/-- Every entry of a block of a real-valued array is real. -/
theorem blk_real (hX : Finite Xa) (hx0 : ∀ f n, x0 (ix3 0 f n) = Xa (ix3 b f n)) (i : S1x8x131072.Idx) :
    ∃ r : ℝ, x0 i = (r : EReal) := by
  obtain ⟨p, f, n, rfl⟩ : ∃ (p : Fin 1) (f : Fin 8) (n : Fin 131072), i = ix3 p f n := ⟨i 0, i 1, i 2, eq_ix3 i⟩
  obtain rfl : p = 0 := Subsingleton.elim _ _
  rw [hx0]
  exact hX _

/-- Every label of a block of a labelled array is a cluster. -/
theorem blk_lab (hT : Labelled Ta) (ht0 : ∀ n, t0 (ix3 0 0 n) = Ta (ix2 b n)) (i : S1x1x131072.Idx) :
    (t0 i).toNat < 16 := by
  obtain ⟨p, q, n, rfl⟩ : ∃ (p : Fin 1) (q : Fin 1) (n : Fin 131072), i = ix3 p q n := ⟨i 0, i 1, i 2, eq_ix3 i⟩
  obtain rfl : p = 0 := Subsingleton.elim _ _
  obtain rfl : q = 0 := Subsingleton.elim _ _
  rw [ht0]
  exact hT _

/-- The stored block of sums of sample `b`, at `(0, f, k)`, is entry `(b, f, k)` of the array of cluster sums. -/
theorem sums_blk (hX : Finite Xa) (hx0 : ∀ f n, x0 (ix3 0 f n) = Xa (ix3 b f n)) (ht0 : ∀ n, t0 (ix3 0 0 n) = Ta (ix2 b n))
    (j : S1x8x16.Idx) (i : S32x8x16.Idx) (hi0 : (i 0).val = b.val) (hi1 : (i 1).val = (j 1).val) (hi2 : (i 2).val = (j 2).val) :
    k0_pay1 (F := Ideal) (k0_pay8 (F := Ideal) x0 t0) j = ssum (xrow Xa (i 0)) (trow Ta (i 0)) (i 1) (i 2) := by
  obtain ⟨p, f, k, rfl⟩ : ∃ (p : Fin 1) (f : Fin 8) (k : Fin 16), j = ix3 p f k := ⟨j 0, j 1, j 2, eq_ix3 j⟩
  obtain rfl : p = 0 := Subsingleton.elim _ _
  obtain ⟨b', f', k', rfl⟩ : ∃ (b' : Fin 32) (f' : Fin 8) (k' : Fin 16), i = ix3 b' f' k' := ⟨i 0, i 1, i 2, eq_ix3 i⟩
  obtain rfl : b' = b := Fin.ext hi0
  obtain rfl : f' = f := Fin.ext hi1
  obtain rfl : k' = k := Fin.ext hi2
  rw [Payload.sums_apply x0 t0 (blk_real Xa b' x0 hX hx0), bx_eq Xa b' x0 hx0, bt_eq Ta b' t0 ht0]

/-- The stored block of counts of sample `b`, at `(0, 0, k)`, is entry `(b, 0, k)` of the array of counts. -/
theorem counts_blk (ht0 : ∀ n, t0 (ix3 0 0 n) = Ta (ix2 b n))
    (j : S1x1x16.Idx) (i : S32x1x16.Idx) (hi0 : (i 0).val = b.val) (hi2 : (i 2).val = (j 2).val) :
    k0_pay2 (F := Ideal) (k0_pay7 (F := Ideal) t0) j = cnt (trow Ta (i 0)) (i 2) := by
  obtain ⟨p, q, k, rfl⟩ : ∃ (p : Fin 1) (q : Fin 1) (k : Fin 16), j = ix3 p q k := ⟨j 0, j 1, j 2, eq_ix3 j⟩
  obtain rfl : p = 0 := Subsingleton.elim _ _
  obtain rfl : q = 0 := Subsingleton.elim _ _
  obtain ⟨b', q', k', rfl⟩ : ∃ (b' : Fin 32) (q' : Fin 1) (k' : Fin 16), i = ix3 b' q' k' := ⟨i 0, i 1, i 2, eq_ix3 i⟩
  obtain rfl : b' = b := Fin.ext hi0
  obtain rfl : k' = k := Fin.ext hi2
  rw [Payload.counts_apply t0, bt_eq Ta b' t0 ht0]

/-- The stored block of hinge sums of sample `b`, at `(0, 0, k)`, is entry `(b, 0, k)` of the array of hinge sums. -/
theorem varsums_blk (hX : Finite Xa) (hT : Labelled Ta) (hx0 : ∀ f n, x0 (ix3 0 f n) = Xa (ix3 b f n)) (ht0 : ∀ n, t0 (ix3 0 0 n) = Ta (ix2 b n))
    (j : S1x1x16.Idx) (i : S32x1x16.Idx) (hi0 : (i 0).val = b.val) (hi2 : (i 2).val = (j 2).val) :
    k0_pay3 (F := Ideal) (k0_pay5 (F := Ideal) t0) (k0_pay9 (F := Ideal) x0 t0) j = vsum (xrow Xa (i 0)) (trow Ta (i 0)) (i 2) := by
  obtain ⟨p, q, k, rfl⟩ : ∃ (p : Fin 1) (q : Fin 1) (k : Fin 16), j = ix3 p q k := ⟨j 0, j 1, j 2, eq_ix3 j⟩
  obtain rfl : p = 0 := Subsingleton.elim _ _
  obtain rfl : q = 0 := Subsingleton.elim _ _
  obtain ⟨b', q', k', rfl⟩ : ∃ (b' : Fin 32) (q' : Fin 1) (k' : Fin 16), i = ix3 b' q' k' := ⟨i 0, i 1, i 2, eq_ix3 i⟩
  obtain rfl : b' = b := Fin.ext hi0
  obtain rfl : k' = k := Fin.ext hi2
  rw [Payload.varsums_apply x0 t0 (blk_real Xa b' x0 hX hx0) (blk_lab Ta b' t0 hT ht0), bx_eq Xa b' x0 hx0, bt_eq Ta b' t0 ht0]

end Block

/-! ## What each point writes back -/

/-- The point as a sample number. -/
abbrev smp (t : Fin cfg0.N) : Fin 32 := ⟨t.val, Nat.lt_of_lt_of_eq t.isLt N_0⟩

/-- The array of cluster sums, of counts, of hinge sums, as functions of the launched arrays. -/
abbrev Gs : FVec Ideal S32x8x16 .f32 := fun i => ssum (xrow (X m c) (i 0)) (trow (T m c) (i 0)) (i 1) (i 2)
abbrev Gc : FVec Ideal S32x1x16 .f32 := fun i => cnt (trow (T m c) (i 0)) (i 2)
abbrev Gv : FVec Ideal S32x1x16 .f32 := fun i => vsum (xrow (X m c) (i 0)) (trow (T m c) (i 0)) (i 2)

theorem xblk_row (t : Fin cfg0.N) (f : Fin 8) (n : Fin 131072) :
    (iblk m c 0 t : Vec Ideal S1x8x131072 .f32) (ix3 0 f n) = X m c (ix3 (smp t) f n) :=
  xblk_apply m c t _ _ rfl rfl rfl

theorem tblk_row (t : Fin cfg0.N) (n : Fin 131072) :
    (iblk m c 1 t : Vec Ideal S1x1x131072 .i32) (ix3 0 0 n) = T m c (ix2 (smp t) n) :=
  tblk_apply m c t _ _ rfl rfl

/-- Point `t` writes back block `t` of the array of cluster sums. -/
theorem flushed_sums (hX : Finite (X m c)) (t : Fin cfg0.N) :
    (dats m 0 c).flushed 2 t = ((cfg0.win 2).blk t).view.read (Elt Ideal) (Gs m c) := by
  show (cfg0.win 2).cut (grid0.coords t) ((dats m 0 c).after 2 t) = _
  rw [after0_2]
  unfold out2
  rw [View.canon_unit_zero hz3]
  simp only [View.ld_unit_zero (S := S1x8x131072) hz3, View.ld_unit_zero (S := S1x1x131072) hz3]
  obtain ⟨-, -, ⟨e0, e1, e2⟩, -⟩ := idx_facts t
  funext j
  have h0 : (j 0).val < 1 := (j 0).isLt
  have key := sums_blk (X m c) (T m c) (smp t) (iblk m c 0 t) (iblk m c 1 t) hX (xblk_row m c t) (tblk_row m c t)
    ((win0 2).xinj (grid0.coords t) j) (((cfg0.win 2).blk t).view.emb j)
  rw [View.read_apply, cast_eq]
  refine key ?_ ?_ ?_
  · show win0_2.index t (0 : Fin 3) * 1 + 1 * (j 0).val = t.val; omega
  · show win0_2.index t (1 : Fin 3) * 8 + 1 * (j 1).val = (j 1).val; omega
  · show win0_2.index t (2 : Fin 3) * 16 + 1 * (j 2).val = (j 2).val; omega

/-- Point `t` writes back block `t` of the array of counts. -/
theorem flushed_counts (t : Fin cfg0.N) :
    (dats m 0 c).flushed 3 t = ((cfg0.win 3).blk t).view.read (Elt Ideal) (Gc m c) := by
  show (cfg0.win 3).cut (grid0.coords t) ((dats m 0 c).after 3 t) = _
  rw [after0_3]
  unfold out3
  rw [View.canon_unit_zero hz3]
  simp only [View.ld_unit_zero (S := S1x1x131072) hz3]
  obtain ⟨-, -, -, ⟨e0, e1, e2⟩, -⟩ := idx_facts t
  funext j
  have h0 : (j 0).val < 1 := (j 0).isLt
  have key := counts_blk (T m c) (smp t) (iblk m c 1 t) (tblk_row m c t)
    ((win0 3).xinj (grid0.coords t) j) (((cfg0.win 3).blk t).view.emb j)
  rw [View.read_apply, cast_eq]
  refine key ?_ ?_
  · show win0_3.index t (0 : Fin 3) * 1 + 1 * (j 0).val = t.val; omega
  · show win0_3.index t (2 : Fin 3) * 16 + 1 * (j 2).val = (j 2).val; omega

/-- Point `t` writes back block `t` of the array of hinge sums. -/
theorem flushed_varsums (hX : Finite (X m c)) (hT : Labelled (T m c)) (t : Fin cfg0.N) :
    (dats m 0 c).flushed 4 t = ((cfg0.win 4).blk t).view.read (Elt Ideal) (Gv m c) := by
  show (cfg0.win 4).cut (grid0.coords t) ((dats m 0 c).after 4 t) = _
  rw [after0_4]
  unfold out4
  rw [View.canon_unit_zero hz3]
  simp only [View.ld_unit_zero (S := S1x8x131072) hz3, View.ld_unit_zero (S := S1x1x131072) hz3]
  obtain ⟨-, -, -, -, ⟨e0, e1, e2⟩⟩ := idx_facts t
  funext j
  have h0 : (j 0).val < 1 := (j 0).isLt
  have key := varsums_blk (X m c) (T m c) (smp t) (iblk m c 0 t) (iblk m c 1 t) hX hT (xblk_row m c t) (tblk_row m c t)
    ((win0 4).xinj (grid0.coords t) j) (((cfg0.win 4).blk t).view.emb j)
  rw [View.read_apply, cast_eq]
  refine key ?_ ?_
  · show win0_4.index t (0 : Fin 3) * 1 + 1 * (j 0).val = t.val; omega
  · show win0_4.index t (2 : Fin 3) * 16 + 1 * (j 2).val = (j 2).val; omega

/-! ## The blocks cover the arrays -/

/-- The point whose block holds row `b`. -/
abbrev pt (b : Fin 32) : Fin cfg0.N := ⟨b.val, Nat.lt_of_lt_of_eq b.isLt N_0.symm⟩

/-- Entry `(b, f, k)` of the array of cluster sums lies in point `b`'s block. -/
theorem cover_sums (i : S32x8x16.Idx) :
    ∃ t : Fin cfg0.N, (cfg0.win 2).flush t = true ∧ i ∈ ((cfg0.win 2).blk t).view.set := by
  obtain ⟨-, -, ⟨e0, e1, e2⟩, -⟩ := idx_facts (pt (i 0))
  refine ⟨pt (i 0), flush0_2 _, ?_⟩
  show i ∈ ((View.whole main_v1_0).slice (win0_2.rect (pt (i 0)))).set
  rw [View.set_slice_whole, Rect.mem_set_unit]
  intro a
  have ht : (pt (i 0)).val = (i 0).val := rfl
  have h1 : (i 1).val < 8 := (i 1).isLt
  have h2 : (i 2).val < 16 := (i 2).isLt
  match a with
  | ⟨0, _⟩ => show win0_2.index (pt (i 0)) (0 : Fin 3) * 1 ≤ (i 0).val ∧ (i 0).val < win0_2.index (pt (i 0)) (0 : Fin 3) * 1 + 1; omega
  | ⟨1, _⟩ => show win0_2.index (pt (i 0)) (1 : Fin 3) * 8 ≤ (i 1).val ∧ (i 1).val < win0_2.index (pt (i 0)) (1 : Fin 3) * 8 + 8; omega
  | ⟨2, _⟩ => show win0_2.index (pt (i 0)) (2 : Fin 3) * 16 ≤ (i 2).val ∧ (i 2).val < win0_2.index (pt (i 0)) (2 : Fin 3) * 16 + 16; omega

/-- Entry `(b, 0, k)` of the array of counts lies in point `b`'s block. -/
theorem cover_counts (i : S32x1x16.Idx) :
    ∃ t : Fin cfg0.N, (cfg0.win 3).flush t = true ∧ i ∈ ((cfg0.win 3).blk t).view.set := by
  obtain ⟨-, -, -, ⟨e0, e1, e2⟩, -⟩ := idx_facts (pt (i 0))
  refine ⟨pt (i 0), flush0_3 _, ?_⟩
  show i ∈ ((View.whole main_v1_1).slice (win0_3.rect (pt (i 0)))).set
  rw [View.set_slice_whole, Rect.mem_set_unit]
  intro a
  have ht : (pt (i 0)).val = (i 0).val := rfl
  have h1 : (i 1).val < 1 := (i 1).isLt
  have h2 : (i 2).val < 16 := (i 2).isLt
  match a with
  | ⟨0, _⟩ => show win0_3.index (pt (i 0)) (0 : Fin 3) * 1 ≤ (i 0).val ∧ (i 0).val < win0_3.index (pt (i 0)) (0 : Fin 3) * 1 + 1; omega
  | ⟨1, _⟩ => show win0_3.index (pt (i 0)) (1 : Fin 3) * 1 ≤ (i 1).val ∧ (i 1).val < win0_3.index (pt (i 0)) (1 : Fin 3) * 1 + 1; omega
  | ⟨2, _⟩ => show win0_3.index (pt (i 0)) (2 : Fin 3) * 16 ≤ (i 2).val ∧ (i 2).val < win0_3.index (pt (i 0)) (2 : Fin 3) * 16 + 16; omega

/-- Entry `(b, 0, k)` of the array of hinge sums lies in point `b`'s block. -/
theorem cover_varsums (i : S32x1x16.Idx) :
    ∃ t : Fin cfg0.N, (cfg0.win 4).flush t = true ∧ i ∈ ((cfg0.win 4).blk t).view.set := by
  obtain ⟨-, -, -, -, ⟨e0, e1, e2⟩⟩ := idx_facts (pt (i 0))
  refine ⟨pt (i 0), flush0_4 _, ?_⟩
  show i ∈ ((View.whole main_v1_2).slice (win0_4.rect (pt (i 0)))).set
  rw [View.set_slice_whole, Rect.mem_set_unit]
  intro a
  have ht : (pt (i 0)).val = (i 0).val := rfl
  have h1 : (i 1).val < 1 := (i 1).isLt
  have h2 : (i 2).val < 16 := (i 2).isLt
  match a with
  | ⟨0, _⟩ => show win0_4.index (pt (i 0)) (0 : Fin 3) * 1 ≤ (i 0).val ∧ (i 0).val < win0_4.index (pt (i 0)) (0 : Fin 3) * 1 + 1; omega
  | ⟨1, _⟩ => show win0_4.index (pt (i 0)) (1 : Fin 3) * 1 ≤ (i 1).val ∧ (i 1).val < win0_4.index (pt (i 0)) (1 : Fin 3) * 1 + 1; omega
  | ⟨2, _⟩ => show win0_4.index (pt (i 0)) (2 : Fin 3) * 16 ≤ (i 2).val ∧ (i 2).val < win0_4.index (pt (i 0)) (2 : Fin 3) * 16 + 16; omega

/-! ## The three arrays after the launch -/

/-- The array of cluster sums after the launch. -/
theorem sums_arr (hX : Finite (X m c)) :
    ((dats m 0 c).arrAt 2 cfg0.N : FVec Ideal S32x8x16 .f32) = fun i => ssum (xrow (X m c) (i 0)) (trow (T m c) (i 0)) (i 1) (i 2) :=
  (dats m 0 c).arrAt_eq_of_cover 2 (Gs m c) (fun t _ => flushed_sums m c hX t) cover_sums

/-- The array of cluster counts after the launch. -/
theorem counts_arr :
    ((dats m 0 c).arrAt 3 cfg0.N : FVec Ideal S32x1x16 .f32) = fun i => cnt (trow (T m c) (i 0)) (i 2) :=
  (dats m 0 c).arrAt_eq_of_cover 3 (Gc m c) (fun t _ => flushed_counts m c t) cover_counts

/-- The array of hinge sums after the launch. -/
theorem varsums_arr (hX : Finite (X m c)) (hT : Labelled (T m c)) :
    ((dats m 0 c).arrAt 4 cfg0.N : FVec Ideal S32x1x16 .f32) = fun i => vsum (xrow (X m c) (i 0)) (trow (T m c) (i 0)) (i 2) :=
  (dats m 0 c).arrAt_eq_of_cover 4 (Gv m c) (fun t _ => flushed_varsums m c hX hT t) cover_varsums

end Cert.KernelIdeal.Region

end
-- ==== Proof.KTailDefs.lean ====
/-
  The host operations after the launch, as functions of what they read.

  From the three arrays the launch leaves — cluster sums `S` [32, 8, 16], counts `C` [32, 1, 16], hinge sums `Vs`
  [32, 1, 16] — and the labels `T`, the later host operations compute, in this order:
  the divisor `safeOf C` (the count, or one for an empty cluster); the means laid out [32, 16, 8] (`meansOf`);
  the variance term (`varOf`: the mean over samples of the sum over non-empty clusters of hinge sum / count);
  the sixteen mean vectors picked by the labels of each sample's first sixteen points (`pickOf`);
  from those the distance term (`distOf`: pairwise L1 distances against the margin 3 off the diagonal, squared
  hinge, summed, / 240, averaged over samples); from the means the regularisation term (`regOf`: L1 norms averaged
  over clusters and samples); and the loss `1·var + 1·dist + 0.001·reg` (`lossOf`).
  `distOf`, `regOf` and `lossOf` are, operation for operation, also the reference's last operations.
-/
import proofs.«405512_j9380208575089_3_alg».proof.Proof.Gen.KernelIdeal

noncomputable section

namespace Cert.KernelIdeal.Tail

open Idealize.ShloMosaic Cert.KernelIdeal Cert.KernelIdeal.Gen

variable {F : FTy → Type} [FloatOps F]

/-- Which clusters of which samples are non-empty: count > 0. -/
def presentOf (C : FVec F S32x1x16 .f32) : IVec S32x16 1 :=
  cmpf .ogt (shapeCast S32x16 C shapeCasts_S32x1x16_S32x16) (broadcastInDim S32x16 ![] bcast_S_S32x16 (constant S_ .f32 0x00000000#32))

/-- The divisor of a cluster's mean: its count, or one when it is empty. -/
def safeOf (C : FVec F S32x1x16 .f32) : FVec F S32x16 .f32 :=
  select (presentOf C) (shapeCast S32x16 C shapeCasts_S32x1x16_S32x16) (broadcastInDim S32x16 ![] bcast_S_S32x16 (constant S_ .f32 0x3F800000#32))

/-- The cluster means, laid out [sample, cluster, feature]. -/
def meansOf (S : FVec F S32x8x16 .f32) (C : FVec F S32x1x16 .f32) : FVec F S32x16x8 .f32 :=
  transpose S32x16x8 [0, 2, 1]
    (Host.divf S (broadcastInDim S32x8x16 ![0, 1, 2] bcast_S32x1x16_S32x8x16_0_1_2 (broadcastInDim S32x1x16 ![0, 2] bcast_S32x16_S32x1x16_0_2 (safeOf C))))
    transposes_S32x8x16_S32x16x8_0_2_1

/-- The variance term: over non-empty clusters the hinge sum over the count, summed over clusters and samples, over 32. -/
def varOf (C Vs : FVec F S32x1x16 .f32) : FVec F S_ .f32 :=
  Host.divf
    (Host.reduceAdd
      (select (presentOf C) (Host.divf (shapeCast S32x16 Vs shapeCasts_S32x1x16_S32x16) (safeOf C))
        (broadcastInDim S32x16 ![] bcast_S_S32x16 (constant S_ .f32 0x00000000#32)))
      (constant S_ .f32 0x00000000#32) reducesTo_S32x16_S_d0_1 h_S_)
    (constant S_ .f32 0x42000000#32)

/-- The sample index, as the first component of a pick: `b`, or `b + 32` were it negative. -/
def rowIdx : IVec S32x1 32 :=
  select (cmpi .slt (broadcastInDim S32x1 ![0] bcast_S32_S32x1_0 (iotaInDim S32 32 0)) (broadcastInDim S32x1 ![] bcast_S_S32x1 (constantI S_ 32 0#32)))
    (addi (broadcastInDim S32x1 ![0] bcast_S32_S32x1_0 (iotaInDim S32 32 0)) (broadcastInDim S32x1 ![] bcast_S_S32x1 (constantI S_ 32 32#32)))
    (broadcastInDim S32x1 ![0] bcast_S32_S32x1_0 (iotaInDim S32 32 0))

/-- The labels of each sample's first sixteen points, a negative one wrapped by 16. -/
def labIdx (T : IVec S32x131072 32) : IVec S32x16 32 :=
  select (cmpi .slt (extractStridedSlice S32x16 ![0, 0] T slices_S32x131072_S32x16_0_0) (broadcastInDim S32x16 ![] bcast_S_S32x16 (constantI S_ 32 0#32)))
    (addi (extractStridedSlice S32x16 ![0, 0] T slices_S32x131072_S32x16_0_0) (broadcastInDim S32x16 ![] bcast_S_S32x16 (constantI S_ 32 16#32)))
    (extractStridedSlice S32x16 ![0, 0] T slices_S32x131072_S32x16_0_0)

/-- The picks: for sample `b` and position `j` the pair (b, label of point j). -/
def pickIdx (T : IVec S32x131072 32) : IVec S32x16x2 32 :=
  concatenate S32x16x2 2
    [⟨S32x16x1, broadcastInDim S32x16x1 ![0, 1] bcast_S32x16_S32x16x1_0_1 (broadcastInDim S32x16 ![0, 1] bcast_S32x1_S32x16_0_1 (rowIdx))⟩,
     ⟨S32x16x1, broadcastInDim S32x16x1 ![0, 1] bcast_S32x16_S32x16x1_0_1 (labIdx T)⟩]
    concatenates_S32x16x1_S32x16x1_S32x16x2_d2

/-- The mean vectors picked by the first sixteen points' labels. -/
def pickOf (M : FVec F S32x16x8 .f32) (T : IVec S32x131072 32) : FVec F S32x16x8 .f32 :=
  Host.gather gather_S32x16x8_S32x16x2_S32x16x8_2_01_n_n_01_2_118 M (pickIdx T)

/-- The margin: 3 off the diagonal, 0 on it. -/
def margin : FVec F S16x16 .f32 :=
  mulf (broadcastInDim S16x16 ![] bcast_S_S16x16 (constant S_ .f32 0x40400000#32))
    (subf (broadcastInDim S16x16 ![] bcast_S_S16x16 (constant S_ .f32 0x3F800000#32))
      (uitofp .f32 (cmpi .eq (addi (iotaInDim S16x16 32 0) (broadcastInDim S16x16 ![] bcast_S_S16x16 (constantI S_ 32 0#32))) (iotaInDim S16x16 32 1))))

/-- The distance term from the picked mean vectors. -/
def distOf (mc : FVec F S32x16x8 .f32) : FVec F S_ .f32 :=
  Host.divf
    (Host.reduceAdd
      (Host.divf
        (Host.reduceAdd
          (mulf
            (maximumf
              (subf
                (broadcastInDim S32x16x16 ![0, 1, 2] bcast_S1x16x16_S32x16x16_0_1_2 (broadcastInDim S1x16x16 ![1, 2] bcast_S16x16_S1x16x16_1_2 (margin (F := F))))
                (Host.reduceAdd
                  (Host.absf
                    (subf
                      (broadcastInDim S32x16x16x8 ![0, 1, 2, 3] bcast_S32x16x1x8_S32x16x16x8_0_1_2_3 (broadcastInDim S32x16x1x8 ![0, 1, 3] bcast_S32x16x8_S32x16x1x8_0_1_3 mc))
                      (broadcastInDim S32x16x16x8 ![0, 1, 2, 3] bcast_S32x1x16x8_S32x16x16x8_0_1_2_3 (broadcastInDim S32x1x16x8 ![0, 2, 3] bcast_S32x16x8_S32x1x16x8_0_2_3 mc))))
                  (constant S_ .f32 0x00000000#32) reducesTo_S32x16x16x8_S32x16x16_d3 h_S_))
              (broadcastInDim S32x16x16 ![] bcast_S_S32x16x16 (constant S_ .f32 0x00000000#32)))
            (maximumf
              (subf
                (broadcastInDim S32x16x16 ![0, 1, 2] bcast_S1x16x16_S32x16x16_0_1_2 (broadcastInDim S1x16x16 ![1, 2] bcast_S16x16_S1x16x16_1_2 (margin (F := F))))
                (Host.reduceAdd
                  (Host.absf
                    (subf
                      (broadcastInDim S32x16x16x8 ![0, 1, 2, 3] bcast_S32x16x1x8_S32x16x16x8_0_1_2_3 (broadcastInDim S32x16x1x8 ![0, 1, 3] bcast_S32x16x8_S32x16x1x8_0_1_3 mc))
                      (broadcastInDim S32x16x16x8 ![0, 1, 2, 3] bcast_S32x1x16x8_S32x16x16x8_0_1_2_3 (broadcastInDim S32x1x16x8 ![0, 2, 3] bcast_S32x16x8_S32x1x16x8_0_2_3 mc))))
                  (constant S_ .f32 0x00000000#32) reducesTo_S32x16x16x8_S32x16x16_d3 h_S_))
              (broadcastInDim S32x16x16 ![] bcast_S_S32x16x16 (constant S_ .f32 0x00000000#32))))
          (constant S_ .f32 0x00000000#32) reducesTo_S32x16x16_S32_d1_2 h_S_)
        (broadcastInDim S32 ![] bcast_S_S32 (constant S_ .f32 0x43700000#32)))
      (constant S_ .f32 0x00000000#32) reducesTo_S32_S_d0 h_S_)
    (constant S_ .f32 0x42000000#32)

/-- The regularisation term from the means. -/
def regOf (M : FVec F S32x16x8 .f32) : FVec F S_ .f32 :=
  Host.divf
    (Host.reduceAdd
      (Host.divf
        (Host.reduceAdd
          (Host.reduceAdd (Host.absf M) (constant S_ .f32 0x00000000#32) reducesTo_S32x16x8_S32x16_d2 h_S_)
          (constant S_ .f32 0x00000000#32) reducesTo_S32x16_S32_d1 h_S_)
        (broadcastInDim S32 ![] bcast_S_S32 (constant S_ .f32 0x41800000#32)))
      (constant S_ .f32 0x00000000#32) reducesTo_S32_S_d0 h_S_)
    (constant S_ .f32 0x42000000#32)

/-- The loss from its three terms: `1·var + 1·dist + 0.001·reg`, the last factor the f32 word of 0.001. -/
def lossOf (vt dt rt : FVec F S_ .f32) : FVec F S_ .f32 :=
  addf (addf (mulf (constant S_ .f32 0x3F800000#32) vt) (mulf (constant S_ .f32 0x3F800000#32) dt)) (mulf (constant S_ .f32 0x3A83126F#32) rt)

/-- Everything the later host operations compute, from the launch's three arrays and the labels. -/
def tailOf (S : FVec F S32x8x16 .f32) (C Vs : FVec F S32x1x16 .f32) (T : IVec S32x131072 32) : FVec F S_ .f32 :=
  lossOf (varOf C Vs) (distOf (pickOf (meansOf S C) T)) (regOf (meansOf S C))

end Cert.KernelIdeal.Tail

end
-- ==== Proof.KTail.lean ====
/-
  The value the program returns: the later host operations, run over the launch's three arrays and the labels,
  leave in the result buffer the loss `tailOf` of those arrays.
-/
import proofs.«405512_j9380208575089_3_alg».proof.Proof.FrameKI
import proofs.«405512_j9380208575089_3_alg».proof.Proof.KTailDefs
import Idealize.ShloMosaic.Lib.StableHlo.Run

noncomputable section

namespace Cert.KernelIdeal.Tail

open Idealize.ShloMosaic Idealize.ShloMosaic.TcCoe Idealize.SL.Sem Cert.KernelIdeal Cert.KernelIdeal.Gen Cert.KernelIdeal.Frame

variable {F : FTy → Type} [FloatOps F] (m : (ℓ : Loc nD τ sig) → Buf (Elt F) ℓ)

/-- Two index planes laid side by side along the last axis. -/
def cat2 {α : Type} (a b : S32x16x1.Idx → α) : S32x16x2.Idx → α :=
  concatenate S32x16x2 2 [⟨S32x16x1, a⟩, ⟨S32x16x1, b⟩] concatenates_S32x16x1_S32x16x1_S32x16x2_d2

/-- The side-by-side layout, named: this only folds the definition. -/
theorem cat2_eq {α : Type} (a b : S32x16x1.Idx → α) :
    concatenate S32x16x2 2 [⟨S32x16x1, a⟩, ⟨S32x16x1, b⟩] concatenates_S32x16x1_S32x16x1_S32x16x2_d2 = cat2 a b := rfl

set_option maxHeartbeats 8000000 in
/-- What the result buffer holds after the later host operations. -/
theorem tail_eq (c : Dev nD) :
    Pipeline.afterTail₀ cfgs (dats m) 0 (V0 m) [hostOps1, hostOps1_1, hostOps1_2, hostOps1_3, hostOps1_4] c main_v72
      = tailOf (F := F) ((dats m 0 c).arrAt 2 cfg0.N) ((dats m 0 c).arrAt 3 cfg0.N) ((dats m 0 c).arrAt 4 cfg0.N)
          (m ((c : Thread nD τ).loc main_arg1)) := by
  -- The memory the later operations start from holds, at the three output arrays of the launch, what the launch left,
  -- and at the labels, which are no launch array and which the one earlier operation does not write, the labels.
  have h2 : Pipeline.withArrays (cfgs 0).spec c (V0 m c) (fun w => (dats m 0 c).arrAt w (cfgs 0).N) (Proc.devRef .tc main_v1_0) = (dats m 0 c).arrAt 2 cfg0.N :=
    Pipeline.withArrays_arr spec0 launch0.win.arr_inj c _ _ 2
  have h3 : Pipeline.withArrays (cfgs 0).spec c (V0 m c) (fun w => (dats m 0 c).arrAt w (cfgs 0).N) (Proc.devRef .tc main_v1_1) = (dats m 0 c).arrAt 3 cfg0.N :=
    Pipeline.withArrays_arr spec0 launch0.win.arr_inj c _ _ 3
  have h4 : Pipeline.withArrays (cfgs 0).spec c (V0 m c) (fun w => (dats m 0 c).arrAt w (cfgs 0).N) (Proc.devRef .tc main_v1_2) = (dats m 0 c).arrAt 4 cfg0.N :=
    Pipeline.withArrays_arr spec0 launch0.win.arr_inj c _ _ 4
  have hT : Pipeline.withArrays (cfgs 0).spec c (V0 m c) (fun w => (dats m 0 c).arrAt w (cfgs 0).N) (Proc.devRef .tc main_arg1) = m ((c : Thread nD τ).loc main_arg1) :=
    (Pipeline.withArrays_of_ne _ c (V0 m c) _ main_arg1 (by exact (by decide : ∀ w, Pipeline.arrRef spec0 w ≠ main_arg1))).trans
      (V_main_arg1 m c)
  -- Each operation writes one buffer of its own, so the result buffer holds the operations' composition over those four.
  unfold Pipeline.afterTail₀
  simp only [hostOps1, hostOps1_1, hostOps1_2, hostOps1_3, hostOps1_4, List.flatten_cons, List.flatten_nil, List.append_nil, List.cons_append, List.nil_append]
  show StableHlo.after _ _ (Proc.devRef .tc main_v72) = _
  simp (disch := decide) only [StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    cat2_eq]
  simp only [StableHlo.TRef.ofBuf, StableHlo.TRef.toBuf, cast_eq]
  rw [h2, h3, h4, hT]
  -- That composition is, operation for operation, the definition of the loss.
  unfold tailOf lossOf varOf distOf regOf pickOf meansOf safeOf presentOf pickIdx labIdx rowIdx margin cat2
  rfl

end Cert.KernelIdeal.Tail

end
-- ==== Proof.RefTail.lean ====
/-
  The reference's result, split at the same three places as the kernel program's: its last operations are, operation
  for operation, `lossOf` of its variance term, `distOf` of its picked mean vectors and `regOf` of its means.
-/
import proofs.«405512_j9380208575089_3_alg».proof.Proof.RefRead
import proofs.«405512_j9380208575089_3_alg».proof.Proof.KTailDefs

noncomputable section

namespace Cert.ReferenceIdeal.Tail

open Idealize.ShloMosaic

variable {F : FTy → Type} [FloatOps F]

/-- The reference's result from its three junction values. -/
theorem ref_eq (X : FVec F Cert.ReferenceIdeal.S32x8x131072 .f32) (T : IVec Cert.ReferenceIdeal.S32x131072 32) :
    Cert.ReferenceIdeal.ReadP.val_main_v86 (F := F) X T
      = Cert.KernelIdeal.Tail.lossOf (F := F) (Cert.ReferenceIdeal.ReadP.val_main_v43 (F := F) X T)
          (Cert.KernelIdeal.Tail.distOf (F := F) (Cert.ReferenceIdeal.ReadP.val_main_v45 (F := F) X T))
          (Cert.KernelIdeal.Tail.regOf (F := F) (Cert.ReferenceIdeal.ReadP.val_main_v74 (F := F) X T)) := by
  -- Each stage is one operation over earlier stages: opening the stages from the result down to the three junction
  -- values, and the three terms on the right, leaves the same composition of operations on both sides.
  open Cert.ReferenceIdeal.ReadP in (
    unfold val_main_v86 val_main_v85 val_main_v84 val_main_v83 val_main_v82 val_main_v81 val_main_v80 val_main_v79 val_main_v78 val_main_v77 val_main_v76 val_main_v75 val_main_v73 val_main_v72
    unfold val_main_v71 val_main_v70 val_main_v69 val_main_v68 val_main_v67 val_main_v66 val_main_v65 val_main_v64 val_main_v63 val_main_v62 val_main_v61 val_main_v60 val_main_v59 val_main_v58
    unfold val_main_v57 val_main_v56 val_main_v55 val_main_v54 val_main_v53 val_main_v52 val_main_v51 val_main_v50 val_main_v49 val_main_v48 val_main_v47 val_main_v46
    unfold val_main_cst_13 val_main_c_14 val_main_cst_15 val_main_cst_16 val_main_cst_17 val_main_cst_18 val_main_cst_19 val_main_cst_20 val_main_cst_21 val_main_cst_22 val_main_cst_23 val_main_cst_24 val_main_cst_25 val_main_cst_26 val_main_cst_27 val_main_cst_28 val_main_cst_29)
  unfold Cert.KernelIdeal.Tail.lossOf Cert.KernelIdeal.Tail.distOf Cert.KernelIdeal.Tail.regOf Cert.KernelIdeal.Tail.margin
  rfl

end Cert.ReferenceIdeal.Tail

end
-- ==== Proof.RefSeg.lean ====
/-
  The reference's segment sums, read at an index, at the ideal instance. A point
  `(b, n)` is row `131072·b + n` of the flattened batch and its segment is `16·b + label`; when every
  label is a cluster, segment `16·b + c` collects exactly the points of sample `b` labelled `c`.
-/
import proofs.«405512_j9380208575089_3_alg».proof.Proof.RefRead
import proofs.«405512_j9380208575089_3_alg».proof.Proof.Spec
import Idealize.ShloMosaic.Lib.ValueIdx
import Mathlib.Algebra.BigOperators.Group.Finset.Basic

noncomputable section

namespace Cert.ReferenceIdeal.Seg

open Idealize.ShloMosaic Idealize.ShloMosaic.ValueIdx Cert.ReferenceIdeal Cert.ReferenceIdeal.Gen Cert.ReferenceIdeal.ReadP Cert.Spec

/-- The segment of cluster `c` of sample `b`. -/
def seg (b : Fin 32) (c : Fin 16) : Fin 512 := ⟨16 * b.val + c.val, by omega⟩
/-- The flattened row of point `n` of sample `b`. -/
def flat (b : Fin 32) (n : Fin 131072) : Fin 4194304 := ⟨131072 * b.val + n.val, by omega⟩

/-! ## Where an update lands -/

/-- An update lands on operand index `i` exactly when, on every operand axis, its window start (read
    signed off the scatter indices) plus its window coordinate is `i`'s coordinate: the in-range
    test is then automatic, a coordinate of `i` being in range. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    constructor
    · intro heq a
      have h1 : (d.start j idx a + (d.window j a : Int)).toNat = (i a).val :=
        congrArg Fin.val (congrFun (Option.some.inj heq) a)
      have h2 := (h a).1
      omega
    · intro hv
      refine congrArg some (funext fun a => Fin.ext ?_)
      show (d.start j idx a + (d.window j a : Int)).toNat = (i a).val
      rw [hv a]; exact Int.toNat_natCast _
  · rename_i h
    constructor
    · intro heq; exact absurd heq (by simp)
    · intro hv
      exfalso; apply h; intro a; rw [hv a]
      exact ⟨Int.natCast_nonneg _, Int.ofNat_lt.2 (i a).isLt⟩

/-- The rank-1 scatter's dimension numbers. -/
abbrev d1 := scatter_S512_S4194304x1_S4194304_n_0_0_1
/-- The rank-2 scatter's dimension numbers. -/
abbrev d2 := scatter_S512x8_S4194304x1_S4194304x8_1_0_0_1

/-- Update row `p` of the rank-1 scatter reads its one start component at `(p, 0)` of the index column. -/
theorem siIdx1 (p : Fin 4194304) (c : Fin d1.scatterDimsToOperandDims.length) :
    d1.siIdx (ix1 p) c = ix2 p 0 := by
  funext b
  match b with
  | ⟨0, _⟩ => rfl
  | ⟨1, _⟩ =>
    have : c.val = 0 := by have := c.isLt; simpa [d1, scatter_S512_S4194304x1_S4194304_n_0_0_1] using this
    apply Fin.ext
    simp [ScatterDims.siIdx, d1, scatter_S512_S4194304x1_S4194304_n_0_0_1, this]

/-- The rank-1 scatter's window starts at the segment id of the row, read signed. -/
theorem start1 (p : Fin 4194304) (idx : IVec S4194304x1 32) (a : Fin S512.rank) :
    d1.start (ix1 p) idx a = (idx (ix2 p 0)).toInt := by
  obtain rfl : a = (⟨0, Nat.one_pos⟩ : Fin 1) := Subsingleton.elim _ _
  unfold ScatterDims.start
  rw [dif_pos (by decide), siIdx1]

/-- The rank-1 scatter's one operand axis is inserted: no window coordinate. -/
theorem window1 (p : Fin 4194304) (a : Fin S512.rank) :
    d1.window (ix1 p) a = 0 := by
  obtain rfl : a = (⟨0, Nat.one_pos⟩ : Fin 1) := Subsingleton.elim _ _
  unfold ScatterDims.window
  rw [dif_neg (by decide)]

/-- Update row `p` of the rank-1 scatter lands on segment `i` exactly when its id, read signed, is `i`. -/
theorem res1 (p : Fin 4194304) (idx : IVec S4194304x1 32) (i : Fin 512) :
    d1.resultIdx? (ix1 p) idx = some (ix1 i) ↔ (idx (ix2 p 0)).toInt = (i.val : Int) := by
  rw [resultIdx?_eq_some_iff]
  constructor
  · intro h
    have h0 := h ⟨0, Nat.one_pos⟩
    rw [start1, window1] at h0
    have h0' : (idx (ix2 p 0)).toInt + ((0 : Nat) : Int) = (i.val : Int) := h0
    omega
  · intro h a
    obtain rfl : a = (⟨0, Nat.one_pos⟩ : Fin 1) := Subsingleton.elim _ _
    rw [start1, window1]
    show (idx (ix2 p 0)).toInt + ((0 : Nat) : Int) = (i.val : Int)
    omega

/-- Update element `(p, f)` of the rank-2 scatter reads its one start component at `(p, 0)`. -/
theorem siIdx2 (p : Fin 4194304) (f : Fin 8) (c : Fin d2.scatterDimsToOperandDims.length) :
    d2.siIdx (ix2 p f) c = ix2 p 0 := by
  funext b
  match b with
  | ⟨0, _⟩ => rfl
  | ⟨1, _⟩ =>
    have : c.val = 0 := by have := c.isLt; simpa [d2, scatter_S512x8_S4194304x1_S4194304x8_1_0_0_1] using this
    apply Fin.ext
    simp [ScatterDims.siIdx, d2, scatter_S512x8_S4194304x1_S4194304x8_1_0_0_1, this]

/-- On the segment axis the rank-2 window starts at the row's segment id … -/
theorem start2_0 (p : Fin 4194304) (f : Fin 8) (idx : IVec S4194304x1 32) :
    d2.start (ix2 p f) idx (⟨0, by decide⟩ : Fin S512x8.rank) = (idx (ix2 p 0)).toInt := by
  unfold ScatterDims.start
  rw [dif_pos (by decide), siIdx2]
/-- … and on the feature axis at zero. -/
theorem start2_1 (p : Fin 4194304) (f : Fin 8) (idx : IVec S4194304x1 32) :
    d2.start (ix2 p f) idx (⟨1, by decide⟩ : Fin S512x8.rank) = 0 := by
  unfold ScatterDims.start
  rw [dif_neg (by decide)]
/-- The segment axis is inserted: no window coordinate … -/
theorem window2_0 (p : Fin 4194304) (f : Fin 8) :
    d2.window (ix2 p f) (⟨0, by decide⟩ : Fin S512x8.rank) = 0 := by
  unfold ScatterDims.window
  rw [dif_neg (by decide)]
/-- … and the feature axis carries the update's feature coordinate. -/
theorem window2_1 (p : Fin 4194304) (f : Fin 8) :
    d2.window (ix2 p f) (⟨1, by decide⟩ : Fin S512x8.rank) = f.val := by
  unfold ScatterDims.window
  rw [dif_pos (by decide)]
  rfl

/-- Update element `(p, f)` of the rank-2 scatter lands on `(i, g)` exactly when row `p`'s id, read signed,
    is `i` and the features agree. -/
theorem res2 (p : Fin 4194304) (f : Fin 8) (idx : IVec S4194304x1 32) (i : Fin 512) (g : Fin 8) :
    d2.resultIdx? (ix2 p f) idx = some (ix2 i g) ↔ ((idx (ix2 p 0)).toInt = (i.val : Int) ∧ f = g) := by
  rw [resultIdx?_eq_some_iff]
  constructor
  · intro h
    have h0 := h ⟨0, by decide⟩
    have h1 := h ⟨1, by decide⟩
    rw [start2_0, window2_0] at h0
    rw [start2_1, window2_1] at h1
    have h0' : (idx (ix2 p 0)).toInt + ((0 : Nat) : Int) = (i.val : Int) := h0
    have h1' : (0 : Int) + (f.val : Int) = (g.val : Int) := h1
    exact ⟨by omega, Fin.ext (by omega)⟩
  · rintro ⟨h, rfl⟩ a
    match a with
    | ⟨0, _⟩ =>
      rw [start2_0, window2_0]
      show (idx (ix2 p 0)).toInt + ((0 : Nat) : Int) = (i.val : Int)
      omega
    | ⟨1, _⟩ =>
      rw [start2_1, window2_1]
      show (0 : Int) + (f.val : Int) = (f.val : Int)
      omega

/-! ## The segment ids -/

/-- Every row is the row of a (sample, point) pair. -/
theorem flat_surj (p : Fin 4194304) : ∃ (b : Fin 32) (n : Fin 131072), p = flat b n :=
  ⟨⟨p.val / 131072, by omega⟩, ⟨p.val % 131072, by omega⟩, Fin.ext (by simp only [flat]; omega)⟩

/-- Distinct (sample, point) pairs have distinct rows. -/
theorem flat_inj {b b' : Fin 32} {n n' : Fin 131072} (h : (flat b' n').val = (flat b n).val) : b' = b ∧ n' = n := by
  simp only [flat] at h
  exact ⟨Fin.ext (by omega), Fin.ext (by omega)⟩

/-- A sum over the indices satisfying `P`, when those are exactly the images `r n` of the parameters
    `n` satisfying `Q` under an injective `r`, is the sum over the parameters. -/
theorem sum_filter_param {J N M : Type*} [Fintype J] [Fintype N] [AddCommMonoid M]
    (P : J → Prop) [DecidablePred P] (Q : N → Prop) [DecidablePred Q] (r : N → J) (hr : Function.Injective r)
    (hP : ∀ j, P j ↔ ∃ n, j = r n ∧ Q n) (u : J → M) :
    ∑ j ∈ Finset.univ.filter P, u j = ∑ n, if Q n then u (r n) else 0 := by
  classical
  rw [← Finset.sum_filter, ← Finset.sum_image (s := Finset.univ.filter Q) (g := r) (f := u) hr.injOn]
  refine Finset.sum_congr ?_ (fun _ _ => rfl)
  ext j
  simp only [Finset.mem_filter, Finset.mem_univ, true_and, Finset.mem_image]
  rw [hP]
  constructor
  · rintro ⟨n, rfl, hq⟩; exact ⟨n, hq, rfl⟩
  · rintro ⟨n, hq, rfl⟩; exact ⟨n, rfl, hq⟩

/-- The id of row `131072·b + n` is the word `T(b, n) + 16·b`. -/
theorem id_apply (T : IVec S32x131072 32) (b : Fin 32) (n : Fin 131072) :
    val_main_v14 (F := Ideal) T (ix2 (flat b n) 0) = T (ix2 b n) + BitVec.ofNat 32 b.val * 16#32 := by
  rw [val_main_v14_apply, val_main_v6_apply, val_main_v5_apply, val_main_v4_apply, val_main_v3_apply,
    val_main_v1_apply, val_main_v0_apply, val_main_v2_apply, val_main_c_apply]
  have hi : idx_main_v6 (idx_main_v14 (ix2 (flat b n) 0)) = ix2 b n := by
    funext a
    match a with
    | ⟨0, _⟩ => apply Fin.ext; show (131072 * b.val + n.val) / 131072 = b.val; omega
    | ⟨1, _⟩ => apply Fin.ext; show (131072 * b.val + n.val) % 131072 = n.val; omega
  rw [hi]
  rfl

/-- The rank-2 scatter reads the same column of ids. -/
theorem id_apply' (T : IVec S32x131072 32) (b : Fin 32) (n : Fin 131072) :
    val_main_v10 (F := Ideal) T (ix2 (flat b n) 0) = T (ix2 b n) + BitVec.ofNat 32 b.val * 16#32 :=
  id_apply T b n

/-- For a label below 16 and a sample below 32 the id does not wrap: read signed it is `16·b + label`. -/
theorem id_toInt (t : BitVec 32) (ht : t.toNat < 16) (b : Fin 32) :
    (t + BitVec.ofNat 32 b.val * 16#32).toInt = ((16 * b.val + t.toNat : Nat) : Int) := by
  have hb := b.isLt
  have h1 : (t + BitVec.ofNat 32 b.val * 16#32).toNat = 16 * b.val + t.toNat := by
    simp only [BitVec.toNat_add, BitVec.toNat_mul, BitVec.toNat_ofNat]
    omega
  rw [BitVec.toInt_eq_toNat_of_lt (by omega), h1]

/-- A word is cluster `c`'s exactly when its value is `c`. -/
theorem cw_iff (t : BitVec 32) (c : Fin 16) : t = cw c ↔ t.toNat = c.val := by
  have hc := c.isLt
  constructor
  · intro h; rw [h]; simp only [cw, BitVec.toNat_ofNat]; omega
  · intro h; apply BitVec.eq_of_toNat_eq; simp only [cw, BitVec.toNat_ofNat]; omega

/-- `16·b' + l = 16·b + c` with `l, c < 16` forces `b' = b` and `l = c`: the row of point `(b', n)` lands on
    segment `16·b + c` exactly when `b' = b` and its label is `c`. -/
theorem land_iff (T : IVec S32x131072 32) (hT : Labelled T) (b b' : Fin 32) (c : Fin 16) (n : Fin 131072) :
    (T (ix2 b' n) + BitVec.ofNat 32 b'.val * 16#32).toInt = ((seg b c).val : Int) ↔ (b' = b ∧ trow T b' n = cw c) := by
  rw [id_toInt _ (hT _), cw_iff]
  have h16 := hT (ix2 b' n)
  have hc := c.isLt
  show ((16 * b'.val + (T (ix2 b' n)).toNat : Nat) : Int) = ((16 * b.val + c.val : Nat) : Int) ↔ (b' = b ∧ (T (ix2 b' n)).toNat = c.val)
  rw [Fin.ext_iff]
  omega

theorem land1 (T : IVec S32x131072 32) (hT : Labelled T) (b b' : Fin 32) (c : Fin 16) (n : Fin 131072) :
    d1.resultIdx? (ix1 (flat b' n)) (val_main_v14 (F := Ideal) T) = some (ix1 (seg b c)) ↔ (b' = b ∧ trow T b' n = cw c) := by
  rw [res1, id_apply, land_iff T hT]

theorem land2 (T : IVec S32x131072 32) (hT : Labelled T) (b b' : Fin 32) (c : Fin 16) (n : Fin 131072) (f f' : Fin 8) :
    d2.resultIdx? (ix2 (flat b' n) f') (val_main_v10 (F := Ideal) T) = some (ix2 (seg b c) f)
      ↔ ((b' = b ∧ trow T b' n = cw c) ∧ f' = f) := by
  rw [res2, id_apply', land_iff T hT]

/-- The rows landing on segment `16·b + c` are exactly the rows of sample `b`'s points labelled `c`. -/
theorem lands1 (T : IVec S32x131072 32) (hT : Labelled T) (b : Fin 32) (c : Fin 16) (j : S4194304.Idx) :
    d1.resultIdx? j (val_main_v14 (F := Ideal) T) = some (ix1 (seg b c))
      ↔ ∃ n, j = ix1 (flat b n) ∧ trow T b n = cw c := by
  obtain ⟨p, rfl⟩ : ∃ p : Fin 4194304, j = ix1 p := ⟨j 0, eq_ix1 j⟩
  obtain ⟨b', n', rfl⟩ := flat_surj p
  rw [land1 T hT]
  constructor
  · rintro ⟨rfl, h⟩; exact ⟨n', rfl, h⟩
  · rintro ⟨n, hj, h⟩
    have hv : (flat b' n').val = (flat b n).val := congrArg Fin.val (congrFun hj ⟨0, Nat.one_pos⟩)
    obtain ⟨rfl, rfl⟩ := flat_inj hv
    exact ⟨rfl, h⟩

/-- The update elements landing on `(16·b + c, f)` are exactly feature `f` of the rows of sample `b`'s
    points labelled `c`. -/
theorem lands2 (T : IVec S32x131072 32) (hT : Labelled T) (b : Fin 32) (c : Fin 16) (f : Fin 8) (j : S4194304x8.Idx) :
    d2.resultIdx? j (val_main_v10 (F := Ideal) T) = some (ix2 (seg b c) f)
      ↔ ∃ n, j = ix2 (flat b n) f ∧ trow T b n = cw c := by
  obtain ⟨p, f', rfl⟩ : ∃ (p : Fin 4194304) (f' : Fin 8), j = ix2 p f' := ⟨j 0, j 1, eq_ix2 j⟩
  obtain ⟨b', n', rfl⟩ := flat_surj p
  rw [land2 T hT]
  constructor
  · rintro ⟨⟨rfl, h⟩, rfl⟩; exact ⟨n', rfl, h⟩
  · rintro ⟨n, hj, h⟩
    have hv : (flat b' n').val = (flat b n).val := congrArg Fin.val (congrFun hj (⟨0, Nat.zero_lt_two⟩ : Fin 2))
    have hf : f' = f := congrFun hj (⟨1, Nat.one_lt_two⟩ : Fin 2)
    obtain ⟨rfl, rfl⟩ := flat_inj hv
    exact ⟨⟨rfl, h⟩, hf⟩

/-- The host's scatter-add at the ideal instance, read at an index: the operand's element plus the sum
    of the updates landing on it. -/
theorem scatterAdd_apply {s si su : Shape} {w : Nat} (d : ScatterDims s si su) (x : FVec Ideal s .f32)
    (idx : IVec si w) (upd : FVec Ideal su .f32) (i : s.Idx) :
    Host.scatterAdd (F := Ideal) d x idx upd i
      = x i + ∑ j ∈ Finset.univ.filter (fun j => d.resultIdx? j idx = some i), upd j := rfl

/-! ## The two segment sums -/

/-- A rank-1 scatter-add of per-point values `u` onto zeros, by the reference's segment ids: segment
    `16·b + c` receives the values of sample `b`'s points labelled `c`. -/
theorem scatter1_apply (T : IVec S32x131072 32) (hT : Labelled T) (u : FVec Ideal S4194304 .f32) (b : Fin 32) (c : Fin 16) :
    Host.scatterAdd (F := Ideal) scatter_S512_S4194304x1_S4194304_n_0_0_1 (val_main_v13 (F := Ideal)) (val_main_v14 (F := Ideal) T) u
        (ix1 (seg b c))
      = ∑ n : Fin 131072, if trow T b n = cw c then u (ix1 (flat b n)) else 0 := by
  have h0 : val_main_v13 (F := Ideal) (ix1 (seg b c)) = 0 := by
    rw [val_main_v13_apply, val_main_cst_1_apply]; exact Ideal.ofBits_zero_f32
  rw [scatterAdd_apply, h0, zero_add]
  refine sum_filter_param _ _ (fun n => ix1 (flat b n)) ?_ (lands1 T hT b c) u
  intro n n' h
  exact (flat_inj (congrArg Fin.val (congrFun h ⟨0, Nat.one_pos⟩))).2

/-- The rank-2 scatter-add of per-point feature rows `u` onto zeros: segment `16·b + c`, feature `f`. -/
theorem scatter2_apply (T : IVec S32x131072 32) (hT : Labelled T) (u : FVec Ideal S4194304x8 .f32) (b : Fin 32) (c : Fin 16) (f : Fin 8) :
    Host.scatterAdd (F := Ideal) scatter_S512x8_S4194304x1_S4194304x8_1_0_0_1 (val_main_v9 (F := Ideal)) (val_main_v10 (F := Ideal) T) u
        (ix2 (seg b c) f)
      = ∑ n : Fin 131072, if trow T b n = cw c then u (ix2 (flat b n) f) else 0 := by
  have h0 : val_main_v9 (F := Ideal) (ix2 (seg b c) f) = 0 := by
    rw [val_main_v9_apply, val_main_cst_apply]; exact Ideal.ofBits_zero_f32
  rw [scatterAdd_apply, h0, zero_add]
  refine sum_filter_param _ _ (fun n => ix2 (flat b n) f) ?_ (lands2 T hT b c f) u
  intro n n' h
  exact (flat_inj (congrArg Fin.val (congrFun h (⟨0, Nat.zero_lt_two⟩ : Fin 2)))).2

end Cert.ReferenceIdeal.Seg

end
-- ==== Proof.RefGather.lean ====
/-
  The reference's per-point gather of the segment means, read at an index: point `(b, n)` of the flattened batch
  reads row `16·b + label` of the table of means, the label being a cluster.
-/
import proofs.«405512_j9380208575089_3_alg».proof.Proof.RefSeg

noncomputable section

namespace Cert.ReferenceIdeal.Seg

open Idealize.ShloMosaic Idealize.ShloMosaic.ValueIdx Cert.ReferenceIdeal Cert.ReferenceIdeal.Gen Cert.ReferenceIdeal.ReadP Cert.Spec

/-- The gather of rows of a `512 × 8` table by a `4194304 × 1` column of start indices, read at `(r, f)`:
    the table at row `idx (r, 0)` — read signed and clamped into `[0, 511]` — and column `f`. On the
    collapsed axis 0 the operand coordinate is the clamped start alone; on axis 1, which no start index
    addresses, it is the result's own offset coordinate `f`. -/
theorem gather_read {α : Type} (x : S512x8.Idx → α) (idx : IVec S4194304x1 32) (r : Fin 4194304) (f : Fin 8) :
    Host.gather gather_S512x8_S4194304x1_S4194304x8_1_0_n_n_0_1_18 x idx (ix2 r f)
      = x (ix2 ⟨min (idx (ix2 r 0)).toInt.toNat 511, by omega⟩ f) := by
  unfold Host.gather
  congr 1
  funext a
  refine Fin.ext ?_
  match a with
  | ⟨0, _⟩ =>
    show gather_S512x8_S4194304x1_S4194304x8_1_0_n_n_0_1_18.start (ix2 r f) idx 0
      + gather_S512x8_S4194304x1_S4194304x8_1_0_n_n_0_1_18.batchCoord (ix2 r f) 0
      + gather_S512x8_S4194304x1_S4194304x8_1_0_n_n_0_1_18.offCoord (ix2 r f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S512x8_S4194304x1_S4194304x8_1_0_n_n_0_1_18.startIndexMap from List.mem_singleton.mpr rfl)]
    have hsi : gather_S512x8_S4194304x1_S4194304x8_1_0_n_n_0_1_18.siIdx (ix2 r f) ⟨List.idxOf (0 : Fin 2) gather_S512x8_S4194304x1_S4194304x8_1_0_n_n_0_1_18.startIndexMap,
        List.idxOf_lt_length_iff.2 (List.mem_singleton.mpr rfl)⟩ = ix2 r 0 := by
      funext b; refine Fin.ext ?_
      match b with
      | ⟨0, _⟩ => rfl
      | ⟨1, _⟩ => rfl
    rw [hsi]
    rfl
  | ⟨1, _⟩ =>
    show gather_S512x8_S4194304x1_S4194304x8_1_0_n_n_0_1_18.start (ix2 r f) idx 1
      + gather_S512x8_S4194304x1_S4194304x8_1_0_n_n_0_1_18.batchCoord (ix2 r f) 1
      + gather_S512x8_S4194304x1_S4194304x8_1_0_n_n_0_1_18.offCoord (ix2 r f) 1 = _
    rw [GatherDims.batchCoord_eq_zero _ _ _ List.not_mem_nil]
    unfold GatherDims.start
    rw [dif_neg (by decide)]
    simp only [Nat.add_zero, Nat.zero_add]
    rfl

/-- The segment id of a point as a number: a label `t < 16` of sample `b < 32` gives the word
    `t + b·16`, and nothing wraps since `16·b + t < 512`. -/
theorem idw_toNat (t : BitVec 32) (ht : t.toNat < 16) (b : Fin 32) :
    (IntOp.addi t (IntOp.muli (BitVec.ofNat 32 b.val) 16#32)).toNat = 16 * b.val + t.toNat := by
  have hb := b.isLt
  unfold IntOp.addi IntOp.muli
  rw [BitVec.toNat_add, BitVec.toNat_mul, BitVec.toNat_ofNat]
  show (t.toNat + (b.val % 2 ^ 32) * 16 % 2 ^ 32) % 2 ^ 32 = _
  omega

/-- A word below `2³¹` read signed is its unsigned value. -/
theorem toInt_small (w : BitVec 32) (hw : w.toNat < 2 ^ 31) : w.toInt = (w.toNat : Int) := by
  rw [BitVec.toInt_eq_toNat_cond, if_pos (by omega)]

/-- A word below `2³¹` is not negative, so the select on "negative" keeps it. -/
theorem sel_keep (w y : BitVec 32) (hw : w.toNat < 2 ^ 31) :
    Scalar.select (IntOp.cmpi .slt w 0#32) y w = w := by
  have h : IntOp.cmpi .slt w 0#32 = 0#1 := by
    show BitVec.ofBool (w.slt 0#32) = 0#1
    have : w.slt 0#32 = false := by
      unfold BitVec.slt
      rw [toInt_small w hw]
      simp
    rw [this]; rfl
  rw [h, select_zero]

/-- Row `131072·b + n` of the flattened batch is point `(b, n)`. -/
theorem idx6_flat (b : Fin 32) (n : Fin 131072) : idx_main_v6 (ix1 (flat b n)) = ix2 b n := by
  have hb := b.isLt
  have hn := n.isLt
  funext a
  match a with
  | ⟨0, _⟩ => exact Fin.ext (by show (131072 * b.val + n.val) / 131072 = b.val; omega)
  | ⟨1, _⟩ => exact Fin.ext (by show (131072 * b.val + n.val) % 131072 = n.val; omega)

/-- The segment id word at the flattened row of point `(b, n)`: the label plus `b·16`. -/
theorem v6_word (T : IVec S32x131072 32) (b : Fin 32) (n : Fin 131072) :
    val_main_v6 (F := Ideal) T (ix1 (flat b n))
      = IntOp.addi (T (ix2 b n)) (IntOp.muli (BitVec.ofNat 32 b.val) 16#32) := by
  rw [val_main_v6_apply, idx6_flat, val_main_v5_apply, val_main_v4_apply, val_main_v3_apply, val_main_v1_apply,
    val_main_v2_apply, val_main_v0_apply, val_main_c_apply]

/-- The start index the gather reads for point `(b, n)`: its segment id word, which the select on
    "negative" keeps because `16·b + label < 512`. -/
theorem v27_word (T : IVec S32x131072 32) (hT : Labelled T) (b : Fin 32) (n : Fin 131072) :
    val_main_v27 (F := Ideal) T (ix2 (flat b n) 0)
      = IntOp.addi (T (ix2 b n)) (IntOp.muli (BitVec.ofNat 32 b.val) 16#32) := by
  have ht : (T (ix2 b n)).toNat < 16 := hT (ix2 b n)
  have hb := b.isLt
  have hi : idx_main_v27 (ix2 (flat b n) 0) = ix1 (flat b n) := by
    funext a; match a with | ⟨0, _⟩ => rfl
  rw [val_main_v27_apply, hi, val_main_v26_apply, val_main_v23_apply, val_main_v22_apply, val_main_c_4_apply, v6_word]
  exact sel_keep _ _ (by rw [idw_toNat _ ht]; omega)

/-- The row the gather reads for point `(b, n)`: the start index `16·b + label` is already inside
    `[0, 511]`, so the clamp keeps it, and a label below 16 is its own cluster. -/
theorem gather_row (T : IVec S32x131072 32) (hT : Labelled T) (b : Fin 32) (n : Fin 131072)
    (h : min (val_main_v27 (F := Ideal) T (ix2 (flat b n) 0)).toInt.toNat 511 < 512) :
    (⟨min (val_main_v27 (F := Ideal) T (ix2 (flat b n) 0)).toInt.toNat 511, h⟩ : Fin 512)
      = seg b (labOf (trow T b) n) := by
  have ht : (T (ix2 b n)).toNat < 16 := hT (ix2 b n)
  have hb := b.isLt
  refine Fin.ext ?_
  show min (val_main_v27 (F := Ideal) T (ix2 (flat b n) 0)).toInt.toNat 511
    = 16 * b.val + (T (ix2 b n)).toNat % 16
  rw [v27_word T hT, toInt_small _ (by rw [idw_toNat _ ht]; omega), Int.toNat_natCast, idw_toNat _ ht]
  omega

/-- The per-point gather of the segment means: point `(b, n)` reads its own segment's row. -/
theorem gather_apply (X : FVec Ideal S32x8x131072 .f32) (T : IVec S32x131072 32) (hT : Labelled T) (b : Fin 32) (n : Fin 131072) (f : Fin 8) :
    val_main_v28 (F := Ideal) X T (ix2 (flat b n) f)
      = val_main_v21 (F := Ideal) X T (ix2 (seg b (labOf (trow T b) n)) f) := by
  have key : val_main_v28 (F := Ideal) X T (ix2 (flat b n) f)
      = val_main_v21 (F := Ideal) X T
          (ix2 ⟨min (val_main_v27 (F := Ideal) T (ix2 (flat b n) 0)).toInt.toNat 511, by omega⟩ f) :=
    gather_read (val_main_v21 (F := Ideal) X T) (val_main_v27 (F := Ideal) T) (flat b n) f
  rw [key, gather_row T hT b n]

end Cert.ReferenceIdeal.Seg

end
-- ==== Proof.RefMeans.lean ====
/-
  The reference's per-segment and per-point values, read at an index, at the ideal instance, when every label is a
  cluster: segment `16·b + c` holds sample `b`'s count, divisor, sums, means and hinge sum of cluster `c`, and
  point `(b, n)` its squared hinge against its own cluster's mean.
-/
import proofs.«405512_j9380208575089_3_alg».proof.Proof.RefGather
import Idealize.ShloMosaic.Lib.IdealHost

noncomputable section

namespace Cert.ReferenceIdeal.Seg

open Idealize.ShloMosaic Idealize.ShloMosaic.ValueIdx Cert.ReferenceIdeal Cert.ReferenceIdeal.Gen Cert.ReferenceIdeal.ReadP Cert.Spec

variable (X : FVec Ideal S32x8x131072 .f32) (T : IVec S32x131072 32)

/-- A select on the comparison "greater than" is the conditional on the strict order. -/
theorem select_ogt (x y a b : EReal) :
    Scalar.select (Ideal.cmp .ogt x y) a b = if y < x then a else b := by
  unfold Ideal.cmp Scalar.select
  by_cases h : y < x
  · simp [h]
  · simp [h]

/-- Row `131072·b + n`, column `f` of the flattened, transposed batch is feature `f` of point `(b, n)`:
    the flat position `(131072·b + n)·8 + f` splits back into `(b, n, f)`, and the transpose swaps the
    last two coordinates. -/
theorem v8_flat (b : Fin 32) (n : Fin 131072) (f : Fin 8) :
    val_main_v8 (F := Ideal) X (ix2 (flat b n) f) = xrow X b f n := by
  have hb := b.isLt
  have hn := n.isLt
  have hf := f.isLt
  rw [val_main_v8_apply, val_main_v7_apply]
  unfold xrow
  congr 1
  funext a
  match a with
  | ⟨0, _⟩ => exact Fin.ext (by show ((131072 * b.val + n.val) * 8 + f.val) / 1048576 = b.val; omega)
  | ⟨1, _⟩ => exact Fin.ext (by show ((131072 * b.val + n.val) * 8 + f.val) % 8 = f.val; omega)
  | ⟨2, _⟩ => exact Fin.ext (by show ((131072 * b.val + n.val) * 8 + f.val) / 8 % 131072 = n.val; omega)

theorem cnt_apply (hT : Labelled T) (b : Fin 32) (c : Fin 16) :
    val_main_v15 (F := Ideal) T (ix1 (seg b c)) = cnt (trow T b) c := by
  unfold val_main_v15
  rw [scatter1_apply T hT]
  unfold cnt
  refine Finset.sum_congr rfl fun n _ => ?_
  rw [val_main_v12_apply, val_main_cst_0_apply]
  have h1 : (FloatOps.ofBits .f32 0x3F800000#32 : Ideal .f32) = 1 := Ideal.ofBits_one_f32
  rw [h1]

theorem safe_apply (hT : Labelled T) (b : Fin 32) (c : Fin 16) :
    val_main_v18 (F := Ideal) T (ix1 (seg b c)) = safe (trow T b) c := by
  rw [val_main_v18_apply, val_main_v17_apply, val_main_v16_apply, val_main_cst_2_apply, val_main_call0_v1_apply,
    val_main_call0_v0_apply, val_main_cst_3_apply, cnt_apply T hT]
  exact select_ogt _ _ _ _

theorem sum_apply (hT : Labelled T) (b : Fin 32) (c : Fin 16) (f : Fin 8) :
    val_main_v11 (F := Ideal) X T (ix2 (seg b c) f) = ssum (xrow X b) (trow T b) f c := by
  unfold val_main_v11
  rw [scatter2_apply T hT]
  unfold ssum
  refine Finset.sum_congr rfl fun n _ => ?_
  rw [v8_flat]

theorem mean_apply (hT : Labelled T) (b : Fin 32) (c : Fin 16) (f : Fin 8) :
    val_main_v21 (F := Ideal) X T (ix2 (seg b c) f) = mean (xrow X b) (trow T b) f c := by
  have hi : idx_main_v19 (idx_main_v20 (ix2 (seg b c) f)) = ix1 (seg b c) := by
    funext a; match a with | ⟨0, _⟩ => rfl
  rw [val_main_v21_apply, val_main_v20_apply, val_main_v19_apply, hi, safe_apply T hT, sum_apply X T hT]
  rfl

/-- The absolute deviation of feature `k` of point `(b, n)` from its own cluster's mean: the point's gathered
    row is its segment's row of means, and the absolute value is `max x (-x)`. -/
theorem v30_flat (hT : Labelled T) (b : Fin 32) (n : Fin 131072) (k : Fin 8) :
    val_main_v30 (F := Ideal) X T (ix2 (flat b n) k)
      = max (xrow X b k n - mean (xrow X b) (trow T b) k (labOf (trow T b) n))
          (-(xrow X b k n - mean (xrow X b) (trow T b) k (labOf (trow T b) n))) := by
  rw [val_main_v30_apply, val_main_v29_apply, v8_flat, gather_apply X T hT, mean_apply X T hT]
  rfl

theorem hinge_apply (hT : Labelled T) (b : Fin 32) (n : Fin 131072) :
    val_main_v36 (F := Ideal) X T (ix1 (flat b n)) = hinge (xrow X b) (trow T b) n := by
  have hi : ∀ k : Fin 8, idx_main_v31 (ix1 (flat b n)) k = ix2 (flat b n) k := by
    intro k; funext a; match a with
    | ⟨0, _⟩ => rfl
    | ⟨1, _⟩ => rfl
  have hz : (FloatOps.ofBits .f32 0x00000000#32 : Ideal .f32) = 0 := Ideal.ofBits_zero_f32
  have hs : (FloatOps.ofBits .f32 0x00000000#32 : Ideal .f32)
        + ∑ k : Fin 8, val_main_v30 (F := Ideal) X T (idx_main_v31 (ix1 (flat b n)) k)
      = l1 (xrow X b) (fun f => mean (xrow X b) (trow T b) f (labOf (trow T b) n)) n := by
    rw [hz, zero_add]
    unfold l1
    refine Finset.sum_congr rfl fun k _ => ?_
    rw [hi, v30_flat X T hT]
  rw [val_main_v36_apply, val_main_v35_apply, val_main_v34_apply, val_main_cst_8_apply, val_main_v33_apply,
    val_main_v32_apply, val_main_cst_7_apply, val_main_v31_apply, val_main_cst_6_apply, hs]
  rfl

theorem vsum_apply (hT : Labelled T) (b : Fin 32) (c : Fin 16) :
    val_main_v39 (F := Ideal) X T (ix1 (seg b c)) = vsum (xrow X b) (trow T b) c := by
  have h37 : val_main_v37 (F := Ideal) = val_main_v13 (F := Ideal) := rfl
  have h38 : val_main_v38 (F := Ideal) T = val_main_v14 (F := Ideal) T := rfl
  unfold val_main_v39
  rw [h37, h38, scatter1_apply T hT]
  unfold vsum
  refine Finset.sum_congr rfl fun n _ => ?_
  rw [hinge_apply X T hT]

end Cert.ReferenceIdeal.Seg

end
-- ==== Proof.Bridge.lean ====
/-
  The three places where the two programs meet, at the ideal instance. With `Sarr`, `Carr`, `Varr` the arrays of
  cluster sums, counts and hinge sums per (sample, cluster): the kernel program's means are the reference's segment
  means laid out [32, 16, 8], and its picked mean vectors are the reference's per-point means at the first sixteen
  points. (The variance term is in BridgeVar.)
-/
import proofs.«405512_j9380208575089_3_alg».proof.Proof.KTailDefs
import proofs.«405512_j9380208575089_3_alg».proof.Proof.RefMeans
import Idealize.ShloMosaic.Lib.Pipeline.Value
import Idealize.ShloMosaic.Lib.ValueIdx

noncomputable section

namespace Cert.Bridge

open Idealize.ShloMosaic Idealize.ShloMosaic.ValueIdx Cert.Spec

variable (X : FVec Ideal Cert.ReferenceIdeal.S32x8x131072 .f32) (T : IVec Cert.ReferenceIdeal.S32x131072 32)

/-- The arrays of per-(sample, cluster) sums, counts and hinge sums, in the layouts the launch leaves them. -/
def Sarr : FVec Ideal Cert.KernelIdeal.S32x8x16 .f32 := fun i => ssum (xrow X (i 0)) (trow T (i 0)) (i 1) (i 2)
def Carr : FVec Ideal Cert.KernelIdeal.S32x1x16 .f32 := fun i => cnt (trow T (i 0)) (i 2)
def Varr : FVec Ideal Cert.KernelIdeal.S32x1x16 .f32 := fun i => vsum (xrow X (i 0)) (trow T (i 0)) (i 2)

/-! ## The kernel program's host operations read at an index -/

section KernelSide

open Cert.KernelIdeal Cert.KernelIdeal.Gen Cert.KernelIdeal.Tail

/-- The divisor array at (b, c): the count there, or one when the count is not positive. -/
theorem safeOf_apply (C : FVec Ideal S32x1x16 .f32) (b : Fin 32) (c : Fin 16) :
    safeOf (F := Ideal) C (ix2 b c) = if zero < C (ix3 b 0 c) then C (ix3 b 0 c) else one := by
  have hc : shapeCast S32x16 C shapeCasts_S32x1x16_S32x16 (ix2 b c) = C (ix3 b 0 c) :=
    shapeCast_apply C shapeCasts_S32x1x16_S32x16 (ix2 b c) (ix3 b 0 c)
      (by rewrite [Shape.rowMajor_val_two, Shape.rowMajor_val_three]
          show (b.val * 1 + 0) * 16 + c.val = b.val * 16 + c.val
          omega)
  unfold safeOf presentOf
  rw [select_apply, cmpf_apply, hc]
  show Scalar.select (Ideal.cmp .ogt (C (ix3 b 0 c)) zero) (C (ix3 b 0 c)) one = _
  by_cases h : zero < C (ix3 b 0 c)
  · have hb : Ideal.cmp .ogt (C (ix3 b 0 c)) zero = 1#1 := by
      show BitVec.ofBool (decide (zero < C (ix3 b 0 c))) = 1#1
      rw [decide_eq_true h]; rfl
    rw [hb, select_one, if_pos h]
  · have hb : Ideal.cmp .ogt (C (ix3 b 0 c)) zero = 0#1 := by
      show BitVec.ofBool (decide (zero < C (ix3 b 0 c))) = 0#1
      rw [decide_eq_false h]; rfl
    rw [hb, select_zero, if_neg h]

/-- The means array at (b, c, f): the sum at (b, f, c) over the divisor at (b, c). -/
theorem meansOf_apply (S : FVec Ideal S32x8x16 .f32) (C : FVec Ideal S32x1x16 .f32) (b : Fin 32) (c : Fin 16) (f : Fin 8) :
    meansOf (F := Ideal) S C (ix3 b c f) = Ideal.div (S (ix3 b f c)) (safeOf (F := Ideal) C (ix2 b c)) := by
  unfold meansOf
  refine (transpose_apply _ _ transposes_S32x8x16_S32x16x8_0_2_1 (ix3 b c f) (ix3 b f c) (fun a => match a with
    | ⟨0, _⟩ => rfl
    | ⟨1, _⟩ => rfl
    | ⟨2, _⟩ => rfl)).trans ?_
  rfl

/-- The kernel program's mean at (b, c, f) is the specification's mean of feature `f` over cluster `c` of sample
    `b`: the sum at (b, f, c) over the divisor at (b, c), whose test "count > 0" is the specification's. -/
theorem means_apply (b : Fin 32) (c : Fin 16) (f : Fin 8) :
    meansOf (F := Ideal) (Sarr X T) (Carr T) (ix3 b c f) = mean (xrow X b) (trow T b) f c := by
  rw [meansOf_apply, safeOf_apply]
  rfl

/-- The gather of feature vectors of a `32 × 16 × 8` table by a `32 × 16 × 2` array of (row, column) start pairs,
    read at `(b, j, f)`: the table at row `idx (b, j, 0)` and column `idx (b, j, 1)` — each read signed and clamped
    into its axis — and feature `f`. On the two collapsed axes the operand coordinate is the clamped start alone; on
    axis 2, which no start index addresses, it is the result's own offset coordinate `f`. -/
theorem pick_read {α : Type} (x : S32x16x8.Idx → α) (idx : IVec S32x16x2 32) (b : Fin 32) (j : Fin 16) (f : Fin 8) :
    Host.gather gather_S32x16x8_S32x16x2_S32x16x8_2_01_n_n_01_2_118 x idx (ix3 b j f)
      = x (ix3 ⟨min (idx (ix3 b j 0)).toInt.toNat 31, by omega⟩ ⟨min (idx (ix3 b j 1)).toInt.toNat 15, by omega⟩ f) := by
  unfold Host.gather
  congr 1
  funext a
  refine Fin.ext ?_
  match a with
  | ⟨0, _⟩ =>
    show gather_S32x16x8_S32x16x2_S32x16x8_2_01_n_n_01_2_118.start (ix3 b j f) idx 0
      + gather_S32x16x8_S32x16x2_S32x16x8_2_01_n_n_01_2_118.batchCoord (ix3 b j f) 0
      + gather_S32x16x8_S32x16x2_S32x16x8_2_01_n_n_01_2_118.offCoord (ix3 b j f) 0 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin 3) ∈ gather_S32x16x8_S32x16x2_S32x16x8_2_01_n_n_01_2_118.startIndexMap by decide)]
    have hsi : gather_S32x16x8_S32x16x2_S32x16x8_2_01_n_n_01_2_118.siIdx (ix3 b j f) ⟨List.idxOf (0 : Fin 3) gather_S32x16x8_S32x16x2_S32x16x8_2_01_n_n_01_2_118.startIndexMap,
        List.idxOf_lt_length_iff.2 (by decide)⟩ = ix3 b j 0 := by
      funext e; refine Fin.ext ?_
      match e with
      | ⟨0, _⟩ => rfl
      | ⟨1, _⟩ => rfl
      | ⟨2, _⟩ => rfl
    rw [hsi]
    rfl
  | ⟨1, _⟩ =>
    show gather_S32x16x8_S32x16x2_S32x16x8_2_01_n_n_01_2_118.start (ix3 b j f) idx 1
      + gather_S32x16x8_S32x16x2_S32x16x8_2_01_n_n_01_2_118.batchCoord (ix3 b j f) 1
      + gather_S32x16x8_S32x16x2_S32x16x8_2_01_n_n_01_2_118.offCoord (ix3 b j f) 1 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin 3) ∈ gather_S32x16x8_S32x16x2_S32x16x8_2_01_n_n_01_2_118.startIndexMap by decide)]
    have hsi : gather_S32x16x8_S32x16x2_S32x16x8_2_01_n_n_01_2_118.siIdx (ix3 b j f) ⟨List.idxOf (1 : Fin 3) gather_S32x16x8_S32x16x2_S32x16x8_2_01_n_n_01_2_118.startIndexMap,
        List.idxOf_lt_length_iff.2 (by decide)⟩ = ix3 b j 1 := by
      funext e; refine Fin.ext ?_
      match e with
      | ⟨0, _⟩ => rfl
      | ⟨1, _⟩ => rfl
      | ⟨2, _⟩ => rfl
    rw [hsi]
    rfl
  | ⟨2, _⟩ =>
    show gather_S32x16x8_S32x16x2_S32x16x8_2_01_n_n_01_2_118.start (ix3 b j f) idx 2
      + gather_S32x16x8_S32x16x2_S32x16x8_2_01_n_n_01_2_118.batchCoord (ix3 b j f) 2
      + gather_S32x16x8_S32x16x2_S32x16x8_2_01_n_n_01_2_118.offCoord (ix3 b j f) 2 = _
    rw [GatherDims.batchCoord_eq_zero _ _ _ List.not_mem_nil]
    unfold GatherDims.start
    rw [dif_neg (by decide)]
    simp only [Nat.add_zero, Nat.zero_add]
    rfl

/-- A word below `2³¹` read signed is its unsigned value. -/
theorem toInt_of_lt (w : BitVec 32) (hw : w.toNat < 2 ^ 31) : w.toInt = (w.toNat : Int) := by
  rw [BitVec.toInt_eq_toNat_cond, if_pos (by omega)]

/-- A word below `2³¹` is not negative, so the select on "negative" keeps it. -/
theorem select_slt_keep (w y : BitVec 32) (hw : w.toNat < 2 ^ 31) :
    Scalar.select (IntOp.cmpi .slt w 0#32) y w = w := by
  have h : IntOp.cmpi .slt w 0#32 = 0#1 := by
    show BitVec.ofBool (w.slt 0#32) = 0#1
    have : w.slt 0#32 = false := by
      unfold BitVec.slt
      rw [toInt_of_lt w hw]
      simp
    rw [this]; rfl
  rw [h, select_zero]

/-- The first component of the pick at (b, j): the word of `b`, which is not negative and so is kept. -/
theorem pickIdx_row (b : Fin 32) (j : Fin 16) : pickIdx T (ix3 b j 0) = BitVec.ofNat 32 b.val := by
  unfold pickIdx
  refine (concatenate_pair_apply_left 2 _ _ concatenates_S32x16x1_S32x16x1_S32x16x2_d2 (ix3 b j 0) rfl (ix3 b j 0) (fun a => match a with
    | ⟨0, _⟩ => rfl
    | ⟨1, _⟩ => rfl
    | ⟨2, _⟩ => rfl)).trans ?_
  show Scalar.select (IntOp.cmpi .slt (BitVec.ofNat 32 b.val) 0#32) (IntOp.addi (BitVec.ofNat 32 b.val) 32#32) (BitVec.ofNat 32 b.val) = _
  have hb := b.isLt
  exact select_slt_keep _ _ (by rw [BitVec.toNat_ofNat]; omega)

/-- The wrapped label at (b, j): the label of point `j` of sample `b`, kept when it is not negative. -/
theorem labIdx_apply (b : Fin 32) (j : Fin 16) (ht : (T (ix2 b ⟨j.val, by omega⟩)).toNat < 2 ^ 31) :
    labIdx T (ix2 b j) = T (ix2 b ⟨j.val, by omega⟩) := by
  have hs : extractStridedSlice S32x16 ![0, 0] T slices_S32x131072_S32x16_0_0 (ix2 b j) = T (ix2 b ⟨j.val, by omega⟩) :=
    extractStridedSlice_apply ![0, 0] T slices_S32x131072_S32x16_0_0 (ix2 b j) (ix2 b ⟨j.val, by omega⟩) (fun a => match a with
      | ⟨0, _⟩ => by show b.val = 0 + b.val; omega
      | ⟨1, _⟩ => by show j.val = 0 + j.val; omega)
  show Scalar.select (IntOp.cmpi .slt (extractStridedSlice S32x16 ![0, 0] T slices_S32x131072_S32x16_0_0 (ix2 b j)) 0#32)
      (IntOp.addi (extractStridedSlice S32x16 ![0, 0] T slices_S32x131072_S32x16_0_0 (ix2 b j)) 16#32)
      (extractStridedSlice S32x16 ![0, 0] T slices_S32x131072_S32x16_0_0 (ix2 b j)) = _
  rw [hs]
  exact select_slt_keep _ _ ht

/-- The second component of the pick at (b, j): the label of point `j` of sample `b`, kept when it is not negative. -/
theorem pickIdx_lab (b : Fin 32) (j : Fin 16) (ht : (T (ix2 b ⟨j.val, by omega⟩)).toNat < 2 ^ 31) :
    pickIdx T (ix3 b j 1) = T (ix2 b ⟨j.val, by omega⟩) := by
  unfold pickIdx
  refine (concatenate_pair_apply_right 2 _ _ concatenates_S32x16x1_S32x16x1_S32x16x2_d2 (ix3 b j 1) rfl rfl (ix3 b j 0) (fun a => match a with
    | ⟨0, _⟩ => fun _ => rfl
    | ⟨1, _⟩ => fun _ => rfl
    | ⟨2, _⟩ => fun h => absurd rfl h) rfl).trans ?_
  refine (broadcastInDim_apply _ bcast_S32x16_S32x16x1_0_1 _ (ix3 b j 0) (ix2 b j) (fun a => match a with
    | ⟨0, _⟩ => rfl
    | ⟨1, _⟩ => rfl)).trans ?_
  exact labIdx_apply T b j ht

/-- The picked mean vector at (b, j, f): with every label a cluster, both start components are inside the table, so
    the pick reads row `b` and the column of point `j`'s own cluster. -/
theorem pickOf_apply (M : FVec Ideal S32x16x8 .f32) (hT : Labelled T) (b : Fin 32) (j : Fin 16) (f : Fin 8) :
    pickOf (F := Ideal) M T (ix3 b j f) = M (ix3 b (labOf (trow T b) ⟨j.val, by omega⟩) f) := by
  have ht : (T (ix2 b ⟨j.val, by omega⟩)).toNat < 16 := hT _
  have hb := b.isLt
  have e0 : min (pickIdx T (ix3 b j 0)).toInt.toNat 31 = b.val := by
    rw [pickIdx_row, toInt_of_lt _ (by rw [BitVec.toNat_ofNat]; omega), Int.toNat_natCast, BitVec.toNat_ofNat]
    omega
  have e1 : min (pickIdx T (ix3 b j 1)).toInt.toNat 15 = (T (ix2 b ⟨j.val, by omega⟩)).toNat % 16 := by
    rw [pickIdx_lab T b j (by omega), toInt_of_lt _ (by omega), Int.toNat_natCast]
    omega
  unfold pickOf
  rw [pick_read]
  congr 1
  funext a
  match a with
  | ⟨0, _⟩ => exact Fin.ext e0
  | ⟨1, _⟩ => exact Fin.ext e1
  | ⟨2, _⟩ => rfl

end KernelSide

/-! ## The two programs meet -/

open Cert.ReferenceIdeal.ReadP in
open Cert.ReferenceIdeal.Seg (seg flat mean_apply gather_apply) in
/-- The kernel program's means are the reference's segment means laid out [32, 16, 8]: the reshape reads entry
    (b, c, f) at row `16·b + c` and column `f` of the table of segment means, the mean of feature `f` over
    cluster `c` of sample `b`. -/
theorem means_eq (hT : Labelled T) :
    Cert.KernelIdeal.Tail.meansOf (F := Ideal) (Sarr X T) (Carr T) = Cert.ReferenceIdeal.ReadP.val_main_v74 (F := Ideal) X T := by
  funext i
  obtain ⟨b, c, f, rfl⟩ : ∃ (b : Fin 32) (c : Fin 16) (f : Fin 8), i = ix3 b c f := ⟨i 0, i 1, i 2, eq_ix3 i⟩
  have hb := b.isLt
  have hc := c.isLt
  have hf := f.isLt
  have hi : idx_main_v74 (ix3 b c f) = ix2 (seg b c) f := by
    funext a
    match a with
    | ⟨0, _⟩ => exact Fin.ext (by show ((b.val * 16 + c.val) * 8 + f.val) / 8 = 16 * b.val + c.val; omega)
    | ⟨1, _⟩ => exact Fin.ext (by show ((b.val * 16 + c.val) * 8 + f.val) % 8 = f.val; omega)
  rw [means_apply, val_main_v74_apply, hi, mean_apply X T hT]

open Cert.ReferenceIdeal.ReadP in
open Cert.ReferenceIdeal.Seg (seg flat mean_apply gather_apply) in
/-- The kernel program's picked mean vectors are the reference's per-point means at the first sixteen points: both
    read, at (b, j, f), the mean of feature `f` over the cluster of point `j` of sample `b` — the kernel program by
    its pick (b, label), the reference at row `131072·b + j` of its per-point gather of the segment means. -/
theorem pick_eq (hT : Labelled T) :
    Cert.KernelIdeal.Tail.pickOf (F := Ideal) (Cert.KernelIdeal.Tail.meansOf (F := Ideal) (Sarr X T) (Carr T)) T
      = Cert.ReferenceIdeal.ReadP.val_main_v45 (F := Ideal) X T := by
  funext i
  obtain ⟨b, j, f, rfl⟩ : ∃ (b : Fin 32) (j : Fin 16) (f : Fin 8), i = ix3 b j f := ⟨i 0, i 1, i 2, eq_ix3 i⟩
  have hb := b.isLt
  have hj := j.isLt
  have hf := f.isLt
  have hi : idx_main_v44 (idx_main_v45 (ix3 b j f)) = ix2 (flat b ⟨j.val, by omega⟩) f := by
    funext a
    match a with
    | ⟨0, _⟩ => exact Fin.ext (by show ((b.val * 131072 + j.val) * 8 + f.val) / 8 = 131072 * b.val + j.val; omega)
    | ⟨1, _⟩ => exact Fin.ext (by show ((b.val * 131072 + j.val) * 8 + f.val) % 8 = f.val; omega)
  rw [pickOf_apply T _ hT, means_apply, val_main_v45_apply, val_main_v44_apply, hi, gather_apply X T hT, mean_apply X T hT]

end Cert.Bridge

end
-- ==== Proof.BridgeVar.lean ====
/-
  The variance term: the kernel program sums `hinge sum / count` over the non-empty clusters of a [32, 16] array, the
  reference over its 512 segments; segment `16·b + c` is entry `(b, c)`, so the two sums have the same terms.
-/
import proofs.«405512_j9380208575089_3_alg».proof.Proof.Bridge
import Idealize.ShloMosaic.Lib.ValueIdx
import Idealize.ShloMosaic.Lib.ValueIdxRank1
import Idealize.ShloMosaic.Lib.Pipeline.Value
import Idealize.ShloMosaic.PureOps.Ideal.Laws

noncomputable section

namespace Cert.Bridge

open Idealize.ShloMosaic Idealize.ShloMosaic.ValueIdx Cert.Spec

variable (X : FVec Ideal Cert.ReferenceIdeal.S32x8x131072 .f32) (T : IVec Cert.ReferenceIdeal.S32x131072 32)

namespace Var

/-! ## Segments are (sample, cluster) pairs -/

/-- `(b, c) ↦ 16·b + c` is a bijection from the (sample, cluster) pairs onto the 512 segments; its inverse is
    `s ↦ (s / 16, s % 16)`. -/
def segPair : Fin 32 × Fin 16 ≃ Fin 512 where
  toFun q := Cert.ReferenceIdeal.Seg.seg q.1 q.2
  invFun s := (⟨s.val / 16, by omega⟩, ⟨s.val % 16, by omega⟩)
  left_inv q := by
    obtain ⟨b, c⟩ := q
    apply Prod.ext <;> apply Fin.ext <;> simp only [Cert.ReferenceIdeal.Seg.seg] <;> omega
  right_inv s := by
    apply Fin.ext; simp only [Cert.ReferenceIdeal.Seg.seg]; omega

/-- A sum over the 512 segments is the double sum over samples and clusters: a rank-1 index is its coordinate, and the
    coordinates are re-indexed along `segPair`. -/
theorem sum_segments {M : Type*} [AddCommMonoid M] (g : (⟨1, ![512]⟩ : Shape).Idx → M) :
    ∑ j, g j = ∑ b : Fin 32, ∑ c : Fin 16, g (ix1 (Cert.ReferenceIdeal.Seg.seg b c)) := by
  rw [← Equiv.sum_comp (idxEquiv1 (n := 512)).symm g, ← Equiv.sum_comp segPair, Fintype.sum_prod_type]
  rfl

/-! ## The kernel program's operations read at `(b, c)` -/

/-- The [32, 1, 16] → [32, 16] reshape read at `(b, c)` is the operand at `(b, 0, c)`: both have row-major
    position `16·b + c`. -/
theorem cast_apply (A : FVec Ideal Cert.KernelIdeal.S32x1x16 .f32) (b : Fin 32) (c : Fin 16) :
    shapeCast Cert.KernelIdeal.S32x16 A Cert.KernelIdeal.Gen.shapeCasts_S32x1x16_S32x16 (ix2 b c) = A (ix3 b 0 c) := by
  refine shapeCast_apply A _ (ix2 b c) (ix3 b 0 c) ?_
  rw [Shape.rowMajor_val_three, Shape.rowMajor_val_two]
  show (b.val * 1 + 0) * 16 + c.val = b.val * 16 + c.val
  omega

/-- A scalar broadcast to [32, 16] reads the scalar everywhere. -/
theorem splat_apply (y : FVec Ideal Cert.KernelIdeal.S_ .f32) (j : Cert.KernelIdeal.S32x16.Idx) :
    broadcastInDim Cert.KernelIdeal.S32x16 ![] Cert.KernelIdeal.Gen.bcast_S_S32x16 y j = y ix0 :=
  broadcastInDim_apply _ Cert.KernelIdeal.Gen.bcast_S_S32x16 y j ix0 (fun a => a.elim0)

open Cert.KernelIdeal.Tail in
/-- "Cluster `c` of sample `b` is non-empty" is the comparison of the count at `(b, 0, c)` against zero. -/
theorem present_apply (C : FVec Ideal Cert.KernelIdeal.S32x1x16 .f32) (b : Fin 32) (c : Fin 16) :
    presentOf (F := Ideal) C (ix2 b c) = FloatOps.cmpf .ogt (C (ix3 b 0 c)) (Ideal.ofBits .f32 0x00000000#32) := by
  unfold presentOf
  rw [cmpf_apply, cast_apply, splat_apply]
  rfl

open Cert.KernelIdeal.Tail in
/-- The divisor at `(b, c)`: the count at `(b, 0, c)` when it is positive, one otherwise. -/
theorem safeOf_apply (C : FVec Ideal Cert.KernelIdeal.S32x1x16 .f32) (b : Fin 32) (c : Fin 16) :
    safeOf (F := Ideal) C (ix2 b c)
      = Scalar.select (FloatOps.cmpf .ogt (C (ix3 b 0 c)) (Ideal.ofBits .f32 0x00000000#32)) (C (ix3 b 0 c)) (Ideal.ofBits .f32 0x3F800000#32) := by
  unfold safeOf
  rw [select_apply, present_apply, cast_apply, splat_apply]
  rfl

open Cert.KernelIdeal.Tail Cert.ReferenceIdeal.ReadP Cert.ReferenceIdeal.Seg in
/-- The two sums have the same terms. At `(b, c)` the kernel program's summand selects, on "count > 0", the hinge sum
    over the divisor, else zero, the count and the hinge sum being `cnt` and `vsum` of sample `b`, cluster `c` by
    the definition of the arrays; the reference's summand at segment `16·b + c` is the same selection of the same
    quotient, its count and hinge sum there being `cnt` and `vsum` of `(b, c)` and its divisor the same selection
    of the count or one. -/
theorem term_eq (hT : Labelled T) (b : Fin 32) (c : Fin 16) :
    select (presentOf (F := Ideal) (Carr T))
        (Host.divf (shapeCast Cert.KernelIdeal.S32x16 (Varr X T) Cert.KernelIdeal.Gen.shapeCasts_S32x1x16_S32x16) (safeOf (F := Ideal) (Carr T)))
        (broadcastInDim Cert.KernelIdeal.S32x16 ![] Cert.KernelIdeal.Gen.bcast_S_S32x16 (constant Cert.KernelIdeal.S_ .f32 0x00000000#32)) (ix2 b c)
      = val_main_v41 (F := Ideal) X T (ix1 (seg b c)) := by
  rw [select_apply, present_apply, splat_apply]
  rw [val_main_v41_apply, val_main_v17_apply, val_main_v40_apply, val_main_v18_apply, val_main_v17_apply,
    cnt_apply T hT, vsum_apply X T hT,
    val_main_v16_apply, val_main_cst_2_apply, val_main_call1_v1_apply, val_main_call1_v0_apply, val_main_cst_10_apply,
    val_main_call0_v1_apply, val_main_call0_v0_apply, val_main_cst_3_apply]
  show Scalar.select _ (FloatOps.hostDivf (shapeCast Cert.KernelIdeal.S32x16 (Varr X T) Cert.KernelIdeal.Gen.shapeCasts_S32x1x16_S32x16 (ix2 b c)) (safeOf (F := Ideal) (Carr T) (ix2 b c))) _ = _
  rw [cast_apply, safeOf_apply]
  rfl

end Var

open Cert.KernelIdeal.Tail Cert.ReferenceIdeal.ReadP in
theorem var_eq (hT : Labelled T) :
    Cert.KernelIdeal.Tail.varOf (F := Ideal) (Carr T) (Varr X T) = Cert.ReferenceIdeal.ReadP.val_main_v43 (F := Ideal) X T := by
  -- Both sides are (zero + a total sum) / 32; the reference's sum over segments is the double sum over (b, c), the
  -- kernel program's sum over [32, 16] likewise, and the summands agree by `Var.term_eq`.
  funext i
  rw [val_main_v43_apply, val_main_v42_apply, Var.sum_segments]
  unfold varOf
  show FloatOps.hostDivf (Host.reduceAdd _ _ Cert.KernelIdeal.Gen.reducesTo_S32x16_S_d0_1 Cert.KernelIdeal.Gen.h_S_ i) _ = _
  simp only [Host.reduceAdd, Ideal.hostReduceAdd_def]
  rw [Ideal.hostReduceAdd_total Cert.KernelIdeal.Gen.reducesTo_S32x16_S_d0_1 (fun b => b.elim0), sum_idx2]
  simp only [Var.term_eq X T hT]
  rfl

end Cert.Bridge

end
-- ==== Proof.lean ====
/-
  A discriminative (clustering) loss over 32 samples of 131072 points with 8 features and a label in [0, 16) each:
  the fused kernel against the segment-sum reference.

  Both programs compute, per sample and cluster, the count, the feature sums and the sum of squared hinges of the
  points' L1 distances to their own cluster mean, and then one scalar: the variance term (hinge sum / count over the
  non-empty clusters), the distance term (between the means picked by the first sixteen points' labels) and the
  regularisation term (L1 norms of the means), combined as 1·var + 1·dist + 0.001·reg.

  The kernel builds the one-hot mask `label = c` of a sample and gets counts and hinge sums as masked lane sums and
  the feature sums and per-point means as products with the mask; it splits each product's data operand into a
  rounded part and a remainder `v - v`, which at the ideal instance is zero on finite values: there the two
  products are the exact masked sum and the exact mean of the point's cluster. The reference flattens the batch,
  offsets the labels by 16·sample and scatter-adds by segment; when every label is a cluster, segment 16·b + c
  receives exactly sample b's points labelled c, and its gather of the segment means reads each point's own
  cluster. So under the precondition — features finite, labels in [0, 16) — the two results are the same function
  of the inputs. (A label outside [0, 16) is dropped by the kernel's mask but lands in a neighbouring sample's
  segment in the reference: the label range is needed, and is what the reference documents.)

  The frames: each program runs to the end and leaves its two argument arrays as launched. The idealization
  removed two round trips through bf16, whose rule statements are the `preserves` conjuncts.
-/
import proofs.«405512_j9380208575089_3_alg».proof.Defs
import proofs.«405512_j9380208575089_3_alg».proof.Proof.Gen.Kernel
import proofs.«405512_j9380208575089_3_alg».proof.Proof.Gen.KernelIdeal
import proofs.«405512_j9380208575089_3_alg».proof.Proof.Gen.ReferenceIdeal
import proofs.«405512_j9380208575089_3_alg».proof.Proof.Gen.Pre_finite_inputs
import proofs.«405512_j9380208575089_3_alg».proof.Proof.FrameK
import proofs.«405512_j9380208575089_3_alg».proof.Proof.FrameKI
import proofs.«405512_j9380208575089_3_alg».proof.Proof.RefRead
import proofs.«405512_j9380208575089_3_alg».proof.Proof.PreFacts
import proofs.«405512_j9380208575089_3_alg».proof.Proof.KRegion
import proofs.«405512_j9380208575089_3_alg».proof.Proof.KTail
import proofs.«405512_j9380208575089_3_alg».proof.Proof.RefTail
import proofs.«405512_j9380208575089_3_alg».proof.Proof.BridgeVar
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_k : Cert.frame_Kernel := fun m ρ _ => Cert.Kernel.Frame.frame m ρ

/-- The idealized kernel program runs and keeps its arguments. -/
theorem frame_ki : Cert.frame_KernelIdeal := fun m ρ _ => Cert.KernelIdeal.Frame.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The two removed round trips f32 → bf16 → f32, of the features and of the means. -/
theorem preserves : Cert.preserves_Kernel_KernelIdeal :=
  ⟨IdealRules.truncf_extf.statement _ .f32 .bf16, IdealRules.truncf_extf.statement _ .f32 .bf16⟩

/-- Under the precondition both programs end with the same loss: the kernel program's later host operations applied to
    the launch's arrays of sums, counts and hinge sums meet the reference at the means, the picked means and the
    variance term, and from there both apply the same operations. -/
theorem algebraic : Cert.algebraic_KernelIdeal_ReferenceIdeal := by
  intro m ρ m' ρ' hpre hagree
  refine ⟨fun c => Cert.ReferenceIdeal.ReadP.val_main_v86 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ?_) (Cert.KernelIdeal.Frame.run_main (F := Ideal) m ρ)
    have hX : Cert.Spec.Finite (Cert.KernelIdeal.Region.X m c) := Cert.PreFacts.finite_of_pre _ _ (hpre c)
    have hT : Cert.Spec.Labelled (Cert.KernelIdeal.Region.T m c) := Cert.PreFacts.labelled_of_pre _ _ (hpre c)
    refine ⟨?_, ?_, ?_⟩
    · rw [(h c).2 Cert.KernelIdeal.main_v72 (Pipeline.mem_restRefs_of Cert.KernelIdeal.main_v72 (by decide) (by decide)),
        Cert.KernelIdeal.Tail.tail_eq (F := Ideal) m c,
        Cert.KernelIdeal.Region.sums_arr m c hX, Cert.KernelIdeal.Region.counts_arr m c,
        Cert.KernelIdeal.Region.varsums_arr m c hX hT]
      show Cert.KernelIdeal.Tail.tailOf (F := Ideal)
          (Cert.Bridge.Sarr (Cert.KernelIdeal.Region.X m c) (Cert.KernelIdeal.Region.T m c))
          (Cert.Bridge.Carr (Cert.KernelIdeal.Region.T m c))
          (Cert.Bridge.Varr (Cert.KernelIdeal.Region.X m c) (Cert.KernelIdeal.Region.T m c))
          (Cert.KernelIdeal.Region.T m c) = _
      unfold Cert.KernelIdeal.Tail.tailOf
      rw [Cert.Bridge.pick_eq _ _ hT, Cert.Bridge.means_eq _ _ hT, Cert.Bridge.var_eq _ _ hT]
      exact (Cert.ReferenceIdeal.Tail.ref_eq (F := Ideal) _ _).symm
    · exact ((h c).1 0).trans (((Cert.KernelIdeal.Frame.dats m 0 c).arrAt_in 0 rfl _).trans
        ((Cert.KernelIdeal.Frame.A_eq m c 0).trans (Cert.KernelIdeal.Frame.V_main_arg0 m c)))
    · exact ((h c).2 Cert.KernelIdeal.main_arg1 (Pipeline.mem_restRefs_of Cert.KernelIdeal.main_arg1 (by decide) (by decide))).trans
        (Cert.KernelIdeal.Frame.W_main_arg1 m (Cert.KernelIdeal.Frame.dats m) c)
  · refine (θ_run Cert.ReferenceIdeal.defs _ _).mono (fun r h c => ⟨?_, (h c).2⟩)
      (Cert.ReferenceIdeal.ValueP.run (F := Ideal) m' ρ')
    rw [(h c).1, Cert.ReferenceIdeal.ReadP.val_main_v86_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
